-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x16 : Shape := ⟨2, ![800000, 16]⟩
abbrev S80x128 : Shape := ⟨2, ![80, 128]⟩
abbrev S128x128 : Shape := ⟨2, ![128, 128]⟩
abbrev S192x128 : Shape := ⟨2, ![192, 128]⟩
abbrev S2x800000 : Shape := ⟨2, ![2, 800000]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S80x128 : S_.BroadcastsInDim S80x128 (![] : Fin 0 → Fin S80x128.rank)
  reducesTo_S80x128_S_d0_1 : S80x128.ReducesTo [0, 1] S_
  bcast_S_S128x128 : S_.BroadcastsInDim S128x128 (![] : Fin 0 → Fin S128x128.rank)
  reducesTo_S128x128_S_d0_1 : S128x128.ReducesTo [0, 1] S_
  bcast_S_S192x128 : S_.BroadcastsInDim S192x128 (![] : Fin 0 → Fin S192x128.rank)
  reducesTo_S192x128_S_d0_1 : S192x128.ReducesTo [0, 1] S_

variable [Facts]

def fn_part1 {F : FTy → Type} [FloatOps F] (main_arg4 : FVec F S192x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S192x128 .f32 := Host.absf main_arg4
  let main_cst_6 : FVec F S_ .f32 := constant S_ .f32 0x7F800000#32
  let main_v20 : FVec F S192x128 .f32 := broadcastInDim S192x128 ![] bcast_S_S192x128 main_cst_6
  let main_v21 : IVec S192x128 1 := cmpf .olt main_v19 main_v20
  let main_c_7 : IVec S_ 1 := constantI S_ 1 1#1
  let main_v22 : IVec S_ 1 := (fun x v => Host.reduce IntOp.andi x v reducesTo_S192x128_S_d0_1 h_S_) main_v21 main_c_7
  let main_v23 : IVec S_ 1 := andi main_v18 main_v22
  main_v23

def fn {F : FTy → Type} [FloatOps F] (main_arg0 : FVec F S50000x64 .f32) (main_arg1 : FVec F S800000x16 .f32) (main_arg2 : FVec F S80x128 .f32) (main_arg3 : FVec F S128x128 .f32) (main_arg4 : FVec F S192x128 .f32) (main_arg5 : IVec S2x800000 32) (main_arg6 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x16 .f32 := Host.absf main_arg1
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S80x128 .f32 := Host.absf main_arg2
  let main_cst_2 : FVec F S_ .f32 := constant S_ .f32 0x7F800000#32
  let main_v10 : FVec F S80x128 .f32 := broadcastInDim S80x128 ![] bcast_S_S80x128 main_cst_2
  let main_v11 : IVec S80x128 1 := cmpf .olt main_v9 main_v10
  let main_c_3 : IVec S_ 1 := constantI S_ 1 1#1
  let main_v12 : IVec S_ 1 := (fun x v => Host.reduce IntOp.andi x v reducesTo_S80x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S50000x64 : Shape := ⟨2, ![50000, 64]⟩
abbrev S800000x16 : Shape := ⟨2, ![800000, 16]⟩
abbrev S80x128 : Shape := ⟨2, ![80, 128]⟩
abbrev S128x128 : Shape := ⟨2, ![128, 128]⟩
abbrev S192x128 : Shape := ⟨2, ![192, 128]⟩
abbrev S2x800000 : Shape := ⟨2, ![2, 800000]⟩
abbrev S800000 : Shape := ⟨1, ![800000]⟩
abbrev S1x800000 : Shape := ⟨2, ![1, 800000]⟩
abbrev S_ : Shape := ⟨0, ![]⟩
abbrev S800000x1 : Shape := ⟨2, ![800000, 1]⟩
abbrev S800000x64 : Shape := ⟨2, ![800000, 64]⟩
abbrev S64x128 : Shape := ⟨2, ![64, 128]⟩
abbrev S16x128 : Shape := ⟨2, ![16, 128]⟩
abbrev S800000x128 : Shape := ⟨2, ![800000, 128]⟩
abbrev S16000x64 : Shape := ⟨2, ![16000, 64]⟩
abbrev S16000x16 : Shape := ⟨2, ![16000, 16]⟩
abbrev S16000x128 : Shape := ⟨2, ![16000, 128]⟩
abbrev S50000x128 : Shape := ⟨2, ![50000, 128]⟩
abbrev S8000x128 : Shape := ⟨2, ![8000, 128]⟩
abbrev S1x128 : Shape := ⟨2, ![1, 128]⟩
abbrev S5000x64 : Shape := ⟨2, ![5000, 64]⟩
abbrev S5000x128 : Shape := ⟨2, ![5000, 128]⟩
abbrev S128 : Shape := ⟨1, ![128]⟩

abbrev nBuf : Space → Nat
  | .hbm => 54
  | .vmem => 23
  | .smem => 0
  | _ => 0

abbrev bufTy : (tb : Table) → Fin (tcTables nBuf tb) → BufTy
  | .hbm, ⟨0, _⟩ => ⟨S50000x64, .f32⟩
  | .hbm, ⟨1, _⟩ => ⟨S800000x16, .f32⟩
  | .hbm, ⟨2, _⟩ => ⟨S80x128, .f32⟩
  | .hbm, ⟨3, _⟩ => ⟨S128x128, .f32⟩
  | .hbm, ⟨4, _⟩ => ⟨S192x128, .f32⟩
  | .hbm, ⟨5, _⟩ => ⟨S2x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S64x128, .f32⟩
  | .hbm, ⟨21, _⟩ => ⟨S16x128, .f32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x128, .f32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S64x128, .f32⟩
  | .hbm, ⟨51, _⟩ => ⟨S128x128, .f32⟩
  | .hbm, ⟨52, _⟩ => ⟨S1x128, .f32⟩
  | .hbm, ⟨53, _⟩ => ⟨S128, .f32⟩
  | .local _ .vmem, ⟨0, _⟩ => ⟨S16000x64, .f32⟩
  | .local _ .vmem, ⟨1, _⟩ => ⟨S16000x64, .f32⟩
  | .local _ .vmem, ⟨2, _⟩ => ⟨S16000x16, .f32⟩
  | .local _ .vmem, ⟨3, _⟩ => ⟨S16000x16, .f32⟩
  | .local _ .vmem, ⟨4, _⟩ => ⟨S64x128, .f32⟩
  | .local _ .vmem, ⟨5, _⟩ => ⟨S16x128, .f32⟩
  | .local _ .vmem, ⟨6, _⟩ => ⟨S16000x128, .f32⟩
  | .local _ .vmem, ⟨7, _⟩ => ⟨S16000x128, .f32⟩
  | .local _ .vmem, ⟨8, _⟩ => ⟨S8000x128, .f32⟩
  | .local _ .vmem, ⟨9, _⟩ => ⟨S8000x128, .f32⟩
  | .local _ .vmem, ⟨10, _⟩ => ⟨S8000x128, .f32⟩
  | .local _ .vmem, ⟨11, _⟩ => ⟨S8000x128, .f32⟩
  | .local _ .vmem, ⟨12, _⟩ => ⟨S128x128, .f32⟩
  | .local _ .vmem, ⟨13, _⟩ => ⟨S8000x128, .f32⟩
  | .local _ .vmem, ⟨14, _⟩ => ⟨S8000x128, .f32⟩
  | .local _ .vmem, ⟨15, _⟩ => ⟨S5000x64, .f32⟩
  | .local _ .vmem, ⟨16, _⟩ => ⟨S5000x64, .f32⟩
  | .local _ .vmem, ⟨17, _⟩ => ⟨S5000x128, .f32⟩
  | .local _ .vmem, ⟨18, _⟩ => ⟨S5000x128, .f32⟩
  | .local _ .vmem, ⟨19, _⟩ => ⟨S64x128, .f32⟩
  | .local _ .vmem, ⟨20, _⟩ => ⟨S128x128, .f32⟩
  | .local _ .vmem, ⟨21, _⟩ => ⟨S1x128, .f32⟩
  | .local _ .vmem, ⟨22, _⟩ => ⟨S1x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v26 : BitVec 1 := Scalar.cmpi .eq arg0 c9_i32
  let v27 : BitVec 32 := Scalar.extui v26
  let c0_i32_15 : BitVec 32 := 0#32
  let v28 : BitVec 1 := Scalar.cmpi .ne v27 c0_i32_15
  v28

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S80x128_S64x128_0_0 : S80x128.Slices ![0, 0] S64x128
  slices_S80x128_S16x128_64_0 : S80x128.Slices ![64, 0] S16x128
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  bitsLt_bf16_f32 : FTy.bits .bf16 < FTy.bits .f32
  inb_S16000x16_S16000x16_0_0 : ∀ a, (![0, 0] : Fin 2 → Nat) a + S16000x16.size a ≤ S16000x16.size a
  h_S16000x16 : 0 < S16000x16.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S16000x128_S16000x128_0_0 : ∀ a, (![0, 0] : Fin 2 → Nat) a + S16000x128.size a ≤ S16000x128.size a
  h_S16000x128 : 0 < S16000x128.numel
  bcast_S_S50000x128 : S_.BroadcastsInDim S50000x128 (![] : Fin 0 → Fin S50000x128.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x128_S128x128_0_0 : ∀ a, (![0, 0] : Fin 2 → Nat) a + S128x128.size a ≤ S128x128.size a
  h_S128x128 : 0 < S128x128.numel
  slices_S192x128_S64x128_0_0 : S192x128.Slices ![0, 0] S64x128
  slices_S192x128_S128x128_64_0 : S192x128.Slices ![64, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x64_S5000x64_0_0 : ∀ a, (![0, 0] : Fin 2 → Nat) a + S5000x64.size a ≤ S5000x64.size a
  h_S5000x64 : 0 < S5000x64.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S128x128_S128x128 : S128x128.ShapeCasts S128x128
  reduces_S5000x128_S128 : S5000x128.Reduces [0] S128
  shapeCasts_S128_S1x128 : S128.ShapeCasts S1x128
  shapeCasts_S1x128_S128 : S1x128.ShapeCasts S128
  gather_S50000x64_S800000x1_S800000x64_1_0_n_n_0_1_164_wf : GatherDims.WF S50000x64 S800000x1 S800000x64 [1] [0] [] [0] [] 1 ![1, 64]
  dot_S16000x64_S64x128_S16000x128_1_0_0_1_n_n_wf : DotDims.WF S16000x64 S64x128 S16000x128 [1] [0] [0] [1] [] []
  dot_S16000x16_S16x128_S16000x128_1_0_0_1_n_n_wf : DotDims.WF S16000x16 S16x128 S16000x128 [1] [0] [0] [1] [] []
  scatter_S50000x128_S800000x1_S800000x128_1_0_0_1_wf : ScatterDims.WF S50000x128 S800000x1 S800000x128 [1] [0] [0] 1
  gather_S50000x128_S800000x1_S800000x128_1_0_n_n_0_1_1128_wf : GatherDims.WF S50000x128 S800000x1 S800000x128 [1] [0] [] [0] [] 1 ![1, 128]
  gather_S800000x128_S800000x1_S800000x128_1_0_n_n_0_1_1128_wf : GatherDims.WF S800000x128 S800000x1 S800000x128 [1] [0] [] [0] [] 1 ![1, 128]
  dot_S8000x128_S128x128_S8000x128_1_0_0_1_n_n_wf : DotDims.WF S8000x128 S128x128 S8000x128 [1] [0] [0] [1] [] []
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x64.size a ≤ S800000x64.size a
  hwx0_0 : ∀ i : grid0.Coords, EltTy.bits .f32 = 32 ∨ (Rect.block (s := S800000x64) S16000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x16.size a ≤ S800000x16.size a
  hwx0_1 : ∀ i : grid0.Coords, EltTy.bits .f32 = 32 ∨ (Rect.block (s := S800000x16) S16000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x128.size a ≤ S16x128.size a
  hwx0_3 : ∀ i : grid0.Coords, EltTy.bits .f32 = 32 ∨ (Rect.block (s := S16x128) S16x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16000x128.size a ≤ S800000x128.size a
  hwx0_4 : ∀ i : grid0.Coords, EltTy.bits .f32 = 32 ∨ (Rect.block (s := S800000x128) S16000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S800000x128.size a
  hwx1_0 : ∀ i : grid1.Coords, EltTy.bits .f32 = 32 ∨ (Rect.block (s := S800000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x128.size a ≤ S800000x128.size a
  hwx1_1 : ∀ i : grid1.Coords, EltTy.bits .f32 = 32 ∨ (Rect.block (s := S800000x128) S8000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x128.size a ≤ S800000x128.size a
  hwx1_3 : ∀ i : grid1.Coords, EltTy.bits .f32 = 32 ∨ (Rect.block (s := S800000x128) S8000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S16000x64_S64x128_S16000x128_1_0_0_1_n_n : DotDims S16000x64 S64x128 S16000x128 where
  lhsContracting := [1]
  rhsContracting := [0]
  lhsNonContracting := [0]
  rhsNonContracting := [1]
  lhsBatch := []
  rhsBatch := []
  wf := dot_S16000x64_S64x128_S16000x128_1_0_0_1_n_n_wf
def dot_S16000x16_S16x128_S16000x128_1_0_0_1_n_n : DotDims S16000x16 S16x128 S16000x128 where
  lhsContracting := [1]
  rhsContracting := [0]
  lhsNonContracting := [0]
  rhsNonContracting := [1]
  lhsBatch := []
  rhsBatch := []
  wf := dot_S16000x16_S16x128_S16000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S800000x128_S800000x1_S800000x128_1_0_n_n_0_1_1128 : GatherDims S800000x128 S800000x1 S800000x128 where
  offsetDims := [1]
  collapsedSliceDims := [0]
  operandBatchingDims := []
  startIndicesBatchingDims := []
  startIndexMap := [0]
  indexVectorDim := 1
  sliceSizes := ![1, 128]
  wf := gather_S800000x128_S800000x1_S800000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v10) S16000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S16x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S16000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v23) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S8000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S8000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S1x128.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S50000x64 : Shape := ⟨2, ![50000, 64]⟩
abbrev S800000x16 : Shape := ⟨2, ![800000, 16]⟩
abbrev S80x128 : Shape := ⟨2, ![80, 128]⟩
abbrev S128x128 : Shape := ⟨2, ![128, 128]⟩
abbrev S192x128 : Shape := ⟨2, ![192, 128]⟩
abbrev S2x800000 : Shape := ⟨2, ![2, 800000]⟩
abbrev S800000 : Shape := ⟨1, ![800000]⟩
abbrev S1x800000 : Shape := ⟨2, ![1, 800000]⟩
abbrev S_ : Shape := ⟨0, ![]⟩
abbrev S800000x1 : Shape := ⟨2, ![800000, 1]⟩
abbrev S800000x64 : Shape := ⟨2, ![800000, 64]⟩
abbrev S800000x80 : Shape := ⟨2, ![800000, 80]⟩
abbrev S800000x128 : Shape := ⟨2, ![800000, 128]⟩
abbrev S50000x128 : Shape := ⟨2, ![50000, 128]⟩
abbrev S50000x192 : Shape := ⟨2, ![50000, 192]⟩
abbrev S128 : Shape := ⟨1, ![128]⟩

abbrev nBuf : Space → Nat
  | .hbm => 63
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x16, .f32⟩
  | .hbm, ⟨2, _⟩ => ⟨S80x128, .f32⟩
  | .hbm, ⟨3, _⟩ => ⟨S128x128, .f32⟩
  | .hbm, ⟨4, _⟩ => ⟨S192x128, .f32⟩
  | .hbm, ⟨5, _⟩ => ⟨S2x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S800000x80, .f32⟩
  | .hbm, ⟨21, _⟩ => ⟨S800000x128, .f32⟩
  | .hbm, ⟨22, _⟩ => ⟨S_, .f32⟩
  | .hbm, ⟨23, _⟩ => ⟨S800000x128, .f32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .f32⟩
  | .hbm, ⟨47, _⟩ => ⟨S800000x128, .f32⟩
  | .hbm, ⟨48, _⟩ => ⟨S800000x128, .f32⟩
  | .hbm, ⟨49, _⟩ => ⟨S_, .f32⟩
  | .hbm, ⟨50, _⟩ => ⟨S800000x128, .f32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000x192, .f32⟩
  | .hbm, ⟨57, _⟩ => ⟨S50000x128, .f32⟩
  | .hbm, ⟨58, _⟩ => ⟨S_, .f32⟩
  | .hbm, ⟨59, _⟩ => ⟨S50000x128, .f32⟩
  | .hbm, ⟨60, _⟩ => ⟨S50000x128, .f32⟩
  | .hbm, ⟨61, _⟩ => ⟨S_, .f32⟩
  | .hbm, ⟨62, _⟩ => ⟨S128, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_cst : Ref sig .tc := ⟨.hbm, 22, rfl⟩
abbrev main_call0_v0 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_3 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call1_cst : Ref sig .tc := ⟨.hbm, 49, rfl⟩
abbrev main_call1_v0 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call2_cst : Ref sig .tc := ⟨.hbm, 58, rfl⟩
abbrev main_call2_v0 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x16_S800000x80_d1 : Shape.Concatenates [S800000x64, S800000x16] S800000x80 1
  bcast_S_S800000x128 : S_.BroadcastsInDim S800000x128 (![] : Fin 0 → Fin S800000x128.rank)
  bcast_S_S50000x128 : S_.BroadcastsInDim S50000x128 (![] : Fin 0 → Fin S50000x128.rank)
  concatenates_S50000x64_S50000x128_S50000x192_d1 : Shape.Concatenates [S50000x64, S50000x128] S50000x192 1
  reducesTo_S50000x128_S128_d0 : S50000x128.ReducesTo [0] S128
  h_S_ : 0 < S_.numel
  gather_S50000x64_S800000x1_S800000x64_1_0_n_n_0_1_164_wf : GatherDims.WF S50000x64 S800000x1 S800000x64 [1] [0] [] [0] [] 1 ![1, 64]
  dot_S800000x80_S80x128_S800000x128_1_0_0_1_n_n_wf : DotDims.WF S800000x80 S80x128 S800000x128 [1] [0] [0] [1] [] []
  scatter_S50000x128_S800000x1_S800000x128_1_0_0_1_wf : ScatterDims.WF S50000x128 S800000x1 S800000x128 [1] [0] [0] 1
  gather_S50000x128_S800000x1_S800000x128_1_0_n_n_0_1_1128_wf : GatherDims.WF S50000x128 S800000x1 S800000x128 [1] [0] [] [0] [] 1 ![1, 128]
  gather_S800000x128_S800000x1_S800000x128_1_0_n_n_0_1_1128_wf : GatherDims.WF S800000x128 S800000x1 S800000x128 [1] [0] [] [0] [] 1 ![1, 128]
  dot_S800000x128_S128x128_S800000x128_1_0_0_1_n_n_wf : DotDims.WF S800000x128 S128x128 S800000x128 [1] [0] [0] [1] [] []
  dot_S50000x192_S192x128_S50000x128_1_0_0_1_n_n_wf : DotDims.WF S50000x192 S192x128 S50000x128 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x80_S80x128_S800000x128_1_0_0_1_n_n : DotDims S800000x80 S80x128 S800000x128 where
  lhsContracting := [1]
  rhsContracting := [0]
  lhsNonContracting := [0]
  rhsNonContracting := [1]
  lhsBatch := []
  rhsBatch := []
  wf := dot_S800000x80_S80x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S800000x128_S800000x1_S800000x128_1_0_n_n_0_1_1128 : GatherDims S800000x128 S800000x1 S800000x128 where
  offsetDims := [1]
  collapsedSliceDims := [0]
  operandBatchingDims := []
  startIndicesBatchingDims := []
  startIndexMap := [0]
  indexVectorDim := 1
  sliceSizes := ![1, 128]
  wf := gather_S800000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S50000x192_S192x128_S50000x128_1_0_0_1_n_n : DotDims S50000x192 S192x128 S50000x128 where
  lhsContracting := [1]
  rhsContracting := [0]
  lhsNonContracting := [0]
  rhsNonContracting := [1]
  lhsBatch := []
  rhsBatch := []
  wf := dot_S50000x192_S192x128_S50000x128_1_0_0_1_n_n_wf

class Facts : Prop extends Facts₀ where

variable [Facts]
-- ==== Proof.KbR0.lean ====
/-
  Region 0 of @main (the edge-initialisation call) at an arbitrary region-entry valuation V: one grid point
  reads the point's 16000 rows of the gathered node features and of the edge features and the two weight
  slices whole, and stores relu(x·W₁ + e·W₂) over the point's 16000 output rows.  Stated here: the block each
  window holds at a point, the value the body leaves in the output block as a function of the four input
  blocks, the body's triple, the proof data of the pipeline, and the body obligation at every point.
-/
import proofs.«128767_j54949811585617_1_alg».proof.Proof.Gen.Kernel.Launch
import proofs.«128767_j54949811585617_1_alg».proof.Proof.Gen.Kernel.Skeleton
import proofs.«128767_j54949811585617_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S16000x64 := Rect.unit (s := S16000x64) ![0, 0] S16000x64.size inb_S16000x64_S16000x64_0_0
abbrev r0_1 : Rect S16000x16 := Rect.unit (s := S16000x16) ![0, 0] S16000x16.size inb_S16000x16_S16000x16_0_0
abbrev r0_2 : Rect S64x128 := Rect.unit (s := S64x128) ![0, 0] S64x128.size inb_S64x128_S64x128_0_0
abbrev r0_3 : Rect S16x128 := Rect.unit (s := S16x128) ![0, 0] S16x128.size inb_S16x128_S16x128_0_0
abbrev r0_4 : Rect S16000x128 := Rect.unit (s := S16000x128) ![0, 0] S16000x128.size inb_S16000x128_S16000x128_0_0

/-- The output block after the body, from the four input blocks: the one whole-block store's value. -/
def out0_4 (x0 : Vec F S16000x64 .f32) (x1 : Vec F S16000x16 .f32) (x2 : Vec F S64x128 .f32) (x3 : Vec F S16x128 .f32) : Vec F S16000x128 .f32 :=
  View.canon [⟨r0_4, k0_pay1 (View.ld x0 r0_0) (View.ld x1 r0_1) (View.ld x2 r0_2) (View.ld x3 r0_3)⟩]

/-- The one store covers the whole block. -/
theorem cover0_4 (p0 : Vec F S16000x128 .f32) (y : S16000x128.Idx) :
    ∃ pc ∈ ([⟨r0_4, p0⟩] : List (View.Piece (Elt F) S16000x128 .f32)), y ∈ pc.1.set :=
  View.cover_of_tiled [⟨r0_4, p0⟩] S16000x128.size (by rfl) y

set_option maxHeartbeats 1000000 in
/-- The body on whole staging memrefs: the four inputs at read contents, the output at anything, runs to the
    inputs as they were and the output at `out0_4` of them. -/
theorem sound_kernel0 (c : Dev nD) (E : Set ℕ) (i : grid0.Coords)
    (arg1 : Memref sig .tc .vmem S16000x64 .f32) (harg1 : arg1.IsWhole) (arg2 : Memref sig .tc .vmem S16000x16 .f32) (harg2 : arg2.IsWhole)
    (arg3 : Memref sig .tc .vmem S64x128 .f32) (harg3 : arg3.IsWhole) (arg4 : Memref sig .tc .vmem S16x128 .f32) (harg4 : arg4.IsWhole)
    (arg5 : Memref sig .tc .vmem S16000x128 .f32) (harg5 : arg5.IsWhole)
    (x0 : Vec F S16000x64 .f32) (x1 : Vec F S16000x16 .f32) (x2 : Vec F S64x128 .f32) (x3 : Vec F S16x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__edge_init_kernel i arg1 harg1 arg2 harg2 arg3 harg3 arg4 harg4 arg5 harg5) K := by
  simp only [cc0__edge_init_kernel_eq_skeleton]; unfold cc0__edge_init_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- The proof data of pipeline 0 on core c: arrays as the region finds them; after the body each input's buffer
    at its block and the output's at `out0_4` of the input blocks; the class invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.KbR1.lean ====
/-
  Region 1 of @main (the message call) at an arbitrary region-entry valuation V: one grid point reads the
  point's 8000 rows of the gathered aggregate and of the reversed-edge states and the weight matrix whole, and
  stores relu((a − r)·W) over the point's 8000 output rows.  Stated here: the block each window holds at a
  point, the value the body leaves in the output block as a function of the three input blocks, the body's
  triple, the proof data of the pipeline, and the body obligation at every point.
-/
import proofs.«128767_j54949811585617_1_alg».proof.Proof.Gen.Kernel.Launch
import proofs.«128767_j54949811585617_1_alg».proof.Proof.Gen.Kernel.Skeleton
import proofs.«128767_j54949811585617_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S8000x128 := Rect.unit (s := S8000x128) ![0, 0] S8000x128.size inb_S8000x128_S8000x128_0_0
abbrev r1_2 : Rect S128x128 := Rect.unit (s := S128x128) ![0, 0] S128x128.size inb_S128x128_S128x128_0_0

/-- The output block after the body, from the three input blocks: the one whole-block store's value. -/
def out1_3 (x0 : Vec F S8000x128 .f32) (x1 : Vec F S8000x128 .f32) (x2 : Vec F S128x128 .f32) : Vec F S8000x128 .f32 :=
  View.canon [⟨r1_0, k1_pay1 (View.ld x0 r1_0) (View.ld x1 r1_0) (View.ld x2 r1_2)⟩]

/-- The one store covers the whole block. -/
theorem cover1_3 (p0 : Vec F S8000x128 .f32) (y : S8000x128.Idx) :
    ∃ pc ∈ ([⟨r1_0, p0⟩] : List (View.Piece (Elt F) S8000x128 .f32)), y ∈ pc.1.set :=
  View.cover_of_tiled [⟨r1_0, p0⟩] S8000x128.size (by rfl) y

set_option maxHeartbeats 1000000 in
/-- The body on whole staging memrefs: the three inputs at read contents, the output at anything, runs to the
    inputs as they were and the output at `out1_3` of them. -/
theorem sound_kernel1 (c : Dev nD) (E : Set ℕ) (i : grid1.Coords)
    (arg1 : Memref sig .tc .vmem S8000x128 .f32) (harg1 : arg1.IsWhole) (arg2 : Memref sig .tc .vmem S8000x128 .f32) (harg2 : arg2.IsWhole)
    (arg3 : Memref sig .tc .vmem S128x128 .f32) (harg3 : arg3.IsWhole)
    (arg4 : Memref sig .tc .vmem S8000x128 .f32) (harg4 : arg4.IsWhole)
    (x0 : Vec F S8000x128 .f32) (x1 : Vec F S8000x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__message_kernel i arg1 harg1 arg2 harg2 arg3 harg3 arg4 harg4) K := by
  simp only [cc1__message_kernel_eq_skeleton]; unfold cc1__message_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core c: arrays as the region finds them; after the body each input's buffer
    at its block and the output's at `out1_3` of the input blocks; the class invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.KbR2.lean ====
/-
  Region 2 of @main (the readout call) at an arbitrary region-entry valuation V.  The grid has ten points; a
  point reads 5000 rows of the node features and of the aggregated edge states and the two weight slices whole,
  and adds the column sums of relu(x·W₁ + n·W₂) over its 5000 rows to a 1×128 running sum kept in scratch
  memory between points: the first point zeroes the running sum before adding, the last point copies it to the
  output block afterwards.  Stated here: the two conditions in closed form over the grid, the block each
  window holds at a point, one point's update of the running sum, the running sum after each point, and the
  body's triple in each of the three control cases (first point, a middle point, last point).
-/
import proofs.«128767_j54949811585617_1_alg».proof.Proof.Gen.Kernel.Launch
import proofs.«128767_j54949811585617_1_alg».proof.Proof.Gen.Kernel.Skeleton
import proofs.«128767_j54949811585617_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions of the body, over the grid -/

/-- "this is the first point" as the body computes it. -/
abbrev cond2_0 (i : grid2.Coords) : Prop := (Scalar.cmpi .ne (Scalar.extui (Scalar.cmpi .eq (BitVec.ofNat 32 (i 0).val) 0#32)) 0#32) = 1#1
/-- "this is the last point" as the body computes it. -/
abbrev cond2_1 (i : grid2.Coords) : Prop := k2_cond2 i = 1#1

theorem hcond2_0 : ∀ t : Fin cfg2.N, cond2_0 (grid2.coords t) ↔ t.val = 0 :=
  (by decide +kernel : ∀ t : Fin grid2.N, cond2_0 (grid2.coords t) ↔ t.val = 0)
theorem hcond2_1 : ∀ t : Fin cfg2.N, cond2_1 (grid2.coords t) ↔ t.val = 9 :=
  (by decide +kernel : ∀ t : Fin grid2.N, cond2_1 (grid2.coords t) ↔ t.val = 9)

/-- The output window is idle, and not written back, at every point but the last; live at the last. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## One point's update, and the running sum after each point -/

theorem hz2 : (![0, 0] : Fin 2 → Nat) = fun _ => 0 := funext fun a => by fin_cases a <;> rfl

abbrev rS : Rect S1x128 := Rect.unit (s := S1x128) ![0, 0] S1x128.size inb_S1x128_S1x128_0_0

/-- The running sum a point leaves, from its four input blocks and the running sum it found. -/
def step2 (x0 : Vec F S5000x64 .f32) (x1 : Vec F S5000x128 .f32) (x2 : Vec F S64x128 .f32) (x3 : Vec F S128x128 .f32) (s : Vec F S1x128 .f32) : Vec F S1x128 .f32 :=
  k2_pay2 x0 x1 x2 x3 s

/-- The running sum the first point starts from: all zeros. -/
def zero2 : Vec F S1x128 .f32 := k2_pay1

/-- The running sum after point n. -/
def acc2 (c : Dev nD) : (n : ℕ) → n < cfg2.N → Vec F S1x128 .f32
  | 0, hn => step2 (iblk2 V c 0 ⟨0, hn⟩) (iblk2 V c 1 ⟨0, hn⟩) (iblk2 V c 2 ⟨0, hn⟩) (iblk2 V c 3 ⟨0, hn⟩) zero2
  | n + 1, hn => step2 (iblk2 V c 0 ⟨n + 1, hn⟩) (iblk2 V c 1 ⟨n + 1, hn⟩) (iblk2 V c 2 ⟨n + 1, hn⟩) (iblk2 V c 3 ⟨n + 1, hn⟩) (acc2 c n (Nat.lt_of_succ_lt hn))

theorem acc2_zero (c : Dev nD) (t : Fin cfg2.N) (h : t.val = 0) :
    acc2 V c t.val t.isLt = step2 (iblk2 V c 0 t) (iblk2 V c 1 t) (iblk2 V c 2 t) (iblk2 V c 3 t) zero2 := by
  obtain ⟨n, hn⟩ := t
  cases n with
  | zero => rfl
  | succ n => exact absurd h (Nat.succ_ne_zero n)

theorem acc2_pos (c : Dev nD) (t : Fin cfg2.N) (h : t.val ≠ 0) :
    acc2 V c t.val t.isLt = step2 (iblk2 V c 0 t) (iblk2 V c 1 t) (iblk2 V c 2 t) (iblk2 V c 3 t)
      (acc2 V c (t.val - 1) (Nat.lt_of_le_of_lt (Nat.sub_le _ _) t.isLt)) := by
  obtain ⟨n, hn⟩ := t
  cases n with
  | zero => exact absurd rfl h
  | succ n => rfl

/-! ## The body's triple, case by case -/

theorem coverS (p0 : Vec F S1x128 .f32) (L : List (View.Piece (Elt F) S1x128 .f32)) (y : S1x128.Idx) :
    ∃ pc ∈ ((⟨rS, p0⟩ : View.Piece (Elt F) S1x128 .f32) :: L), y ∈ pc.1.set :=
  ⟨_, List.mem_cons_self, View.mem_set_unit_zero hz2 inb_S1x128_S1x128_0_0 y⟩

set_option maxHeartbeats 1000000 in
theorem sound_kernel2_A (c : Dev nD) (E : Set ℕ) (i : grid2.Coords) (hc0 : cond2_0 i) (hc1 : ¬cond2_1 i)
    (arg1 : Memref sig .tc .vmem S5000x64 .f32) (harg1 : arg1.IsWhole) (arg2 : Memref sig .tc .vmem S5000x128 .f32) (harg2 : arg2.IsWhole)
    (arg3 : Memref sig .tc .vmem S64x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S1x128 .f32) (harg6 : arg6.IsWhole)
    (x0 : Vec F S5000x64 .f32) (x1 : Vec F S5000x128 .f32) (x2 : Vec F S64x128 .f32) (x3 : Vec F S128x128 .f32) (xo : Vec F S1x128 .f32) (s : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xo ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xo ∗ owns (c : Thread nD τ) arg6 fullShare (step2 x0 x1 x2 x3 zero2)) -∗ K ⟨⟩))
      ⊢ wp frame (wpE (defs₀ (F := F)) Variants.none c none) E (cc2__readout_kernel i arg1 harg1 arg2 harg2 arg3 harg3 arg4 harg4 arg5 harg5 arg6 harg6) K := by
  simp only [cc2__readout_kernel_eq_skeleton]; unfold cc2__readout_kernel_skel
  unfold owns

  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec (disch := first | exact hc0 | exact hc1)

  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3

  isplitl [H4]
  · iexists f4; isplitr; · ipureintro; rfl
    iexact H4
  iexists _; isplitr
  swap; · iexact H5
  ipureintro
  sl_unfold_words
  rw [View.read_writes_eq_canon _ _ _ (coverS _ _), View.canon_cons_unit_zero (S := S1x128) hz2]
  simp only [View.readAt_eq_ld, View.readCov_unit_zero (S := S1x128) _ hz2, View.ld_unit_zero (S := S5000x64) hz2, View.ld_unit_zero (S := S5000x128) hz2,
    View.ld_unit_zero (S := S64x128) hz2, View.ld_unit_zero (S := S128x128) hz2, View.ld_unit_zero (S := S1x128) hz2]
  rfl

set_option maxHeartbeats 1000000 in
theorem sound_kernel2_B (c : Dev nD) (E : Set ℕ) (i : grid2.Coords) (hc0 : ¬cond2_0 i) (hc1 : ¬cond2_1 i)
    (arg1 : Memref sig .tc .vmem S5000x64 .f32) (harg1 : arg1.IsWhole) (arg2 : Memref sig .tc .vmem S5000x128 .f32) (harg2 : arg2.IsWhole)
    (arg3 : Memref sig .tc .vmem S64x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S1x128 .f32) (harg6 : arg6.IsWhole)
    (x0 : Vec F S5000x64 .f32) (x1 : Vec F S5000x128 .f32) (x2 : Vec F S64x128 .f32) (x3 : Vec F S128x128 .f32) (xo : Vec F S1x128 .f32) (s : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xo ∗ owns (c : Thread nD τ) arg6 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xo ∗ owns (c : Thread nD τ) arg6 fullShare (step2 x0 x1 x2 x3 s)) -∗ K ⟨⟩))
      ⊢ wp frame (wpE (defs₀ (F := F)) Variants.none c none) E (cc2__readout_kernel i arg1 harg1 arg2 harg2 arg3 harg3 arg4 harg4 arg5 harg5 arg6 harg6) K := by
  simp only [cc2__readout_kernel_eq_skeleton]; unfold cc2__readout_kernel_skel
  unfold owns

  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)

  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3

  isplitl [H4]
  · iexists f4; isplitr; · ipureintro; rfl
    iexact H4
  iexists _; isplitr
  swap; · iexact H5
  ipureintro
  sl_unfold_words
  rw [View.read_writes_eq_canon _ _ _ (coverS _ _), View.canon_cons_unit_zero (S := S1x128) hz2]
  simp only [View.readAt_eq_ld, View.ld_unit_zero (S := S5000x64) hz2, View.ld_unit_zero (S := S5000x128) hz2,
    View.ld_unit_zero (S := S64x128) hz2, View.ld_unit_zero (S := S128x128) hz2, View.ld_unit_zero (S := S1x128) hz2]
  rfl

set_option maxHeartbeats 1000000 in
theorem sound_kernel2_C (c : Dev nD) (E : Set ℕ) (i : grid2.Coords) (hc0 : ¬cond2_0 i) (hc1 : cond2_1 i)
    (arg1 : Memref sig .tc .vmem S5000x64 .f32) (harg1 : arg1.IsWhole) (arg2 : Memref sig .tc .vmem S5000x128 .f32) (harg2 : arg2.IsWhole)
    (arg3 : Memref sig .tc .vmem S64x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S1x128 .f32) (harg6 : arg6.IsWhole)
    (x0 : Vec F S5000x64 .f32) (x1 : Vec F S5000x128 .f32) (x2 : Vec F S64x128 .f32) (x3 : Vec F S128x128 .f32) (xo : Vec F S1x128 .f32) (s : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (step2 x0 x1 x2 x3 s) ∗ owns (c : Thread nD τ) arg6 fullShare (step2 x0 x1 x2 x3 s)) -∗ K ⟨⟩))
      ⊢ wp frame (wpE (defs₀ (F := F)) Variants.none c none) E (cc2__readout_kernel i arg1 harg1 arg2 harg2 arg3 harg3 arg4 harg4 arg5 harg5 arg6 harg6) K := by
  simp only [cc2__readout_kernel_eq_skeleton]; unfold cc2__readout_kernel_skel
  unfold owns

  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec (disch := first | exact hc0 | exact hc1)

  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3

  isplitl [H4]
  · iexists _; isplitr
    swap; · iexact H4
    ipureintro
    sl_unfold_words
    rw [View.read_writes_eq_canon _ _ _ (coverS _ _), View.canon_cons_unit_zero (S := S1x128) hz2]
    simp only [View.readAt_eq_ld, View.readCov_unit_zero (S := S1x128) _ hz2, View.ld_unit_zero (S := S5000x64) hz2, View.ld_unit_zero (S := S5000x128) hz2,
      View.ld_unit_zero (S := S64x128) hz2, View.ld_unit_zero (S := S128x128) hz2, View.ld_unit_zero (S := S1x128) hz2]
    rfl
  iexists _; isplitr
  swap; · iexact H5
  ipureintro
  sl_unfold_words
  rw [View.read_writes_eq_canon _ _ _ (coverS _ _), View.canon_cons_unit_zero (S := S1x128) hz2]
  simp only [View.readAt_eq_ld, View.readCov_unit_zero (S := S1x128) _ hz2, View.ld_unit_zero (S := S5000x64) hz2, View.ld_unit_zero (S := S5000x128) hz2,
    View.ld_unit_zero (S := S64x128) hz2, View.ld_unit_zero (S := S128x128) hz2, View.ld_unit_zero (S := S1x128) hz2]
  rfl

/-! ## The invariant: the running sum is what the points so far left -/

abbrev scM2 : Memref sig .tc .vmem S1x128 .f32 := Memref.whole cc2_scratch0

/-- The core's scoped buffers this call neither stages nor uses (the other calls' staging buffers), each at some
    contents, with `X` in the scratch buffer's place. -/
def others2 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ X)

theorem others2_out (c : Dev nD) (X : sProp 𝕄) : others2 (F := F) c X ⊢ iprop(X ∗ others2 (F := F) c iprop(emp)) := by
  unfold others2
  iintro ⟨B0, B1, B2, B3, B4, B5, B6, B7, B8, B9, B10, B11, B12, B13, B14, HX⟩
  isplitl [HX]; · iexact HX
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  iempintro

theorem others2_in (c : Dev nD) (X : sProp 𝕄) : iprop(X ∗ others2 (F := F) c iprop(emp)) ⊢ others2 (F := F) c X := by
  unfold others2
  iintro ⟨HX, B0, B1, B2, B3, B4, B5, B6, B7, B8, B9, B10, B11, B12, B13, B14, -⟩
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  iexact HX

theorem others2_mono (c : Dev nD) {X Y : sProp 𝕄} (h : X ⊢ Y) : others2 (F := F) c X ⊢ others2 (F := F) c Y :=
  (others2_out c X).trans ((sep_mono h .rfl).trans (others2_in c Y))

/-- The class invariant, with the scratch buffer's conjunct in view. -/
theorem PhiA2_eq (c : Dev nD) :
    (Pipeline.ΦA (U := UR sig nD τ) (Val := Elt F) spec2 c : sProp 𝕄)
      = iprop(others2 c iprop(∃ d, owns (c : Thread nD τ) scM2 fullShare d) ∗ (∃ r, prngReg c r)) := by
  unfold Pipeline.ΦA others2; rw [scopedRest2_eq]; simp only [scM2, owns_whole]; try rfl

/-- The region invariant before position n: before the first point the class's (the scratch at anything); afterwards
    the scratch at the running sum the point before left. -/
def PhiS2 (c : Dev nD) : (n : ℕ) → n ≤ cfg2.N → sProp 𝕄
  | 0, _ => Pipeline.ΦA spec2 c
  | n + 1, hn => iprop(others2 c (owns (c : Thread nD τ) scM2 fullShare (acc2 V c n hn)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(others2 c (owns (c : Thread nD τ) scM2 fullShare (acc2 V c n hn)) ∗ (∃ r, prngReg c r)) := rfl

theorem PhiS2_pos (c : Dev nD) (n : ℕ) (h : n ≤ cfg2.N) (hz : n ≠ 0) :
    PhiS2 V c n h = iprop(others2 c (owns (c : Thread nD τ) scM2 fullShare (acc2 V c (n - 1) (by omega))) ∗ (∃ r, prngReg c r)) := by
  cases n with
  | zero => exact absurd rfl hz
  | succ n => rfl

/-! ## The pipeline's proof data -/

/-- The proof data of pipeline 2 on core c: arrays as the region finds them; after the body each input's buffer at
    its block and the output's at the running sum; the invariant above; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = acc2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t)

set_option maxHeartbeats 4000000 in
/-- The body at any point, by the point's case: the first point finds the scratch at anything and leaves the first
    block's column sums; a later point finds the running sum the point before left and adds its block's; the
    last point also copies the running sum to the output block; at the other points the output block is handed
    back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  by_cases h0 : t.val = 0
  · have hc0 : cond2_0 (grid2.coords t) := (hcond2_0 t).mpr h0
    have hc1 : ¬cond2_1 (grid2.coords t) := fun h => by have := (hcond2_1 t).mp h; omega
    rw [Dat.leavesExact_idle (dat2 V c) 4 t (idleAt2_4 t hc1) (noFlush2_4 t hc1)]
    rw [acc2_zero V c t h0]
    rw [PhiS2_castSucc V c t, PhiS2_zero V c _ _ h0, PhiA2_eq]
    iintro ⟨⟨Hoth, Hg⟩, Ho, ⟨%d0, H0⟩, ⟨%d1, H1⟩, ⟨%d2, H2⟩, ⟨%d3, H3⟩, ⟨%d4, H4⟩⟩
    ihave Hsp := (others2_out c _) $$ Hoth
    icases Hsp with ⟨HS, HR⟩
    iapply (sound_kernel2_A c Set.univ _ hc0 hc1 _ _ _ _ _ _ _ _ _ _ _ _ (iblk2 V c 0 t) (iblk2 V c 1 t) (iblk2 V c 2 t) (iblk2 V c 3 t) ((dat2 V c).before 4 t d4) zero2 _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS HR Hg]
    · isplitl [HS HR]
      · iapply (others2_in c _)
        isplitl [HS]; · iexact HS
        iexact HR
      iexact Hg
    isplitl [Ho]; · iexact Ho
    isplitl [H0]; · iexact H0
    isplitl [H1]; · iexact H1
    isplitl [H2]; · iexact H2
    isplitl [H3]; · iexact H3
    iexists _; iexact H4
  · have hc0 : ¬cond2_0 (grid2.coords t) := fun h => h0 ((hcond2_0 t).mp h)
    rw [acc2_pos V c t h0]
    rw [PhiS2_castSucc V c t, PhiS2_pos V c _ _ h0]
    by_cases h1 : t.val = 9
    · have hc1 : cond2_1 (grid2.coords t) := (hcond2_1 t).mpr h1
      rw [show (dat2 V c).leavesExact 4 t = owns (c : Thread nD τ) (st2_4 t) fullShare ((dat2 V c).after 4 t) from by
        unfold Dat.leavesExact; rw [liveAt2_4 t hc1], after2_4, acc2_pos V c t h0]
      iintro ⟨⟨Hoth, Hg⟩, Ho, ⟨%d0, H0⟩, ⟨%d1, H1⟩, ⟨%d2, H2⟩, ⟨%d3, H3⟩, ⟨%d4, H4⟩⟩
      ihave Hsp := (others2_out c _) $$ Hoth
      icases Hsp with ⟨HS, HR⟩
      iapply (sound_kernel2_C c Set.univ _ hc0 hc1 _ _ _ _ _ _ _ _ _ _ _ _ (iblk2 V c 0 t) (iblk2 V c 1 t) (iblk2 V c 2 t) (iblk2 V c 3 t) ((dat2 V c).before 4 t d4) (acc2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · iapply (others2_in c _)
          isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · have hc1 : ¬cond2_1 (grid2.coords t) := fun h => h1 ((hcond2_1 t).mp h)
      rw [Dat.leavesExact_idle (dat2 V c) 4 t (idleAt2_4 t hc1) (noFlush2_4 t hc1)]
      iintro ⟨⟨Hoth, Hg⟩, Ho, ⟨%d0, H0⟩, ⟨%d1, H1⟩, ⟨%d2, H2⟩, ⟨%d3, H3⟩, ⟨%d4, H4⟩⟩
      ihave Hsp := (others2_out c _) $$ Hoth
      icases Hsp with ⟨HS, HR⟩
      iapply (sound_kernel2_B c Set.univ _ hc0 hc1 _ _ _ _ _ _ _ _ _ _ _ _ (iblk2 V c 0 t) (iblk2 V c 1 t) (iblk2 V c 2 t) (iblk2 V c 3 t) ((dat2 V c).before 4 t d4) (acc2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · iapply (others2_in c _)
          isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The body obligation at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the running sum's value is forgotten. -/
theorem hout2 (c : Dev nD) : (dat2 V c).Φ (Fin.last cfg2.N) ⊢ Pipeline.ΦA spec2 c := by
  have hne : (Fin.last cfg2.N).val ≠ 0 := by rw [Fin.val_last]; have : cfg2.N = 10 := N_2; omega
  rw [show (dat2 V c).Φ (Fin.last cfg2.N) = PhiS2 V c (Fin.last cfg2.N).val (Nat.le_of_lt_succ (Fin.last cfg2.N).isLt) from rfl,
    PhiS2_pos V c _ _ hne, PhiA2_eq]
  exact sep_mono (others2_mono c (by iintro H; iexists _; iexact H)) .rfl

end Cert.Kernel.Frame

end
-- ==== Proof.KbRun.lean ====
/-
  The run of @main: host stretch, call 0, host stretch, call 1, host stretch, call 2, host stretch.  The buffer
  contents at every boundary are a fold from the launch memory: a host stretch applies its operations; a call
  leaves its windows' arrays at what its write-backs make of them and every other buffer as entered.  Each call is
  entered from the valuation before it and left at the one after it; the whole run ends with every unscoped
  buffer at the last valuation, so every argument array (which no stretch writes and no call changes) holds its
  launch contents, and the result buffer holds the last valuation's value.
-/
import proofs.«128767_j54949811585617_1_alg».proof.Proof.KbR0
import proofs.«128767_j54949811585617_1_alg».proof.Proof.KbR1
import proofs.«128767_j54949811585617_1_alg».proof.Proof.KbR2
import proofs.«128767_j54949811585617_1_alg».proof.Proof.Gen.Kernel.Regions

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)

/-- After the host stretch `hostOps0` (call 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_of (c : Dev nD) (r : Ref sig .tc) (h : r ∉ hostOps0_W) : W1 m ρ c r = W0 m ρ c r :=
  StableHlo.after_of_writes_sub hostOps0 _ hostOps0_writes h

/-- At call 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1` (call 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
theorem W3_of (c : Dev nD) (r : Ref sig .tc) (h : r ∉ hostOps1_W) : W3 m ρ c r = W2 m ρ c r :=
  StableHlo.after_of_writes_sub hostOps1 _ hostOps1_writes h

/-- At call 1's exit: its arrays at what the pipeline leaves (the inputs as entered, the output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2` (call 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
theorem W5_of (c : Dev nD) (r : Ref sig .tc) (h : r ∉ hostOps2_W) : W5 m ρ c r = W4 m ρ c r :=
  StableHlo.after_of_writes_sub hostOps2 _ hostOps2_writes h

/-- At call 2's exit: its arrays at what the pipeline leaves (the inputs as entered, the output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3` (the return). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
theorem W7_of (c : Dev nD) (r : Ref sig .tc) (h : r ∉ hostOps3_W) : W7 m ρ c r = W6 m ρ c r :=
  StableHlo.after_of_writes_sub hostOps3 _ hostOps3_writes h

/-! ## The arguments end as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of m ρ c main_arg0 (by decide)
    _ = W5 m ρ c (Proc.devRef .tc main_arg0) := (W6_arr m ρ c 0).trans (((dat2 (V5 m ρ) c).arrAt_in 0 rfl _).trans (A_eq2 (V5 m ρ) c 0))
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := W1_of m ρ c main_arg1 (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := (W4_arr m ρ c 2).trans (((dat1 (V3 m ρ) c).arrAt_in 2 rfl _).trans (A_eq1 (V3 m ρ) c 2))
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of m ρ c main_arg6 (by decide)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

/-! ## The proof data family and the thread state -/

/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-- The class invariant of call 2 from the generator register and the scoped rest, whatever rides between. -/
theorem PhiA_in2 (c : Dev nD) (P : sProp 𝕄) :
    (iprop((∃ r, prngReg c r) ∗ P ∗ Pipeline.scopedRest (Ix := Unit) (Name := ℕ) (U := UR sig nD τ) (Lvl := ℕ) (Val := Elt F) spec2 c) : sProp 𝕄)
      ⊢ Pipeline.ΦA spec2 c := by
  unfold Pipeline.ΦA
  iintro ⟨Hp, -, Hr⟩
  isplitl [Hr]; · iexact Hr
  iexact Hp

/-- and back. -/
theorem PhiA_out2 (c : Dev nD) :
    (Pipeline.ΦA (U := UR sig nD τ) (Val := Elt F) spec2 c : sProp 𝕄)
      ⊢ iprop((∃ r, prngReg c r) ∗ BI.emp ∗ Pipeline.scopedRest (Ix := Unit) (Name := ℕ) (U := UR sig nD τ) (Lvl := ℕ) (Val := Elt F) spec2 c) := by
  unfold Pipeline.ΦA
  iintro ⟨Hr, Hp⟩
  isplitl [Hp]; · iexact Hp
  isplitr; · iempintro
  iexact Hr

/-! ## The calls as segments -/

set_option backward.isDefEq.respectTransparency.types false in
/-- Call 0 over the thread state: entered from every unscoped buffer at `W1`, left at `W2`; its arrays split
    out of the unscoped buffers and put back at the exit contents; the generator register into the invariant and
    out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at `W3`, left at `W4`; its arrays split
    out of the unscoped buffers and put back at the exit contents; the generator register into the invariant and
    out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered from every unscoped buffer at `W5`, left at `W6`; its arrays split
    out of the unscoped buffers and put back at the exit contents; the generator register into the invariant and
    out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (PhiA_in2 c _).trans (hin2 (V5 m ρ) c)
  hout c := by
    rw [Pipeline.ownSems0_none]
    exact (hout2 (V5 m ρ) c).trans (PhiA_out2 c)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state holds every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c)⟩) (run_all m ρ)

end Cert.Kernel.Frame

end
-- ==== Proof.KiR0.lean ====
/-
  Region 0 of @main (the edge-initialisation call) at an arbitrary region-entry valuation V: one grid point
  reads the point's 16000 rows of the gathered node features and of the edge features and the two weight
  slices whole, and stores relu(x·W₁ + e·W₂) over the point's 16000 output rows.  Stated here: the block each
  window holds at a point, the value the body leaves in the output block as a function of the four input
  blocks, the body's triple, the proof data of the pipeline, and the body obligation at every point.
-/
import proofs.«128767_j54949811585617_1_alg».proof.Proof.Gen.KernelIdeal.Launch
import proofs.«128767_j54949811585617_1_alg».proof.Proof.Gen.KernelIdeal.Skeleton
import proofs.«128767_j54949811585617_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S16000x64 := Rect.unit (s := S16000x64) ![0, 0] S16000x64.size inb_S16000x64_S16000x64_0_0
abbrev r0_1 : Rect S16000x16 := Rect.unit (s := S16000x16) ![0, 0] S16000x16.size inb_S16000x16_S16000x16_0_0
abbrev r0_2 : Rect S64x128 := Rect.unit (s := S64x128) ![0, 0] S64x128.size inb_S64x128_S64x128_0_0
abbrev r0_3 : Rect S16x128 := Rect.unit (s := S16x128) ![0, 0] S16x128.size inb_S16x128_S16x128_0_0
abbrev r0_4 : Rect S16000x128 := Rect.unit (s := S16000x128) ![0, 0] S16000x128.size inb_S16000x128_S16000x128_0_0

/-- The output block after the body, from the four input blocks: the one whole-block store's value. -/
def out0_4 (x0 : Vec F S16000x64 .f32) (x1 : Vec F S16000x16 .f32) (x2 : Vec F S64x128 .f32) (x3 : Vec F S16x128 .f32) : Vec F S16000x128 .f32 :=
  View.canon [⟨r0_4, k0_pay1 (View.ld x0 r0_0) (View.ld x1 r0_1) (View.ld x2 r0_2) (View.ld x3 r0_3)⟩]

/-- The one store covers the whole block. -/
theorem cover0_4 (p0 : Vec F S16000x128 .f32) (y : S16000x128.Idx) :
    ∃ pc ∈ ([⟨r0_4, p0⟩] : List (View.Piece (Elt F) S16000x128 .f32)), y ∈ pc.1.set :=
  View.cover_of_tiled [⟨r0_4, p0⟩] S16000x128.size (by rfl) y

set_option maxHeartbeats 1000000 in
/-- The body on whole staging memrefs: the four inputs at read contents, the output at anything, runs to the
    inputs as they were and the output at `out0_4` of them. -/
theorem sound_kernel0 (c : Dev nD) (E : Set ℕ) (i : grid0.Coords)
    (arg1 : Memref sig .tc .vmem S16000x64 .f32) (harg1 : arg1.IsWhole) (arg2 : Memref sig .tc .vmem S16000x16 .f32) (harg2 : arg2.IsWhole)
    (arg3 : Memref sig .tc .vmem S64x128 .f32) (harg3 : arg3.IsWhole) (arg4 : Memref sig .tc .vmem S16x128 .f32) (harg4 : arg4.IsWhole)
    (arg5 : Memref sig .tc .vmem S16000x128 .f32) (harg5 : arg5.IsWhole)
    (x0 : Vec F S16000x64 .f32) (x1 : Vec F S16000x16 .f32) (x2 : Vec F S64x128 .f32) (x3 : Vec F S16x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__edge_init_kernel i arg1 harg1 arg2 harg2 arg3 harg3 arg4 harg4 arg5 harg5) K := by
  simp only [cc0__edge_init_kernel_eq_skeleton]; unfold cc0__edge_init_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- The proof data of pipeline 0 on core c: arrays as the region finds them; after the body each input's buffer
    at its block and the output's at `out0_4` of the input blocks; the class invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KiR1.lean ====
/-
  Region 1 of @main (the message call) at an arbitrary region-entry valuation V: one grid point reads the
  point's 8000 rows of the gathered aggregate and of the reversed-edge states and the weight matrix whole, and
  stores relu((a − r)·W) over the point's 8000 output rows.  Stated here: the block each window holds at a
  point, the value the body leaves in the output block as a function of the three input blocks, the body's
  triple, the proof data of the pipeline, and the body obligation at every point.
-/
import proofs.«128767_j54949811585617_1_alg».proof.Proof.Gen.KernelIdeal.Launch
import proofs.«128767_j54949811585617_1_alg».proof.Proof.Gen.KernelIdeal.Skeleton
import proofs.«128767_j54949811585617_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S8000x128 := Rect.unit (s := S8000x128) ![0, 0] S8000x128.size inb_S8000x128_S8000x128_0_0
abbrev r1_2 : Rect S128x128 := Rect.unit (s := S128x128) ![0, 0] S128x128.size inb_S128x128_S128x128_0_0

/-- The output block after the body, from the three input blocks: the one whole-block store's value. -/
def out1_3 (x0 : Vec F S8000x128 .f32) (x1 : Vec F S8000x128 .f32) (x2 : Vec F S128x128 .f32) : Vec F S8000x128 .f32 :=
  View.canon [⟨r1_0, k1_pay1 (View.ld x0 r1_0) (View.ld x1 r1_0) (View.ld x2 r1_2)⟩]

/-- The one store covers the whole block. -/
theorem cover1_3 (p0 : Vec F S8000x128 .f32) (y : S8000x128.Idx) :
    ∃ pc ∈ ([⟨r1_0, p0⟩] : List (View.Piece (Elt F) S8000x128 .f32)), y ∈ pc.1.set :=
  View.cover_of_tiled [⟨r1_0, p0⟩] S8000x128.size (by rfl) y

set_option maxHeartbeats 1000000 in
/-- The body on whole staging memrefs: the three inputs at read contents, the output at anything, runs to the
    inputs as they were and the output at `out1_3` of them. -/
theorem sound_kernel1 (c : Dev nD) (E : Set ℕ) (i : grid1.Coords)
    (arg1 : Memref sig .tc .vmem S8000x128 .f32) (harg1 : arg1.IsWhole) (arg2 : Memref sig .tc .vmem S8000x128 .f32) (harg2 : arg2.IsWhole)
    (arg3 : Memref sig .tc .vmem S128x128 .f32) (harg3 : arg3.IsWhole)
    (arg4 : Memref sig .tc .vmem S8000x128 .f32) (harg4 : arg4.IsWhole)
    (x0 : Vec F S8000x128 .f32) (x1 : Vec F S8000x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__message_kernel i arg1 harg1 arg2 harg2 arg3 harg3 arg4 harg4) K := by
  simp only [cc1__message_kernel_eq_skeleton]; unfold cc1__message_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core c: arrays as the region finds them; after the body each input's buffer
    at its block and the output's at `out1_3` of the input blocks; the class invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KiR2.lean ====
/-
  Region 2 of @main (the readout call) at an arbitrary region-entry valuation V.  The grid has ten points; a
  point reads 5000 rows of the node features and of the aggregated edge states and the two weight slices whole,
  and adds the column sums of relu(x·W₁ + n·W₂) over its 5000 rows to a 1×128 running sum kept in scratch
  memory between points: the first point zeroes the running sum before adding, the last point copies it to the
  output block afterwards.  Stated here: the two conditions in closed form over the grid, the block each
  window holds at a point, one point's update of the running sum, the running sum after each point, and the
  body's triple in each of the three control cases (first point, a middle point, last point).
-/
import proofs.«128767_j54949811585617_1_alg».proof.Proof.Gen.KernelIdeal.Launch
import proofs.«128767_j54949811585617_1_alg».proof.Proof.Gen.KernelIdeal.Skeleton
import proofs.«128767_j54949811585617_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions of the body, over the grid -/

/-- "this is the first point" as the body computes it. -/
abbrev cond2_0 (i : grid2.Coords) : Prop := (Scalar.cmpi .ne (Scalar.extui (Scalar.cmpi .eq (BitVec.ofNat 32 (i 0).val) 0#32)) 0#32) = 1#1
/-- "this is the last point" as the body computes it. -/
abbrev cond2_1 (i : grid2.Coords) : Prop := k2_cond2 i = 1#1

theorem hcond2_0 : ∀ t : Fin cfg2.N, cond2_0 (grid2.coords t) ↔ t.val = 0 :=
  (by decide +kernel : ∀ t : Fin grid2.N, cond2_0 (grid2.coords t) ↔ t.val = 0)
theorem hcond2_1 : ∀ t : Fin cfg2.N, cond2_1 (grid2.coords t) ↔ t.val = 9 :=
  (by decide +kernel : ∀ t : Fin grid2.N, cond2_1 (grid2.coords t) ↔ t.val = 9)

/-- The output window is idle, and not written back, at every point but the last; live at the last. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## One point's update, and the running sum after each point -/

theorem hz2 : (![0, 0] : Fin 2 → Nat) = fun _ => 0 := funext fun a => by fin_cases a <;> rfl

abbrev rS : Rect S1x128 := Rect.unit (s := S1x128) ![0, 0] S1x128.size inb_S1x128_S1x128_0_0

/-- The running sum a point leaves, from its four input blocks and the running sum it found. -/
def step2 (x0 : Vec F S5000x64 .f32) (x1 : Vec F S5000x128 .f32) (x2 : Vec F S64x128 .f32) (x3 : Vec F S128x128 .f32) (s : Vec F S1x128 .f32) : Vec F S1x128 .f32 :=
  k2_pay2 x0 x1 x2 x3 s

/-- The running sum the first point starts from: all zeros. -/
def zero2 : Vec F S1x128 .f32 := k2_pay1

/-- The running sum after point n. -/
def acc2 (c : Dev nD) : (n : ℕ) → n < cfg2.N → Vec F S1x128 .f32
  | 0, hn => step2 (iblk2 V c 0 ⟨0, hn⟩) (iblk2 V c 1 ⟨0, hn⟩) (iblk2 V c 2 ⟨0, hn⟩) (iblk2 V c 3 ⟨0, hn⟩) zero2
  | n + 1, hn => step2 (iblk2 V c 0 ⟨n + 1, hn⟩) (iblk2 V c 1 ⟨n + 1, hn⟩) (iblk2 V c 2 ⟨n + 1, hn⟩) (iblk2 V c 3 ⟨n + 1, hn⟩) (acc2 c n (Nat.lt_of_succ_lt hn))

theorem acc2_zero (c : Dev nD) (t : Fin cfg2.N) (h : t.val = 0) :
    acc2 V c t.val t.isLt = step2 (iblk2 V c 0 t) (iblk2 V c 1 t) (iblk2 V c 2 t) (iblk2 V c 3 t) zero2 := by
  obtain ⟨n, hn⟩ := t
  cases n with
  | zero => rfl
  | succ n => exact absurd h (Nat.succ_ne_zero n)

theorem acc2_pos (c : Dev nD) (t : Fin cfg2.N) (h : t.val ≠ 0) :
    acc2 V c t.val t.isLt = step2 (iblk2 V c 0 t) (iblk2 V c 1 t) (iblk2 V c 2 t) (iblk2 V c 3 t)
      (acc2 V c (t.val - 1) (Nat.lt_of_le_of_lt (Nat.sub_le _ _) t.isLt)) := by
  obtain ⟨n, hn⟩ := t
  cases n with
  | zero => exact absurd rfl h
  | succ n => rfl

/-! ## The body's triple, case by case -/

theorem coverS (p0 : Vec F S1x128 .f32) (L : List (View.Piece (Elt F) S1x128 .f32)) (y : S1x128.Idx) :
    ∃ pc ∈ ((⟨rS, p0⟩ : View.Piece (Elt F) S1x128 .f32) :: L), y ∈ pc.1.set :=
  ⟨_, List.mem_cons_self, View.mem_set_unit_zero hz2 inb_S1x128_S1x128_0_0 y⟩

set_option maxHeartbeats 1000000 in
theorem sound_kernel2_A (c : Dev nD) (E : Set ℕ) (i : grid2.Coords) (hc0 : cond2_0 i) (hc1 : ¬cond2_1 i)
    (arg1 : Memref sig .tc .vmem S5000x64 .f32) (harg1 : arg1.IsWhole) (arg2 : Memref sig .tc .vmem S5000x128 .f32) (harg2 : arg2.IsWhole)
    (arg3 : Memref sig .tc .vmem S64x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S1x128 .f32) (harg6 : arg6.IsWhole)
    (x0 : Vec F S5000x64 .f32) (x1 : Vec F S5000x128 .f32) (x2 : Vec F S64x128 .f32) (x3 : Vec F S128x128 .f32) (xo : Vec F S1x128 .f32) (s : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xo ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xo ∗ owns (c : Thread nD τ) arg6 fullShare (step2 x0 x1 x2 x3 zero2)) -∗ K ⟨⟩))
      ⊢ wp frame (wpE (defs₀ (F := F)) Variants.none c none) E (cc2__readout_kernel i arg1 harg1 arg2 harg2 arg3 harg3 arg4 harg4 arg5 harg5 arg6 harg6) K := by
  simp only [cc2__readout_kernel_eq_skeleton]; unfold cc2__readout_kernel_skel
  unfold owns

  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec (disch := first | exact hc0 | exact hc1)

  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3

  isplitl [H4]
  · iexists f4; isplitr; · ipureintro; rfl
    iexact H4
  iexists _; isplitr
  swap; · iexact H5
  ipureintro
  sl_unfold_words
  rw [View.read_writes_eq_canon _ _ _ (coverS _ _), View.canon_cons_unit_zero (S := S1x128) hz2]
  simp only [View.readAt_eq_ld, View.readCov_unit_zero (S := S1x128) _ hz2, View.ld_unit_zero (S := S5000x64) hz2, View.ld_unit_zero (S := S5000x128) hz2,
    View.ld_unit_zero (S := S64x128) hz2, View.ld_unit_zero (S := S128x128) hz2, View.ld_unit_zero (S := S1x128) hz2]
  rfl

set_option maxHeartbeats 1000000 in
theorem sound_kernel2_B (c : Dev nD) (E : Set ℕ) (i : grid2.Coords) (hc0 : ¬cond2_0 i) (hc1 : ¬cond2_1 i)
    (arg1 : Memref sig .tc .vmem S5000x64 .f32) (harg1 : arg1.IsWhole) (arg2 : Memref sig .tc .vmem S5000x128 .f32) (harg2 : arg2.IsWhole)
    (arg3 : Memref sig .tc .vmem S64x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S1x128 .f32) (harg6 : arg6.IsWhole)
    (x0 : Vec F S5000x64 .f32) (x1 : Vec F S5000x128 .f32) (x2 : Vec F S64x128 .f32) (x3 : Vec F S128x128 .f32) (xo : Vec F S1x128 .f32) (s : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xo ∗ owns (c : Thread nD τ) arg6 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xo ∗ owns (c : Thread nD τ) arg6 fullShare (step2 x0 x1 x2 x3 s)) -∗ K ⟨⟩))
      ⊢ wp frame (wpE (defs₀ (F := F)) Variants.none c none) E (cc2__readout_kernel i arg1 harg1 arg2 harg2 arg3 harg3 arg4 harg4 arg5 harg5 arg6 harg6) K := by
  simp only [cc2__readout_kernel_eq_skeleton]; unfold cc2__readout_kernel_skel
  unfold owns

  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)

  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3

  isplitl [H4]
  · iexists f4; isplitr; · ipureintro; rfl
    iexact H4
  iexists _; isplitr
  swap; · iexact H5
  ipureintro
  sl_unfold_words
  rw [View.read_writes_eq_canon _ _ _ (coverS _ _), View.canon_cons_unit_zero (S := S1x128) hz2]
  simp only [View.readAt_eq_ld, View.ld_unit_zero (S := S5000x64) hz2, View.ld_unit_zero (S := S5000x128) hz2,
    View.ld_unit_zero (S := S64x128) hz2, View.ld_unit_zero (S := S128x128) hz2, View.ld_unit_zero (S := S1x128) hz2]
  rfl

set_option maxHeartbeats 1000000 in
theorem sound_kernel2_C (c : Dev nD) (E : Set ℕ) (i : grid2.Coords) (hc0 : ¬cond2_0 i) (hc1 : cond2_1 i)
    (arg1 : Memref sig .tc .vmem S5000x64 .f32) (harg1 : arg1.IsWhole) (arg2 : Memref sig .tc .vmem S5000x128 .f32) (harg2 : arg2.IsWhole)
    (arg3 : Memref sig .tc .vmem S64x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S1x128 .f32) (harg6 : arg6.IsWhole)
    (x0 : Vec F S5000x64 .f32) (x1 : Vec F S5000x128 .f32) (x2 : Vec F S64x128 .f32) (x3 : Vec F S128x128 .f32) (xo : Vec F S1x128 .f32) (s : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (step2 x0 x1 x2 x3 s) ∗ owns (c : Thread nD τ) arg6 fullShare (step2 x0 x1 x2 x3 s)) -∗ K ⟨⟩))
      ⊢ wp frame (wpE (defs₀ (F := F)) Variants.none c none) E (cc2__readout_kernel i arg1 harg1 arg2 harg2 arg3 harg3 arg4 harg4 arg5 harg5 arg6 harg6) K := by
  simp only [cc2__readout_kernel_eq_skeleton]; unfold cc2__readout_kernel_skel
  unfold owns

  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec (disch := first | exact hc0 | exact hc1)

  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3

  isplitl [H4]
  · iexists _; isplitr
    swap; · iexact H4
    ipureintro
    sl_unfold_words
    rw [View.read_writes_eq_canon _ _ _ (coverS _ _), View.canon_cons_unit_zero (S := S1x128) hz2]
    simp only [View.readAt_eq_ld, View.readCov_unit_zero (S := S1x128) _ hz2, View.ld_unit_zero (S := S5000x64) hz2, View.ld_unit_zero (S := S5000x128) hz2,
      View.ld_unit_zero (S := S64x128) hz2, View.ld_unit_zero (S := S128x128) hz2, View.ld_unit_zero (S := S1x128) hz2]
    rfl
  iexists _; isplitr
  swap; · iexact H5
  ipureintro
  sl_unfold_words
  rw [View.read_writes_eq_canon _ _ _ (coverS _ _), View.canon_cons_unit_zero (S := S1x128) hz2]
  simp only [View.readAt_eq_ld, View.readCov_unit_zero (S := S1x128) _ hz2, View.ld_unit_zero (S := S5000x64) hz2, View.ld_unit_zero (S := S5000x128) hz2,
    View.ld_unit_zero (S := S64x128) hz2, View.ld_unit_zero (S := S128x128) hz2, View.ld_unit_zero (S := S1x128) hz2]
  rfl

/-! ## The invariant: the running sum is what the points so far left -/

abbrev scM2 : Memref sig .tc .vmem S1x128 .f32 := Memref.whole cc2_scratch0

/-- The core's scoped buffers this call neither stages nor uses (the other calls' staging buffers), each at some
    contents, with `X` in the scratch buffer's place. -/
def others2 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ X)

theorem others2_out (c : Dev nD) (X : sProp 𝕄) : others2 (F := F) c X ⊢ iprop(X ∗ others2 (F := F) c iprop(emp)) := by
  unfold others2
  iintro ⟨B0, B1, B2, B3, B4, B5, B6, B7, B8, B9, B10, B11, B12, B13, B14, HX⟩
  isplitl [HX]; · iexact HX
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  iempintro

theorem others2_in (c : Dev nD) (X : sProp 𝕄) : iprop(X ∗ others2 (F := F) c iprop(emp)) ⊢ others2 (F := F) c X := by
  unfold others2
  iintro ⟨HX, B0, B1, B2, B3, B4, B5, B6, B7, B8, B9, B10, B11, B12, B13, B14, -⟩
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  iexact HX

theorem others2_mono (c : Dev nD) {X Y : sProp 𝕄} (h : X ⊢ Y) : others2 (F := F) c X ⊢ others2 (F := F) c Y :=
  (others2_out c X).trans ((sep_mono h .rfl).trans (others2_in c Y))

/-- The class invariant, with the scratch buffer's conjunct in view. -/
theorem PhiA2_eq (c : Dev nD) :
    (Pipeline.ΦA (U := UR sig nD τ) (Val := Elt F) spec2 c : sProp 𝕄)
      = iprop(others2 c iprop(∃ d, owns (c : Thread nD τ) scM2 fullShare d) ∗ (∃ r, prngReg c r)) := by
  unfold Pipeline.ΦA others2; rw [scopedRest2_eq]; simp only [scM2, owns_whole]; try rfl

/-- The region invariant before position n: before the first point the class's (the scratch at anything); afterwards
    the scratch at the running sum the point before left. -/
def PhiS2 (c : Dev nD) : (n : ℕ) → n ≤ cfg2.N → sProp 𝕄
  | 0, _ => Pipeline.ΦA spec2 c
  | n + 1, hn => iprop(others2 c (owns (c : Thread nD τ) scM2 fullShare (acc2 V c n hn)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(others2 c (owns (c : Thread nD τ) scM2 fullShare (acc2 V c n hn)) ∗ (∃ r, prngReg c r)) := rfl

theorem PhiS2_pos (c : Dev nD) (n : ℕ) (h : n ≤ cfg2.N) (hz : n ≠ 0) :
    PhiS2 V c n h = iprop(others2 c (owns (c : Thread nD τ) scM2 fullShare (acc2 V c (n - 1) (by omega))) ∗ (∃ r, prngReg c r)) := by
  cases n with
  | zero => exact absurd rfl hz
  | succ n => rfl

/-! ## The pipeline's proof data -/

/-- The proof data of pipeline 2 on core c: arrays as the region finds them; after the body each input's buffer at
    its block and the output's at the running sum; the invariant above; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = acc2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t)

set_option maxHeartbeats 4000000 in
/-- The body at any point, by the point's case: the first point finds the scratch at anything and leaves the first
    block's column sums; a later point finds the running sum the point before left and adds its block's; the
    last point also copies the running sum to the output block; at the other points the output block is handed
    back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  by_cases h0 : t.val = 0
  · have hc0 : cond2_0 (grid2.coords t) := (hcond2_0 t).mpr h0
    have hc1 : ¬cond2_1 (grid2.coords t) := fun h => by have := (hcond2_1 t).mp h; omega
    rw [Dat.leavesExact_idle (dat2 V c) 4 t (idleAt2_4 t hc1) (noFlush2_4 t hc1)]
    rw [acc2_zero V c t h0]
    rw [PhiS2_castSucc V c t, PhiS2_zero V c _ _ h0, PhiA2_eq]
    iintro ⟨⟨Hoth, Hg⟩, Ho, ⟨%d0, H0⟩, ⟨%d1, H1⟩, ⟨%d2, H2⟩, ⟨%d3, H3⟩, ⟨%d4, H4⟩⟩
    ihave Hsp := (others2_out c _) $$ Hoth
    icases Hsp with ⟨HS, HR⟩
    iapply (sound_kernel2_A c Set.univ _ hc0 hc1 _ _ _ _ _ _ _ _ _ _ _ _ (iblk2 V c 0 t) (iblk2 V c 1 t) (iblk2 V c 2 t) (iblk2 V c 3 t) ((dat2 V c).before 4 t d4) zero2 _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS HR Hg]
    · isplitl [HS HR]
      · iapply (others2_in c _)
        isplitl [HS]; · iexact HS
        iexact HR
      iexact Hg
    isplitl [Ho]; · iexact Ho
    isplitl [H0]; · iexact H0
    isplitl [H1]; · iexact H1
    isplitl [H2]; · iexact H2
    isplitl [H3]; · iexact H3
    iexists _; iexact H4
  · have hc0 : ¬cond2_0 (grid2.coords t) := fun h => h0 ((hcond2_0 t).mp h)
    rw [acc2_pos V c t h0]
    rw [PhiS2_castSucc V c t, PhiS2_pos V c _ _ h0]
    by_cases h1 : t.val = 9
    · have hc1 : cond2_1 (grid2.coords t) := (hcond2_1 t).mpr h1
      rw [show (dat2 V c).leavesExact 4 t = owns (c : Thread nD τ) (st2_4 t) fullShare ((dat2 V c).after 4 t) from by
        unfold Dat.leavesExact; rw [liveAt2_4 t hc1], after2_4, acc2_pos V c t h0]
      iintro ⟨⟨Hoth, Hg⟩, Ho, ⟨%d0, H0⟩, ⟨%d1, H1⟩, ⟨%d2, H2⟩, ⟨%d3, H3⟩, ⟨%d4, H4⟩⟩
      ihave Hsp := (others2_out c _) $$ Hoth
      icases Hsp with ⟨HS, HR⟩
      iapply (sound_kernel2_C c Set.univ _ hc0 hc1 _ _ _ _ _ _ _ _ _ _ _ _ (iblk2 V c 0 t) (iblk2 V c 1 t) (iblk2 V c 2 t) (iblk2 V c 3 t) ((dat2 V c).before 4 t d4) (acc2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · iapply (others2_in c _)
          isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · have hc1 : ¬cond2_1 (grid2.coords t) := fun h => h1 ((hcond2_1 t).mp h)
      rw [Dat.leavesExact_idle (dat2 V c) 4 t (idleAt2_4 t hc1) (noFlush2_4 t hc1)]
      iintro ⟨⟨Hoth, Hg⟩, Ho, ⟨%d0, H0⟩, ⟨%d1, H1⟩, ⟨%d2, H2⟩, ⟨%d3, H3⟩, ⟨%d4, H4⟩⟩
      ihave Hsp := (others2_out c _) $$ Hoth
      icases Hsp with ⟨HS, HR⟩
      iapply (sound_kernel2_B c Set.univ _ hc0 hc1 _ _ _ _ _ _ _ _ _ _ _ _ (iblk2 V c 0 t) (iblk2 V c 1 t) (iblk2 V c 2 t) (iblk2 V c 3 t) ((dat2 V c).before 4 t d4) (acc2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · iapply (others2_in c _)
          isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The body obligation at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the running sum's value is forgotten. -/
theorem hout2 (c : Dev nD) : (dat2 V c).Φ (Fin.last cfg2.N) ⊢ Pipeline.ΦA spec2 c := by
  have hne : (Fin.last cfg2.N).val ≠ 0 := by rw [Fin.val_last]; have : cfg2.N = 10 := N_2; omega
  rw [show (dat2 V c).Φ (Fin.last cfg2.N) = PhiS2 V c (Fin.last cfg2.N).val (Nat.le_of_lt_succ (Fin.last cfg2.N).isLt) from rfl,
    PhiS2_pos V c _ _ hne, PhiA2_eq]
  exact sep_mono (others2_mono c (by iintro H; iexists _; iexact H)) .rfl

end Cert.KernelIdeal.Frame

end
-- ==== Proof.KiRun.lean ====
/-
  The run of @main: host stretch, call 0, host stretch, call 1, host stretch, call 2, host stretch.  The buffer
  contents at every boundary are a fold from the launch memory: a host stretch applies its operations; a call
  leaves its windows' arrays at what its write-backs make of them and every other buffer as entered.  Each call is
  entered from the valuation before it and left at the one after it; the whole run ends with every unscoped
  buffer at the last valuation, so every argument array (which no stretch writes and no call changes) holds its
  launch contents, and the result buffer holds the last valuation's value.
-/
import proofs.«128767_j54949811585617_1_alg».proof.Proof.KiR0
import proofs.«128767_j54949811585617_1_alg».proof.Proof.KiR1
import proofs.«128767_j54949811585617_1_alg».proof.Proof.KiR2
import proofs.«128767_j54949811585617_1_alg».proof.Proof.Gen.KernelIdeal.Regions

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)

/-- After the host stretch `hostOps0` (call 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_of (c : Dev nD) (r : Ref sig .tc) (h : r ∉ hostOps0_W) : W1 m ρ c r = W0 m ρ c r :=
  StableHlo.after_of_writes_sub hostOps0 _ hostOps0_writes h

/-- At call 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1` (call 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
theorem W3_of (c : Dev nD) (r : Ref sig .tc) (h : r ∉ hostOps1_W) : W3 m ρ c r = W2 m ρ c r :=
  StableHlo.after_of_writes_sub hostOps1 _ hostOps1_writes h

/-- At call 1's exit: its arrays at what the pipeline leaves (the inputs as entered, the output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2` (call 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
theorem W5_of (c : Dev nD) (r : Ref sig .tc) (h : r ∉ hostOps2_W) : W5 m ρ c r = W4 m ρ c r :=
  StableHlo.after_of_writes_sub hostOps2 _ hostOps2_writes h

/-- At call 2's exit: its arrays at what the pipeline leaves (the inputs as entered, the output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3` (the return). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
theorem W7_of (c : Dev nD) (r : Ref sig .tc) (h : r ∉ hostOps3_W) : W7 m ρ c r = W6 m ρ c r :=
  StableHlo.after_of_writes_sub hostOps3 _ hostOps3_writes h

/-! ## The arguments end as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of m ρ c main_arg0 (by decide)
    _ = W5 m ρ c (Proc.devRef .tc main_arg0) := (W6_arr m ρ c 0).trans (((dat2 (V5 m ρ) c).arrAt_in 0 rfl _).trans (A_eq2 (V5 m ρ) c 0))
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := W1_of m ρ c main_arg1 (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := (W4_arr m ρ c 2).trans (((dat1 (V3 m ρ) c).arrAt_in 2 rfl _).trans (A_eq1 (V3 m ρ) c 2))
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of m ρ c main_arg6 (by decide)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

/-! ## The proof data family and the thread state -/

/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-- The class invariant of call 2 from the generator register and the scoped rest, whatever rides between. -/
theorem PhiA_in2 (c : Dev nD) (P : sProp 𝕄) :
    (iprop((∃ r, prngReg c r) ∗ P ∗ Pipeline.scopedRest (Ix := Unit) (Name := ℕ) (U := UR sig nD τ) (Lvl := ℕ) (Val := Elt F) spec2 c) : sProp 𝕄)
      ⊢ Pipeline.ΦA spec2 c := by
  unfold Pipeline.ΦA
  iintro ⟨Hp, -, Hr⟩
  isplitl [Hr]; · iexact Hr
  iexact Hp

/-- and back. -/
theorem PhiA_out2 (c : Dev nD) :
    (Pipeline.ΦA (U := UR sig nD τ) (Val := Elt F) spec2 c : sProp 𝕄)
      ⊢ iprop((∃ r, prngReg c r) ∗ BI.emp ∗ Pipeline.scopedRest (Ix := Unit) (Name := ℕ) (U := UR sig nD τ) (Lvl := ℕ) (Val := Elt F) spec2 c) := by
  unfold Pipeline.ΦA
  iintro ⟨Hr, Hp⟩
  isplitl [Hp]; · iexact Hp
  isplitr; · iempintro
  iexact Hr

/-! ## The calls as segments -/

set_option backward.isDefEq.respectTransparency.types false in
/-- Call 0 over the thread state: entered from every unscoped buffer at `W1`, left at `W2`; its arrays split
    out of the unscoped buffers and put back at the exit contents; the generator register into the invariant and
    out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at `W3`, left at `W4`; its arrays split
    out of the unscoped buffers and put back at the exit contents; the generator register into the invariant and
    out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered from every unscoped buffer at `W5`, left at `W6`; its arrays split
    out of the unscoped buffers and put back at the exit contents; the generator register into the invariant and
    out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (PhiA_in2 c _).trans (hin2 (V5 m ρ) c)
  hout c := by
    rw [Pipeline.ownSems0_none]
    exact (hout2 (V5 m ρ) c).trans (PhiA_out2 c)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state holds every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c)⟩) (run_all m ρ)

end Cert.KernelIdeal.Frame

end
-- ==== Proof.KiStages.lean ====
/-
  What each host stretch of @main leaves in the buffers the calls and the later stretches read, as the stretch's
  operations composed over the valuation it starts from (extended reals): the gathers' index vectors are the
  edge-index rows with negative entries wrapped, the scatter-adds accumulate into zeros, the weight slices are
  rows 0..63 and the rest.
-/
import proofs.«128767_j54949811585617_1_alg».proof.Proof.Gen.KernelIdeal.Launch
import Idealize.ShloMosaic.Lib.StableHlo.Run
import Idealize.ShloMosaic.PureOps.Ideal

set_option maxRecDepth 16384

noncomputable section

namespace Cert.KernelIdeal.Frame

open Idealize.ShloMosaic Idealize.ShloMosaic.TcCoe Idealize.SL.Sem Idealize.ShloMosaic.StableHlo
open Cert.KernelIdeal Cert.KernelIdeal.Gen

variable (X : Valuation τ sig (Elt Ideal))

set_option maxHeartbeats 2000000 in
theorem stage0_v1 : StableHlo.after (hostOps0 (F := Ideal)) X (Proc.devRef .tc main_v1) = (shapeCast _ (((extractStridedSlice S1x800000 ![0, 0] · slices_S2x800000_S1x800000_0_0) : (⟨S2x800000, .i32⟩ : BufTy).Contents (Elt Ideal) → (⟨S1x800000, .i32⟩ : BufTy).Contents (Elt Ideal)) (X (Proc.devRef .tc main_arg5))) shapeCasts_S1x800000_S800000) := by
  after_results_simp <;> rfl

set_option maxHeartbeats 2000000 in
theorem stage0_v3 : StableHlo.after (hostOps0 (F := Ideal)) X (Proc.devRef .tc main_v3) = (shapeCast _ (((extractStridedSlice S1x800000 ![1, 0] · slices_S2x800000_S1x800000_1_0) : (⟨S2x800000, .i32⟩ : BufTy).Contents (Elt Ideal) → (⟨S1x800000, .i32⟩ : BufTy).Contents (Elt Ideal)) (X (Proc.devRef .tc main_arg5))) shapeCasts_S1x800000_S800000) := by
  after_results_simp <;> rfl

set_option maxHeartbeats 2000000 in
theorem stage0_v10 : StableHlo.after (hostOps0 (F := Ideal)) X (Proc.devRef .tc main_v10) = (((fun x i => Host.gather gather_S50000x64_S800000x1_S800000x64_1_0_n_n_0_1_164 x i) : (⟨S50000x64, .f32⟩ : BufTy).Contents (Elt Ideal) → (⟨S800000x1, .i32⟩ : BufTy).Contents (Elt Ideal) → (⟨S800000x64, .f32⟩ : BufTy).Contents (Elt Ideal)) (X (Proc.devRef .tc main_arg0)) ((broadcastInDim S800000x1 ![0] bcast_S800000_S800000x1_0 : (⟨S800000, .i32⟩ : BufTy).Contents (Elt Ideal) → (⟨S800000x1, .i32⟩ : BufTy).Contents (Elt Ideal)) ((select : (⟨S800000, .i1⟩ : BufTy).Contents (Elt Ideal) → (⟨S800000, .i32⟩ : BufTy).Contents (Elt Ideal) → (⟨S800000, .i32⟩ : BufTy).Contents (Elt Ideal) → (⟨S800000, .i32⟩ : BufTy).Contents (Elt Ideal)) ((cmpi .slt : (⟨S800000, .i32⟩ : BufTy).Contents (Elt Ideal) → (⟨S800000, .i32⟩ : BufTy).Contents (Elt Ideal) → (⟨S800000, .i1⟩ : BufTy).Contents (Elt Ideal)) (shapeCast _ (((extractStridedSlice S1x800000 ![0, 0] · slices_S2x800000_S1x800000_0_0) : (⟨S2x800000, .i32⟩ : BufTy).Contents (Elt Ideal) → (⟨S1x800000, .i32⟩ : BufTy).Contents (Elt Ideal)) (X (Proc.devRef .tc main_arg5))) shapeCasts_S1x800000_S800000) ((broadcastInDim S800000 ![] bcast_S_S800000 : (⟨S_, .i32⟩ : BufTy).Contents (Elt Ideal) → (⟨S800000, .i32⟩ : BufTy).Contents (Elt Ideal)) (constantI S_ 32 0#32))) ((addi : (⟨S800000, .i32⟩ : BufTy).Contents (Elt Ideal) → (⟨S800000, .i32⟩ : BufTy).Contents (Elt Ideal) → (⟨S800000, .i32⟩ : BufTy).Contents (Elt Ideal)) (shapeCast _ (((extractStridedSlice S1x800000 ![0, 0] · slices_S2x800000_S1x800000_0_0) : (⟨S2x800000, .i32⟩ : BufTy).Contents (Elt Ideal) → (⟨S1x800000, .i32⟩ : BufTy).Contents (Elt Ideal)) (X (Proc.devRef .tc main_arg5))) shapeCasts_S1x800000_S800000) ((broadcastInDim S800000 ![] bcast_S_S800000 : (⟨S_, .i32⟩ : BufTy).Contents (Elt Ideal) → (⟨S800000, .i32⟩ : BufTy).Contents (Elt Ideal)) (constantI S_ 32 50000#32))) (shapeCast _ (((extractStridedSlice S1x800000 ![0, 0] · slices_S2x800000_S1x800000_0_0) : (⟨S2x800000, .i32⟩ : BufTy).Contents (Elt Ideal) → (⟨S1x800000, .i32⟩ : BufTy).Contents (Elt Ideal)) (X (Proc.devRef .tc main_arg5))) shapeCasts_S1x800000_S800000)))) := by
  after_results_simp <;> rfl

set_option maxHeartbeats 2000000 in
theorem stage0_v11 : StableHlo.after (hostOps0 (F := Ideal)) X (Proc.devRef .tc main_v11) = (((extractStridedSlice S64x128 ![0, 0] · slices_S80x128_S64x128_0_0) : (⟨S80x128, .f32⟩ : BufTy).Contents (Elt Ideal) → (⟨S64x128, .f32⟩ : BufTy).Contents (Elt Ideal)) (X (Proc.devRef .tc main_arg2))) := by
  after_results_simp <;> rfl

set_option maxHeartbeats 2000000 in
theorem stage0_v12 : StableHlo.after (hostOps0 (F := Ideal)) X (Proc.devRef .tc main_v12) = (((extractStridedSlice S16x128 ![64, 0] · slices_S80x128_S16x128_64_0) : (⟨S80x128, .f32⟩ : BufTy).Contents (Elt Ideal) → (⟨S16x128, .f32⟩ : BufTy).Contents (Elt Ideal)) (X (Proc.devRef .tc main_arg2))) := by
  after_results_simp <;> rfl

set_option maxHeartbeats 2000000 in
theorem stage1_v23 : StableHlo.after (hostOps1 (F := Ideal)) X (Proc.devRef .tc main_v23) = (((fun x i => Host.gather gather_S50000x128_S800000x1_S800000x128_1_0_n_n_0_1_1128 x i) : (⟨S50000x128, .f32⟩ : BufTy).Contents (Elt Ideal) → (⟨S800000x1, .i32⟩ : BufTy).Contents (Elt Ideal) → (⟨S800000x128, .f32⟩ : BufTy).Contents (Elt Ideal)) (((fun x i u => Host.scatterAdd (F := Ideal) (φ := .f32) scatter_S50000x128_S800000x1_S800000x128_1_0_0_1 x i u) : (⟨S50000x128, .f32⟩ : BufTy).Contents (Elt Ideal) → (⟨S800000x1, .i32⟩ : BufTy).Contents (Elt Ideal) → (⟨S800000x128, .f32⟩ : BufTy).Contents (Elt Ideal) → (⟨S50000x128, .f32⟩ : BufTy).Contents (Elt Ideal)) ((broadcastInDim S50000x128 ![] bcast_S_S50000x128 : (⟨S_, .f32⟩ : BufTy).Contents (Elt Ideal) → (⟨S50000x128, .f32⟩ : BufTy).Contents (Elt Ideal)) (constant (F := Ideal) S_ .f32 0x00000000#32)) ((broadcastInDim S800000x1 ![0] bcast_S800000_S800000x1_0 : (⟨S800000, .i32⟩ : BufTy).Contents (Elt Ideal) → (⟨S800000x1, .i32⟩ : BufTy).Contents (Elt Ideal)) (X (Proc.devRef .tc main_v3))) (X (Proc.devRef .tc main_v13))) ((broadcastInDim S800000x1 ![0] bcast_S800000_S800000x1_0 : (⟨S800000, .i32⟩ : BufTy).Contents (Elt Ideal) → (⟨S800000x1, .i32⟩ : BufTy).Contents (Elt Ideal)) ((select : (⟨S800000, .i1⟩ : BufTy).Contents (Elt Ideal) → (⟨S800000, .i32⟩ : BufTy).Contents (Elt Ideal) → (⟨S800000, .i32⟩ : BufTy).Contents (Elt Ideal) → (⟨S800000, .i32⟩ : BufTy).Contents (Elt Ideal)) ((cmpi .slt : (⟨S800000, .i32⟩ : BufTy).Contents (Elt Ideal) → (⟨S800000, .i32⟩ : BufTy).Contents (Elt Ideal) → (⟨S800000, .i1⟩ : BufTy).Contents (Elt Ideal)) (X (Proc.devRef .tc main_v1)) ((broadcastInDim S800000 ![] bcast_S_S800000 : (⟨S_, .i32⟩ : BufTy).Contents (Elt Ideal) → (⟨S800000, .i32⟩ : BufTy).Contents (Elt Ideal)) (constantI S_ 32 0#32))) ((addi : (⟨S800000, .i32⟩ : BufTy).Contents (Elt Ideal) → (⟨S800000, .i32⟩ : BufTy).Contents (Elt Ideal) → (⟨S800000, .i32⟩ : BufTy).Contents (Elt Ideal)) (X (Proc.devRef .tc main_v1)) ((broadcastInDim S800000 ![] bcast_S_S800000 : (⟨S_, .i32⟩ : BufTy).Contents (Elt Ideal) → (⟨S800000, .i32⟩ : BufTy).Contents (Elt Ideal)) (constantI S_ 32 50000#32))) (X (Proc.devRef .tc main_v1))))) := by
  after_results_simp <;> rfl

set_option maxHeartbeats 2000000 in
theorem stage1_v30 : StableHlo.after (hostOps1 (F := Ideal)) X (Proc.devRef .tc main_v30) = (((fun x i => Host.gather gather_S800000x128_S800000x1_S800000x128_1_0_n_n_0_1_1128 x i) : (⟨S800000x128, .f32⟩ : BufTy).Contents (Elt Ideal) → (⟨S800000x1, .i32⟩ : BufTy).Contents (Elt Ideal) → (⟨S800000x128, .f32⟩ : BufTy).Contents (Elt Ideal)) (X (Proc.devRef .tc main_v13)) ((broadcastInDim S800000x1 ![0] bcast_S800000_S800000x1_0 : (⟨S800000, .i32⟩ : BufTy).Contents (Elt Ideal) → (⟨S800000x1, .i32⟩ : BufTy).Contents (Elt Ideal)) ((select : (⟨S800000, .i1⟩ : BufTy).Contents (Elt Ideal) → (⟨S800000, .i32⟩ : BufTy).Contents (Elt Ideal) → (⟨S800000, .i32⟩ : BufTy).Contents (Elt Ideal) → (⟨S800000, .i32⟩ : BufTy).Contents (Elt Ideal)) ((cmpi .slt : (⟨S800000, .i32⟩ : BufTy).Contents (Elt Ideal) → (⟨S800000, .i32⟩ : BufTy).Contents (Elt Ideal) → (⟨S800000, .i1⟩ : BufTy).Contents (Elt Ideal)) (X (Proc.devRef .tc main_arg6)) ((broadcastInDim S800000 ![] bcast_S_S800000 : (⟨S_, .i32⟩ : BufTy).Contents (Elt Ideal) → (⟨S800000, .i32⟩ : BufTy).Contents (Elt Ideal)) (constantI S_ 32 0#32))) ((addi : (⟨S800000, .i32⟩ : BufTy).Contents (Elt Ideal) → (⟨S800000, .i32⟩ : BufTy).Contents (Elt Ideal) → (⟨S800000, .i32⟩ : BufTy).Contents (Elt Ideal)) (X (Proc.devRef .tc main_arg6)) ((broadcastInDim S800000 ![] bcast_S_S800000 : (⟨S_, .i32⟩ : BufTy).Contents (Elt Ideal) → (⟨S800000, .i32⟩ : BufTy).Contents (Elt Ideal)) (constantI S_ 32 800000#32))) (X (Proc.devRef .tc main_arg6))))) := by
  after_results_simp <;> rfl

set_option maxHeartbeats 2000000 in
theorem stage2_v34 : StableHlo.after (hostOps2 (F := Ideal)) X (Proc.devRef .tc main_v34) = (((fun x i u => Host.scatterAdd (F := Ideal) (φ := .f32) scatter_S50000x128_S800000x1_S800000x128_1_0_0_1 x i u) : (⟨S50000x128, .f32⟩ : BufTy).Contents (Elt Ideal) → (⟨S800000x1, .i32⟩ : BufTy).Contents (Elt Ideal) → (⟨S800000x128, .f32⟩ : BufTy).Contents (Elt Ideal) → (⟨S50000x128, .f32⟩ : BufTy).Contents (Elt Ideal)) ((broadcastInDim S50000x128 ![] bcast_S_S50000x128 : (⟨S_, .f32⟩ : BufTy).Contents (Elt Ideal) → (⟨S50000x128, .f32⟩ : BufTy).Contents (Elt Ideal)) (constant (F := Ideal) S_ .f32 0x00000000#32)) ((broadcastInDim S800000x1 ![0] bcast_S800000_S800000x1_0 : (⟨S800000, .i32⟩ : BufTy).Contents (Elt Ideal) → (⟨S800000x1, .i32⟩ : BufTy).Contents (Elt Ideal)) (X (Proc.devRef .tc main_v3))) (X (Proc.devRef .tc main_v31))) := by
  after_results_simp <;> rfl

set_option maxHeartbeats 2000000 in
theorem stage2_v35 : StableHlo.after (hostOps2 (F := Ideal)) X (Proc.devRef .tc main_v35) = (((extractStridedSlice S64x128 ![0, 0] · slices_S192x128_S64x128_0_0) : (⟨S192x128, .f32⟩ : BufTy).Contents (Elt Ideal) → (⟨S64x128, .f32⟩ : BufTy).Contents (Elt Ideal)) (X (Proc.devRef .tc main_arg4))) := by
  after_results_simp <;> rfl

set_option maxHeartbeats 2000000 in
theorem stage2_v36 : StableHlo.after (hostOps2 (F := Ideal)) X (Proc.devRef .tc main_v36) = (((extractStridedSlice S128x128 ![64, 0] · slices_S192x128_S128x128_64_0) : (⟨S192x128, .f32⟩ : BufTy).Contents (Elt Ideal) → (⟨S128x128, .f32⟩ : BufTy).Contents (Elt Ideal)) (X (Proc.devRef .tc main_arg4))) := by
  after_results_simp <;> rfl

set_option maxHeartbeats 2000000 in
theorem stage3_v38 : StableHlo.after (hostOps3 (F := Ideal)) X (Proc.devRef .tc main_v38) = (shapeCast _ (X (Proc.devRef .tc main_v37)) shapeCasts_S1x128_S128) := by
  after_results_simp <;> rfl

end Cert.KernelIdeal.Frame

end
-- ==== Proof.Spec.lean ====
/-
  The three kernel calls' results as whole-array functions over the extended reals, index by index.
  Call 0 leaves relu(x·W₁ + e·W₂) (800000 rows, contractions over 64 and over 16 columns); call 1 leaves
  relu((a − r)·W) (800000 rows, contraction over 128); call 2 leaves, in its one output row, the sum over all
  50000 rows — taken block by block, ten blocks of 5000 rows — of relu(x·W₁ + n·W₂) (contractions over 64
  and over 128 columns).  No program is imported here: these are the functions the value lemmas are stated
  against, and the algebra below them needs only that addition on the extended reals is commutative and
  associative.
-/
import Idealize.ShloMosaic.PureOps.Ideal
import Idealize.ShloMosaic.Lib.ValueIdx

noncomputable section

namespace Cert.Spec

open Idealize.ShloMosaic Idealize.ShloMosaic.ValueIdx
open scoped BigOperators

/-- A rank-2 array of extended reals. -/
abbrev A2 (n0 n1 : Nat) : Type := (⟨2, ![n0, n1]⟩ : Shape).Idx → EReal

/-- Row p, column q of relu(x·W₁ + e·W₂), the two products contracted over 64 and 16 columns. -/
def edgeInitAt (x : A2 800000 64) (e : A2 800000 16) (w1 : A2 64 128) (w2 : A2 16 128) (p : Fin 800000) (q : Fin 128) : EReal :=
  max ((∑ k : Fin 64, x (ix2 p k) * w1 (ix2 k q)) + (∑ k : Fin 16, e (ix2 p k) * w2 (ix2 k q))) 0

/-- Call 0's result array. -/
def edgeInit (x : A2 800000 64) (e : A2 800000 16) (w1 : A2 64 128) (w2 : A2 16 128) : A2 800000 128 :=
  fun i => edgeInitAt x e w1 w2 (i 0) (i 1)

/-- Row p, column q of relu((a − r)·W), contracted over 128 columns. -/
def messageAt (a r : A2 800000 128) (w : A2 128 128) (p : Fin 800000) (q : Fin 128) : EReal :=
  max (∑ k : Fin 128, (a (ix2 p k) - r (ix2 p k)) * w (ix2 k q)) 0

/-- Call 1's result array. -/
def message (a r : A2 800000 128) (w : A2 128 128) : A2 800000 128 :=
  fun i => messageAt a r w (i 0) (i 1)

/-- Row p, column q of relu(x·W₁ + n·W₂), the two products contracted over 64 and 128 columns. -/
def readoutRowAt (x : A2 50000 64) (n : A2 50000 128) (w1 : A2 64 128) (w2 : A2 128 128) (p : Fin 50000) (q : Fin 128) : EReal :=
  max ((∑ k : Fin 64, x (ix2 p k) * w1 (ix2 k q)) + (∑ k : Fin 128, n (ix2 p k) * w2 (ix2 k q))) 0

/-- Row r of block t (ten blocks of 5000 rows) as a row of the whole array. -/
def blockRow (t : Fin 10) (r : Fin 5000) : Fin 50000 := ⟨5000 * t.val + r.val, by have := t.isLt; have := r.isLt; omega⟩

/-- Column q of block t's column sums of relu(x·W₁ + n·W₂). -/
def readoutBlockSum (x : A2 50000 64) (n : A2 50000 128) (w1 : A2 64 128) (w2 : A2 128 128) (t : Fin 10) (q : Fin 128) : EReal :=
  ∑ r : Fin 5000, readoutRowAt x n w1 w2 (blockRow t r) q

/-- Call 2's result row: the blocks' column sums added up. -/
def readout (x : A2 50000 64) (n : A2 50000 128) (w1 : A2 64 128) (w2 : A2 128 128) : A2 1 128 :=
  fun i => ∑ t : Fin 10, readoutBlockSum x n w1 w2 t (i 1)

end Cert.Spec

end
-- ==== Proof.KiVal0.lean ====
/-
  The value of the first call's result array after the pipeline's run, at the extended reals: relu(x·W₁ + e·W₂),
  index by index.  First the stored block at one (row, column): the maximum with zero of the two contractions added, each
  matrix product into the zero accumulator being the plain sum over its contracted axis.  Then what one grid point writes
  back: its 16000 rows of the two row arrays against the two weight arrays whole, which is that point's block of the
  whole-array function.  Last, every row lies in the block of exactly the point row / 16000 and every point writes its
  block back, so the array ends holding the whole-array function.
-/
import proofs.«128767_j54949811585617_1_alg».proof.Proof.KiR0
import proofs.«128767_j54949811585617_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Frame

open Cert.KernelIdeal Cert.KernelIdeal.Gen Idealize.ShloMosaic Idealize.ShloMosaic.TcCoe Idealize.ShloMosaic.ValueIdx
open Idealize.ShloMosaic.Pipeline (Dat Cfg Window)
open scoped BigOperators

/-! ## The payload at an index

At the ideal values the stored block is, index by index, the maximum with zero of the two contractions added: a format
change is the identity, a same-shape cast is the identity, and a matrix product into the zero accumulator is the plain
sum over the contracted axis, re-indexed here by the contracted coordinate itself. -/

theorem lhs_dot0_0 (i : S16000x128.Idx) (q : dot_S16000x64_S64x128_S16000x128_1_0_0_1_n_n.contr.Idx) :
    (dot_S16000x64_S64x128_S16000x128_1_0_0_1_n_n.lhsIdx i q 0).val = (i 0).val := by
  unfold DotDims.lhsIdx
  rw [dif_neg (show ¬(0 : Fin S16000x64.rank) ∈ dot_S16000x64_S64x128_S16000x128_1_0_0_1_n_n.lhsBatch by decide), dif_pos (show (0 : Fin S16000x64.rank) ∈ dot_S16000x64_S64x128_S16000x128_1_0_0_1_n_n.lhsNonContracting by decide)]
  rfl
theorem lhs_dot0_1 (i : S16000x128.Idx) (q : dot_S16000x64_S64x128_S16000x128_1_0_0_1_n_n.contr.Idx) :
    (dot_S16000x64_S64x128_S16000x128_1_0_0_1_n_n.lhsIdx i q 1).val = (q ⟨0, by decide⟩).val :=
  dot_S16000x64_S64x128_S16000x128_1_0_0_1_n_n.lhsIdx_val_of_single rfl i q
theorem rhs_dot0_0 (i : S16000x128.Idx) (q : dot_S16000x64_S64x128_S16000x128_1_0_0_1_n_n.contr.Idx) :
    (dot_S16000x64_S64x128_S16000x128_1_0_0_1_n_n.rhsIdx i q 0).val = (q ⟨0, by decide⟩).val :=
  dot_S16000x64_S64x128_S16000x128_1_0_0_1_n_n.rhsIdx_val_of_single rfl i q
theorem rhs_dot0_1 (i : S16000x128.Idx) (q : dot_S16000x64_S64x128_S16000x128_1_0_0_1_n_n.contr.Idx) :
    (dot_S16000x64_S64x128_S16000x128_1_0_0_1_n_n.rhsIdx i q 1).val = (i 1).val := by
  unfold DotDims.rhsIdx
  rw [dif_neg (show ¬(1 : Fin S64x128.rank) ∈ dot_S16000x64_S64x128_S16000x128_1_0_0_1_n_n.rhsBatch by decide), dif_pos (show (1 : Fin S64x128.rank) ∈ dot_S16000x64_S64x128_S16000x128_1_0_0_1_n_n.rhsNonContracting by decide)]
  rfl

theorem lhs_dot1_0 (i : S16000x128.Idx) (q : dot_S16000x16_S16x128_S16000x128_1_0_0_1_n_n.contr.Idx) :
    (dot_S16000x16_S16x128_S16000x128_1_0_0_1_n_n.lhsIdx i q 0).val = (i 0).val := by
  unfold DotDims.lhsIdx
  rw [dif_neg (show ¬(0 : Fin S16000x16.rank) ∈ dot_S16000x16_S16x128_S16000x128_1_0_0_1_n_n.lhsBatch by decide), dif_pos (show (0 : Fin S16000x16.rank) ∈ dot_S16000x16_S16x128_S16000x128_1_0_0_1_n_n.lhsNonContracting by decide)]
  rfl
theorem lhs_dot1_1 (i : S16000x128.Idx) (q : dot_S16000x16_S16x128_S16000x128_1_0_0_1_n_n.contr.Idx) :
    (dot_S16000x16_S16x128_S16000x128_1_0_0_1_n_n.lhsIdx i q 1).val = (q ⟨0, by decide⟩).val :=
  dot_S16000x16_S16x128_S16000x128_1_0_0_1_n_n.lhsIdx_val_of_single rfl i q
theorem rhs_dot1_0 (i : S16000x128.Idx) (q : dot_S16000x16_S16x128_S16000x128_1_0_0_1_n_n.contr.Idx) :
    (dot_S16000x16_S16x128_S16000x128_1_0_0_1_n_n.rhsIdx i q 0).val = (q ⟨0, by decide⟩).val :=
  dot_S16000x16_S16x128_S16000x128_1_0_0_1_n_n.rhsIdx_val_of_single rfl i q
theorem rhs_dot1_1 (i : S16000x128.Idx) (q : dot_S16000x16_S16x128_S16000x128_1_0_0_1_n_n.contr.Idx) :
    (dot_S16000x16_S16x128_S16000x128_1_0_0_1_n_n.rhsIdx i q 1).val = (i 1).val := by
  unfold DotDims.rhsIdx
  rw [dif_neg (show ¬(1 : Fin S16x128.rank) ∈ dot_S16000x16_S16x128_S16000x128_1_0_0_1_n_n.rhsBatch by decide), dif_pos (show (1 : Fin S16x128.rank) ∈ dot_S16000x16_S16x128_S16000x128_1_0_0_1_n_n.rhsNonContracting by decide)]
  rfl

/-- The 64-column product into the zero accumulator, at row p and column q: the sum over the 64 contracted columns. -/
theorem mm0_apply {φ₁ φ₂ : FTy} (a : FVec Ideal S16000x64 φ₁) (b : FVec Ideal S64x128 φ₂) (p : Fin 16000) (q : Fin 128) :
    FloatOps.matmul dot_S16000x64_S64x128_S16000x128_1_0_0_1_n_n none a b (constant S16000x128 .f32 0x00000000#32) (ix2 p q)
      = ∑ k : Fin 64, a (ix2 p k) * b (ix2 k q) := by
  rw [Ideal.matmul_constant_zero_apply, ← Equiv.sum_comp (contrEquiv1 dot_S16000x64_S64x128_S16000x128_1_0_0_1_n_n 64 rfl rfl).symm]
  refine Finset.sum_congr rfl fun k _ => ?_
  have hk := contrEquiv1_symm_val dot_S16000x64_S64x128_S16000x128_1_0_0_1_n_n 64 rfl rfl k
  have el : dot_S16000x64_S64x128_S16000x128_1_0_0_1_n_n.lhsIdx (ix2 p q) ((contrEquiv1 dot_S16000x64_S64x128_S16000x128_1_0_0_1_n_n 64 rfl rfl).symm k) = ix2 p k := funext fun a => Fin.ext (by
    match a with
    | ⟨0, _⟩ => exact lhs_dot0_0 _ _
    | ⟨1, _⟩ => exact (lhs_dot0_1 _ _).trans hk)
  have er : dot_S16000x64_S64x128_S16000x128_1_0_0_1_n_n.rhsIdx (ix2 p q) ((contrEquiv1 dot_S16000x64_S64x128_S16000x128_1_0_0_1_n_n 64 rfl rfl).symm k) = ix2 k q := funext fun a => Fin.ext (by
    match a with
    | ⟨0, _⟩ => exact (rhs_dot0_0 _ _).trans hk
    | ⟨1, _⟩ => exact rhs_dot0_1 _ _)
  rw [el, er]

/-- The 16-column product into the zero accumulator, at row p and column q: the sum over the 16 contracted columns. -/
theorem mm1_apply {φ₁ φ₂ : FTy} (a : FVec Ideal S16000x16 φ₁) (b : FVec Ideal S16x128 φ₂) (p : Fin 16000) (q : Fin 128) :
    FloatOps.matmul dot_S16000x16_S16x128_S16000x128_1_0_0_1_n_n none a b (constant S16000x128 .f32 0x00000000#32) (ix2 p q)
      = ∑ k : Fin 16, a (ix2 p k) * b (ix2 k q) := by
  rw [Ideal.matmul_constant_zero_apply, ← Equiv.sum_comp (contrEquiv1 dot_S16000x16_S16x128_S16000x128_1_0_0_1_n_n 16 rfl rfl).symm]
  refine Finset.sum_congr rfl fun k _ => ?_
  have hk := contrEquiv1_symm_val dot_S16000x16_S16x128_S16000x128_1_0_0_1_n_n 16 rfl rfl k
  have el : dot_S16000x16_S16x128_S16000x128_1_0_0_1_n_n.lhsIdx (ix2 p q) ((contrEquiv1 dot_S16000x16_S16x128_S16000x128_1_0_0_1_n_n 16 rfl rfl).symm k) = ix2 p k := funext fun a => Fin.ext (by
    match a with
    | ⟨0, _⟩ => exact lhs_dot1_0 _ _
    | ⟨1, _⟩ => exact (lhs_dot1_1 _ _).trans hk)
  have er : dot_S16000x16_S16x128_S16000x128_1_0_0_1_n_n.rhsIdx (ix2 p q) ((contrEquiv1 dot_S16000x16_S16x128_S16000x128_1_0_0_1_n_n 16 rfl rfl).symm k) = ix2 k q := funext fun a => Fin.ext (by
    match a with
    | ⟨0, _⟩ => exact (rhs_dot1_0 _ _).trans hk
    | ⟨1, _⟩ => exact rhs_dot1_1 _ _)
  rw [el, er]

/-- The stored block at row p, column q: relu of the two contractions added. -/
theorem pay0_apply (x0 : Vec Ideal S16000x64 .f32) (x1 : Vec Ideal S16000x16 .f32) (x2 : Vec Ideal S64x128 .f32) (x3 : Vec Ideal S16x128 .f32)
    (p : Fin 16000) (q : Fin 128) :
    k0_pay1 (F := Ideal) x0 x1 x2 x3 (ix2 p q)
      = max ((∑ k : Fin 64, x0 (ix2 p k) * x2 (ix2 k q)) + (∑ k : Fin 16, x1 (ix2 p k) * x3 (ix2 k q))) 0 := by
  unfold k0_pay1
  rw [shapeCast_self, shapeCast_self, shapeCast_self]
  refine (maximumf_apply _ _ (ix2 p q)).trans ?_
  refine congrArg₂ max ?_ ?_
  · refine (addf_apply _ _ (ix2 p q)).trans ?_
    refine congrArg₂ (· + ·) ?_ ?_
    · exact mm0_apply _ _ p q
    · exact mm1_apply _ _ p q
  · exact Ideal.ofBits_zero_f32

/-! ## What a point writes back

Point t stages rows 16000·t … 16000·t + 15999 of the two row arrays and both weight arrays whole, and writes its block
back over the same rows of the result: so what it writes is block t of the whole-array function. -/

variable (V : (c : Dev nD) → (b : Ref sig .tc) → Buf (Elt Ideal) ((c : Thread nD τ).loc b))

theorem hz0 : (![0, 0] : Fin 2 → Nat) = fun _ => 0 := funext fun a => by fin_cases a <;> rfl

/-- The index maps over the grid: the three row windows sit at block (t, 0), the two weight windows at block (0, 0). -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of point t's block as a row of the whole array. -/
def row0 (t : Fin cfg0.N) (p : Fin 16000) : Fin 800000 :=
  ⟨16000 * t.val + p.val, by have ht := t.isLt; have hN : cfg0.N = 50 := N_0; have hp := p.isLt; omega⟩

/-- Two functions on a 16000 × 128 block agree when they agree at every (row, column). -/
theorem blk_ext {α : Type} (f g : S16000x128.Idx → α) (h : ∀ (p : Fin 16000) (q : Fin 128), f (ix2 p q) = g (ix2 p q)) : f = g :=
  funext fun j => by
    obtain ⟨p, q, rfl⟩ : ∃ (p : Fin 16000) (q : Fin 128), j = ix2 p q := ⟨j 0, j 1, eq_ix2 j⟩
    exact h p q

theorem iblk0_0_apply (c : Dev nD) (t : Fin cfg0.N) (p : Fin 16000) (k : Fin 64) :
    iblk0 (F := Ideal) V c 0 t (ix2 p k) = V c main_v10 (ix2 (row0 t p) k) := by
  obtain ⟨e0, e1, -⟩ := idx_facts0 t
  unfold iblk0
  rw [View.read_apply]
  show V c main_v10 _ = V c main_v10 _
  congr 1
  funext a
  apply Fin.ext
  match a with
  | ⟨0, _⟩ => show win0_0.index t (0 : Fin 2) * 16000 + 1 * p.val = 16000 * t.val + p.val; omega
  | ⟨1, _⟩ => show win0_0.index t (1 : Fin 2) * 64 + 1 * k.val = k.val; omega

theorem iblk0_1_apply (c : Dev nD) (t : Fin cfg0.N) (p : Fin 16000) (k : Fin 16) :
    iblk0 (F := Ideal) V c 1 t (ix2 p k) = V c main_arg1 (ix2 (row0 t p) k) := by
  obtain ⟨-, -, e0, e1, -⟩ := idx_facts0 t
  unfold iblk0
  rw [View.read_apply]
  show V c main_arg1 _ = V c main_arg1 _
  congr 1
  funext a
  apply Fin.ext
  match a with
  | ⟨0, _⟩ => show win0_1.index t (0 : Fin 2) * 16000 + 1 * p.val = 16000 * t.val + p.val; omega
  | ⟨1, _⟩ => show win0_1.index t (1 : Fin 2) * 16 + 1 * k.val = k.val; omega

theorem iblk0_2_apply (c : Dev nD) (t : Fin cfg0.N) (k : Fin 64) (q : Fin 128) :
    iblk0 (F := Ideal) V c 2 t (ix2 k q) = V c main_v11 (ix2 k q) := by
  obtain ⟨-, -, -, -, e0, e1, -⟩ := idx_facts0 t
  unfold iblk0
  rw [View.read_apply]
  show V c main_v11 _ = V c main_v11 _
  congr 1
  funext a
  apply Fin.ext
  match a with
  | ⟨0, _⟩ => show win0_2.index t (0 : Fin 2) * 64 + 1 * k.val = k.val; omega
  | ⟨1, _⟩ => show win0_2.index t (1 : Fin 2) * 128 + 1 * q.val = q.val; omega

theorem iblk0_3_apply (c : Dev nD) (t : Fin cfg0.N) (k : Fin 16) (q : Fin 128) :
    iblk0 (F := Ideal) V c 3 t (ix2 k q) = V c main_v12 (ix2 k q) := by
  obtain ⟨-, -, -, -, -, -, e0, e1, -⟩ := idx_facts0 t
  unfold iblk0
  rw [View.read_apply]
  show V c main_v12 _ = V c main_v12 _
  congr 1
  funext a
  apply Fin.ext
  match a with
  | ⟨0, _⟩ => show win0_3.index t (0 : Fin 2) * 16 + 1 * k.val = k.val; omega
  | ⟨1, _⟩ => show win0_3.index t (1 : Fin 2) * 128 + 1 * q.val = q.val; omega

/-- Block t of any contents of the result array, at (p, q), is the contents at row 16000·t + p, column q. -/
theorem read_blk0_4 (t : Fin cfg0.N) (G : S800000x128.Idx → EReal) (p : Fin 16000) (q : Fin 128) :
    ((cfg0.win 4).blk t).view.read (Elt Ideal) G (ix2 p q) = G (ix2 (row0 t p) q) := by
  obtain ⟨-, -, -, -, -, -, -, -, e0, e1⟩ := idx_facts0 t
  rw [View.read_apply]
  show G _ = G _
  congr 1
  funext a
  apply Fin.ext
  match a with
  | ⟨0, _⟩ => show win0_4.index t (0 : Fin 2) * 16000 + 1 * p.val = 16000 * t.val + p.val; omega
  | ⟨1, _⟩ => show win0_4.index t (1 : Fin 2) * 128 + 1 * q.val = q.val; omega

/-- What point t writes back is block t of relu(x·W₁ + e·W₂) of the four arrays as the region finds them. -/
theorem flushed0_4_eq (c : Dev nD) (t : Fin cfg0.N) :
    (dat0 (F := Ideal) V c).flushed 4 t
      = ((cfg0.win 4).blk t).view.read (Elt Ideal) (Cert.Spec.edgeInit (V c main_v10) (V c main_arg1) (V c main_v11) (V c main_v12)) := by
  show (cfg0.win 4).cut (grid0.coords t) ((dat0 (F := Ideal) V c).after 4 t) = _
  rw [after0_4]
  unfold out0_4
  rw [View.canon_unit_zero hz0]
  simp only [View.ld_unit_zero (S := S16000x64) hz0, View.ld_unit_zero (S := S16000x16) hz0, View.ld_unit_zero (S := S64x128) hz0,
    View.ld_unit_zero (S := S16x128) hz0]
  refine blk_ext _ _ fun p q => ?_
  refine Eq.trans ?_ (read_blk0_4 t _ p q).symm
  refine (pay0_apply _ _ _ _ p q).trans ?_
  show max (_ + _) 0 = max (_ + _) 0
  refine congrArg₂ max (congrArg₂ (· + ·) (Finset.sum_congr rfl fun k _ => ?_) (Finset.sum_congr rfl fun k _ => ?_)) rfl
  · exact congrArg₂ (· * ·) (iblk0_0_apply V c t p k) (iblk0_2_apply V c t k q)
  · exact congrArg₂ (· * ·) (iblk0_1_apply V c t p k) (iblk0_3_apply V c t k q)

/-! ## Every row is in some point's block, and the array after the run -/

/-- An index of the result array is in point t's block iff each coordinate is in the block's range on its axis. -/
theorem mem_blk0_4 (t : Fin cfg0.N) (i : S800000x128.Idx) :
    i ∈ ((cfg0.win 4).blk t).view.set ↔ ∀ a : Fin 2, win0_4.index t a * S16000x128.size a ≤ (i a).val ∧ (i a).val < win0_4.index t a * S16000x128.size a + S16000x128.size a := by
  show i ∈ ((View.whole main_v13).slice (win0_4.rect t)).set ↔ _
  rw [View.set_slice_whole, Rect.mem_set_unit]
  exact Iff.rfl

/-- Row r lies in the block of point r / 16000, and every point writes its block back. -/
theorem covered0_4 (i : S800000x128.Idx) :
    ∃ t : Fin cfg0.N, (cfg0.win 4).flush t = true ∧ i ∈ ((cfg0.win 4).blk t).view.set := by
  have hi0 : (i 0).val < 800000 := (i 0).isLt
  have hi1 : (i 1).val < 128 := (i 1).isLt
  have hN : cfg0.N = 50 := N_0
  obtain ⟨t, ht⟩ : ∃ t : Fin cfg0.N, t.val = (i 0).val / 16000 := ⟨⟨(i 0).val / 16000, by omega⟩, rfl⟩
  obtain ⟨-, -, -, -, -, -, -, -, e0, e1⟩ := idx_facts0 t
  refine ⟨t, flush0_4 t, ?_⟩
  rw [mem_blk0_4]
  intro a
  match a with
  | ⟨0, _⟩ => show win0_4.index t (0 : Fin 2) * 16000 ≤ (i 0).val ∧ (i 0).val < win0_4.index t (0 : Fin 2) * 16000 + 16000; omega
  | ⟨1, _⟩ => show win0_4.index t (1 : Fin 2) * 128 ≤ (i 1).val ∧ (i 1).val < win0_4.index t (1 : Fin 2) * 128 + 128; omega

/-- After the run the result array of the first call holds relu(x·W₁ + e·W₂) of the arrays as the region finds them. -/
theorem arr0_final (c : Dev nD) :
    (dat0 (F := Ideal) V c).arrAt 4 cfg0.N = Cert.Spec.edgeInit (V c main_v10) (V c main_arg1) (V c main_v11) (V c main_v12) :=
  (dat0 (F := Ideal) V c).arrAt_eq_of_cover 4 _ (fun t _ => flushed0_4_eq V c t) covered0_4

end Cert.KernelIdeal.Frame

end
-- ==== Proof.KiVal1.lean ====
/-
  The value of the message call's output array after its pipeline has run, over the extended reals.
  One grid point stores, over its 8000 output rows, relu((a − r)·W) of the point's 8000 rows of the two
  row-blocked inputs and of the whole weight matrix; the 100 points' blocks tile the 800000 rows, so the
  array ends holding relu((a − r)·W) of the three input arrays, index by index.  In order: the payload at
  an index of a block (the contraction over the product's one contracted axis re-indexed to its 128
  columns), each input block as rows of its array, what a point writes back as a block of the whole-array
  function, every row in some point's block, and the array after the last point.
-/
import proofs.«128767_j54949811585617_1_alg».proof.Proof.KiR1
import proofs.«128767_j54949811585617_1_alg».proof.Proof.Spec
import Idealize.ShloMosaic.Lib.ValueIdx
import Idealize.ShloMosaic.Lib.Pipeline.Value
import Idealize.ShloMosaic.PureOps.Ideal.Laws

noncomputable section

namespace Cert.KernelIdeal.Frame

open Cert.KernelIdeal Cert.KernelIdeal.Gen Idealize.ShloMosaic Idealize.ShloMosaic.ValueIdx
open Idealize.ShloMosaic.TcCoe Idealize.SL.Sem
open Idealize.ShloMosaic.Pipeline (Dat)
open scoped BigOperators

/-! ## The payload at an index -/

/-- The left operand's index at output index i and contraction index q: row i₀ … -/
theorem lhs_k1_0 (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
/-- … and column q. -/
theorem lhs_k1_1 (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q
/-- The right operand's index: row q … -/
theorem rhs_k1_0 (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q
/-- … and column i₁. -/
theorem rhs_k1_1 (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- Row p, column q of the stored block: the maximum with zero of the sum over the 128 contracted columns of
    (x₀ − x₁) at row p times x₂ at column q.  Subtraction, maximum and the zero splat are pointwise, the format
    changes and the same-shape casts are the identity on the extended reals, and the product into the zero
    accumulator is the plain sum over the contraction index, re-indexed along the bijection with Fin 128. -/
theorem pay1_apply (x0 x1 : Vec Ideal S8000x128 .f32) (x2 : Vec Ideal S128x128 .f32) (p : Fin 8000) (q : Fin 128) :
    k1_pay1 (F := Ideal) x0 x1 x2 (ix2 p q) = max (∑ k : Fin 128, (x0 (ix2 p k) - x1 (ix2 p k)) * x2 (ix2 k q)) 0 := by
  unfold k1_pay1
  simp only [shapeCast_self]
  rw [maximumf_apply, broadcast_apply, Ideal.ofBits_def, Ideal.ofBits_zero_f32]
  refine congrArg (fun z => max z 0) ?_
  simp only [matmul]
  rw [Ideal.matmul_constant_zero_apply, ← Equiv.sum_comp (ValueIdx.contrEquiv1 dot_S8000x128_S128x128_S8000x128_1_0_0_1_n_n 128 rfl rfl).symm]
  refine Finset.sum_congr rfl fun k _ => ?_
  have hk := ValueIdx.contrEquiv1_symm_val dot_S8000x128_S128x128_S8000x128_1_0_0_1_n_n 128 rfl rfl k
  have el : dot_S8000x128_S128x128_S8000x128_1_0_0_1_n_n.lhsIdx (ix2 p q) ((ValueIdx.contrEquiv1 dot_S8000x128_S128x128_S8000x128_1_0_0_1_n_n 128 rfl rfl).symm k) = ix2 p k := funext fun a => Fin.ext (by
    match a with
    | ⟨0, _⟩ => exact lhs_k1_0 _ _
    | ⟨1, _⟩ => exact (lhs_k1_1 _ _).trans hk)
  have er : dot_S8000x128_S128x128_S8000x128_1_0_0_1_n_n.rhsIdx (ix2 p q) ((ValueIdx.contrEquiv1 dot_S8000x128_S128x128_S8000x128_1_0_0_1_n_n 128 rfl rfl).symm k) = ix2 k q := funext fun a => Fin.ext (by
    match a with
    | ⟨0, _⟩ => exact (rhs_k1_0 _ _).trans hk
    | ⟨1, _⟩ => exact rhs_k1_1 _ _)
  rw [el, er]
  rfl

variable (V : (c : Dev nD) → (b : Ref sig .tc) → Buf (Elt Ideal) ((c : Thread nD τ).loc b))

/-! ## Blocks of the arrays -/

theorem hz1 : (![0, 0] : Fin 2 → Nat) = fun _ => 0 := funext fun a => by fin_cases a <;> rfl

/-- The payload at an index of the block, when the three blocks read three arrays row by row. -/
theorem pay1_of_reads (x0 x1 : Vec Ideal S8000x128 .f32) (x2 : Vec Ideal S128x128 .f32)
    (a r : Cert.Spec.A2 800000 128) (w : Cert.Spec.A2 128 128) (p : Fin 8000) (q : Fin 128) (P : Fin 800000)
    (h0 : ∀ k : Fin 128, x0 (ix2 p k) = a (ix2 P k)) (h1 : ∀ k : Fin 128, x1 (ix2 p k) = r (ix2 P k))
    (h2 : ∀ k : Fin 128, x2 (ix2 k q) = w (ix2 k q)) :
    k1_pay1 (F := Ideal) x0 x1 x2 (ix2 p q) = Cert.Spec.messageAt a r w P q := by
  rw [pay1_apply]
  unfold Cert.Spec.messageAt
  refine congrArg (fun z => max z 0) (Finset.sum_congr rfl fun k _ => ?_)
  rw [h0 k, h1 k, h2 k]

/-- The four index maps over the grid: the row-blocked windows sit at block row t, block column 0; the weight
    window at block (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The first input's block at point t, at row x₀ and column x₁, is the array at row 8000·t + x₀, column x₁. -/
theorem iblk1_0_apply (c : Dev nD) (t : Fin cfg1.N) (x : S8000x128.Idx) (i : S800000x128.Idx)
    (h0 : (i 0).val = 8000 * t.val + (x 0).val) (h1 : (i 1).val = (x 1).val) :
    (iblk1 V c 0 t : Vec Ideal S8000x128 .f32) x = (V c main_v23 : S800000x128.Idx → Elt Ideal .f32) i := by
  obtain ⟨e0, e1, -⟩ := idx_facts1 t
  unfold iblk1
  rw [View.read_apply]
  show V c main_v23 _ = V c main_v23 _
  congr 1
  funext a
  apply Fin.ext
  match a with
  | ⟨0, _⟩ => show win1_0.index t (0 : Fin 2) * 8000 + 1 * (x 0).val = (i 0).val; rw [e0, h0]; omega
  | ⟨1, _⟩ => show win1_0.index t (1 : Fin 2) * 128 + 1 * (x 1).val = (i 1).val; rw [e1, h1]; omega

/-- Likewise the second input's block. -/
theorem iblk1_1_apply (c : Dev nD) (t : Fin cfg1.N) (x : S8000x128.Idx) (i : S800000x128.Idx)
    (h0 : (i 0).val = 8000 * t.val + (x 0).val) (h1 : (i 1).val = (x 1).val) :
    (iblk1 V c 1 t : Vec Ideal S8000x128 .f32) x = (V c main_v30 : S800000x128.Idx → Elt Ideal .f32) i := by
  obtain ⟨-, -, e0, e1, -⟩ := idx_facts1 t
  unfold iblk1
  rw [View.read_apply]
  show V c main_v30 _ = V c main_v30 _
  congr 1
  funext a
  apply Fin.ext
  match a with
  | ⟨0, _⟩ => show win1_1.index t (0 : Fin 2) * 8000 + 1 * (x 0).val = (i 0).val; rw [e0, h0]; omega
  | ⟨1, _⟩ => show win1_1.index t (1 : Fin 2) * 128 + 1 * (x 1).val = (i 1).val; rw [e1, h1]; omega

/-- The weight window's block at every point is the whole matrix. -/
theorem iblk1_2_apply (c : Dev nD) (t : Fin cfg1.N) (x : S128x128.Idx) :
    (iblk1 V c 2 t : Vec Ideal S128x128 .f32) x = (V c main_arg3 : S128x128.Idx → Elt Ideal .f32) x := by
  obtain ⟨-, -, -, -, e0, e1, -⟩ := idx_facts1 t
  unfold iblk1
  rw [View.read_apply]
  show V c main_arg3 _ = V c main_arg3 _
  congr 1
  funext a
  apply Fin.ext
  match a with
  | ⟨0, _⟩ => show win1_2.index t (0 : Fin 2) * 128 + 1 * (x 0).val = (x 0).val; rw [e0]; omega
  | ⟨1, _⟩ => show win1_2.index t (1 : Fin 2) * 128 + 1 * (x 1).val = (x 1).val; rw [e1]; omega

/-- What point t writes back is block t of the whole-array function: under the block's index j the array's index
    is row 8000·t + j₀, column j₁, and there the payload's sum reads the same rows and columns of the arrays. -/
theorem flushed1_eq (c : Dev nD) (t : Fin cfg1.N) :
    (dat1 (F := Ideal) V c).flushed 3 t
      = ((cfg1.win 3).blk t).view.read (Elt Ideal) (Cert.Spec.message (V c main_v23) (V c main_v30) (V c main_arg3)) := by
  show (cfg1.win 3).cut (grid1.coords t) ((dat1 V c).after 3 t) = _
  rw [after1_3]
  unfold out1_3
  rw [View.canon_unit_zero hz1]
  simp only [View.ld_unit_zero (S := S8000x128) hz1, View.ld_unit_zero (S := S128x128) hz1]
  obtain ⟨-, -, -, -, -, -, e0, e1⟩ := idx_facts1 t
  refine funext fun (j : S8000x128.Idx) => ?_
  rw [View.read_apply]
  have hr : (((cfg1.win 3).blk t).view.emb j (0 : Fin 2)).val = 8000 * t.val + (j 0).val := by
    show win1_3.index t (0 : Fin 2) * 8000 + 1 * (j 0).val = _; rw [e0]; omega
  have hc : (((cfg1.win 3).blk t).view.emb j (1 : Fin 2)).val = (j 1).val := by
    show win1_3.index t (1 : Fin 2) * 128 + 1 * (j 1).val = _; rw [e1]; omega
  show k1_pay1 (F := Ideal) (iblk1 V c 0 t) (iblk1 V c 1 t) (iblk1 V c 2 t) j
      = Cert.Spec.messageAt (V c main_v23) (V c main_v30) (V c main_arg3)
          (((cfg1.win 3).blk t).view.emb j (0 : Fin 2)) (((cfg1.win 3).blk t).view.emb j (1 : Fin 2))
  generalize ((cfg1.win 3).blk t).view.emb j = i at hr hc
  refine (congrArg (k1_pay1 (F := Ideal) (iblk1 V c 0 t) (iblk1 V c 1 t) (iblk1 V c 2 t)) (eq_ix2 j)).trans ?_
  refine (pay1_of_reads (iblk1 V c 0 t) (iblk1 V c 1 t) (iblk1 V c 2 t) (V c main_v23) (V c main_v30) (V c main_arg3)
    (j 0) (j 1) (i 0)
    (fun k => iblk1_0_apply V c t (ix2 (j 0) k) (ix2 (i 0) k) hr rfl)
    (fun k => iblk1_1_apply V c t (ix2 (j 0) k) (ix2 (i 0) k) hr rfl)
    (fun k => iblk1_2_apply V c t (ix2 k (j 1)))).trans ?_
  exact congrArg (Cert.Spec.messageAt (V c main_v23) (V c main_v30) (V c main_arg3) (i 0)) (Fin.ext hc.symm)

/-! ## The blocks tile the array -/

/-- An index of the array is in point t's block iff each coordinate is in the block's range on its axis. -/
theorem mem_blk1 (t : Fin cfg1.N) (i : S800000x128.Idx) :
    i ∈ ((cfg1.win 3).blk t).view.set ↔ ∀ a : Fin 2, win1_3.index t a * S8000x128.size a ≤ (i a).val ∧ (i a).val < win1_3.index t a * S8000x128.size a + S8000x128.size a := by
  show i ∈ ((View.whole main_v31).slice (win1_3.rect t)).set ↔ _
  rw [View.set_slice_whole, Rect.mem_set_unit]
  exact Iff.rfl

/-- Row r is in the block of point r / 8000. -/
theorem covered1 (i : S800000x128.Idx) :
    ∃ t : Fin cfg1.N, (cfg1.win 3).flush t = true ∧ i ∈ ((cfg1.win 3).blk t).view.set := by
  have hi0 : (i 0).val < 800000 := (i 0).isLt
  have hi1 : (i 1).val < 128 := (i 1).isLt
  have hN : cfg1.N = 100 := N_1
  have ht : (i 0).val / 8000 < cfg1.N := by rw [hN]; omega
  obtain ⟨-, -, -, -, -, -, e0, e1⟩ := idx_facts1 ⟨(i 0).val / 8000, ht⟩
  refine ⟨⟨(i 0).val / 8000, ht⟩, flush1_3 _, ?_⟩
  rw [mem_blk1]
  intro a
  match a with
  | ⟨0, _⟩ =>
    show win1_3.index ⟨(i 0).val / 8000, ht⟩ (0 : Fin 2) * 8000 ≤ (i 0).val ∧ (i 0).val < win1_3.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win1_3.index ⟨(i 0).val / 8000, ht⟩ (1 : Fin 2) * 128 ≤ (i 1).val ∧ (i 1).val < win1_3.index ⟨(i 0).val / 8000, ht⟩ (1 : Fin 2) * 128 + 128
    rw [e1]; omega

/-- The output array after the run is relu((a − r)·W) of the three input arrays as the region finds them. -/
theorem arr1_final (V : (c : Dev nD) → (b : Ref sig .tc) → Buf (Elt Ideal) ((c : Thread nD τ).loc b)) (c : Dev nD) :
    (dat1 (F := Ideal) V c).arrAt 3 cfg1.N = Cert.Spec.message (V c main_v23) (V c main_v30) (V c main_arg3) :=
  (dat1 (F := Ideal) V c).arrAt_eq_of_cover 3 _ (fun t _ => flushed1_eq V c t) covered1

end Cert.KernelIdeal.Frame
end
-- ==== Proof.KiVal2.lean ====
/-
  The value of the readout call's output array after the region's run, at the extended reals.  One point's update
  of the 1×128 running sum, read at a column: what the point found there plus, over its 5000 rows, relu of the two
  products' sum (each product into a zero accumulator is the plain sum over its contracted axis; format changes and
  same-shape casts are the identity; the column sum is the sum over the rows).  The blocks a point reads are rows
  5000·t … 5000·t + 4999 of the two row-blocked arrays and the two weight slices whole.  By induction on the point,
  the running sum after point n is the sum of the first n + 1 blocks' column sums (only 0 + a = a and the sum over
  an initial segment extended by one term), so after the last point it is the readout row.  Only the last point
  writes the output block back, and that block is the whole 1×128 array.
-/
import proofs.«128767_j54949811585617_1_alg».proof.Proof.KiR2
import proofs.«128767_j54949811585617_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Frame

open Cert.KernelIdeal Cert.KernelIdeal.Gen Idealize.ShloMosaic Idealize.ShloMosaic.ValueIdx
open Idealize.ShloMosaic.TcCoe
open scoped BigOperators

/-! ## The two products' operand indices, axis by axis -/

theorem lhsA_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhsA_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem rhsA_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem rhsA_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

theorem lhsB_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsB_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsB_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsB_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Row r, column q of the first product into a zero accumulator: the sum over the 64 contracted columns. -/
theorem mmA_apply {φ₁ φ₂ : FTy} (x : FVec Ideal S5000x64 φ₁) (w : FVec Ideal S64x128 φ₂) (r : Fin 5000) (q : Fin 128) :
    matmul dot_S5000x64_S64x128_S5000x128_1_0_0_1_n_n none x w (constant S5000x128 .f32 0x00000000#32) (ix2 r q)
      = ∑ k : Fin 64, x (ix2 r k) * w (ix2 k q) := by
  simp only [matmul]
  rw [Ideal.matmul_constant_zero_apply, ← Equiv.sum_comp (ValueIdx.contrEquiv1 dot_S5000x64_S64x128_S5000x128_1_0_0_1_n_n 64 rfl rfl).symm]
  refine Finset.sum_congr rfl fun k _ => ?_
  have hk := ValueIdx.contrEquiv1_symm_val dot_S5000x64_S64x128_S5000x128_1_0_0_1_n_n 64 rfl rfl k
  have el : dot_S5000x64_S64x128_S5000x128_1_0_0_1_n_n.lhsIdx (ix2 r q) ((ValueIdx.contrEquiv1 dot_S5000x64_S64x128_S5000x128_1_0_0_1_n_n 64 rfl rfl).symm k) = ix2 r k := funext fun a => Fin.ext (by
    match a with
    | ⟨0, _⟩ => exact lhsA_0 _ _
    | ⟨1, _⟩ => exact (lhsA_1 _ _).trans hk)
  have er : dot_S5000x64_S64x128_S5000x128_1_0_0_1_n_n.rhsIdx (ix2 r q) ((ValueIdx.contrEquiv1 dot_S5000x64_S64x128_S5000x128_1_0_0_1_n_n 64 rfl rfl).symm k) = ix2 k q := funext fun a => Fin.ext (by
    match a with
    | ⟨0, _⟩ => exact (rhsA_0 _ _).trans hk
    | ⟨1, _⟩ => exact rhsA_1 _ _)
  rw [el, er]

/-- Row r, column q of the second product into a zero accumulator: the sum over the 128 contracted columns. -/
theorem mmB_apply {φ₁ φ₂ : FTy} (x : FVec Ideal S5000x128 φ₁) (w : FVec Ideal S128x128 φ₂) (r : Fin 5000) (q : Fin 128) :
    matmul dot_S5000x128_S128x128_S5000x128_1_0_0_1_n_n none x w (constant S5000x128 .f32 0x00000000#32) (ix2 r q)
      = ∑ k : Fin 128, x (ix2 r k) * w (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r q) ((ValueIdx.contrEquiv1 dot_S5000x128_S128x128_S5000x128_1_0_0_1_n_n 128 rfl rfl).symm k) = ix2 r k := funext fun a => Fin.ext (by
    match a with
    | ⟨0, _⟩ => exact lhsB_0 _ _
    | ⟨1, _⟩ => exact (lhsB_1 _ _).trans hk)
  have er : dot_S5000x128_S128x128_S5000x128_1_0_0_1_n_n.rhsIdx (ix2 r q) ((ValueIdx.contrEquiv1 dot_S5000x128_S128x128_S5000x128_1_0_0_1_n_n 128 rfl rfl).symm k) = ix2 k q := funext fun a => Fin.ext (by
    match a with
    | ⟨0, _⟩ => exact (rhsB_0 _ _).trans hk
    | ⟨1, _⟩ => exact rhsB_1 _ _)
  rw [el, er]

/-! ## One point's update, at an index -/

/-- The column-sum's source index over column q at row k is (k, q). -/
theorem lift_rows (q : Fin 128) (k : Fin 5000) :
    reduces_S5000x128_S128.lift (ix1 q) k = ix2 k q := by
  funext a; apply Fin.ext
  match a with
  | ⟨0, _⟩ => rfl
  | ⟨1, _⟩ => rfl

/-- Column q of the running sum a point leaves: what it found plus its 5000 rows' relu(x·W₁ + n·W₂) there. -/
theorem step2_apply (x0 : Vec Ideal S5000x64 .f32) (x1 : Vec Ideal S5000x128 .f32) (x2 : Vec Ideal S64x128 .f32)
    (x3 : Vec Ideal S128x128 .f32) (s : Vec Ideal S1x128 .f32) (q : Fin 128) :
    step2 (F := Ideal) x0 x1 x2 x3 s (ix2 0 q)
      = s (ix2 0 q) + ∑ r : Fin 5000, max ((∑ k : Fin 64, x0 (ix2 r k) * x2 (ix2 k q)) + (∑ k : Fin 128, x1 (ix2 r k) * x3 (ix2 k q))) 0 := by
  unfold step2 k2_pay2
  simp only [shapeCast_self]
  rw [addf_apply]
  refine congrArg (s (ix2 0 q) + ·) ?_
  refine (shapeCast_apply _ shapeCasts_S128_S1x128 (ix2 0 q) (ix1 q) (by
    rewrite [Shape.rowMajor_val_two, Shape.rowMajor_val_one]; show q.val = 0 * 128 + q.val; omega)).trans ?_
  refine (Ideal.multiReduction_add_single (φ := .f32) _ _ reduces_S5000x128_S128 _ _ (ix1 q)).trans ?_
  refine Finset.sum_congr rfl fun (r : Fin 5000) _ => ?_
  rw [lift_rows, maximumf_apply, addf_apply, mmA_apply, mmB_apply]
  simp only [truncf_apply, broadcast_apply]
  exact congrArg (max _) Ideal.ofBits_zero_f32

/-- The running sum the first point starts from is zero in every column. -/
theorem zero2_apply (q : Fin 128) : zero2 (F := Ideal) (ix2 0 q) = 0 := by
  unfold zero2 k2_pay1
  simp only [shapeCast_self, broadcast_apply]
  exact Ideal.ofBits_zero_f32

/-! ## The input blocks, at an index -/

/-- A point of the grid as a block number. -/
abbrev pt (t : Fin cfg2.N) : Fin 10 := ⟨t.val, lt_of_lt_of_eq t.isLt N_2⟩

/-- The index maps over the grid: the two row-blocked windows are at block (t, 0); the two weight windows and the
    output window are at block (0, 0) at every point. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

section Blocks

variable (V : (c : Dev nD) → (b : Ref sig .tc) → Buf (Elt Ideal) ((c : Thread nD τ).loc b))

/-- Row r of the node-feature block at point t is row 5000·t + r of the array. -/
theorem iblk2_0_apply (c : Dev nD) (t : Fin cfg2.N) (r : Fin 5000) (k : Fin 64) :
    iblk2 (F := Ideal) V c 0 t (ix2 r k) = V c main_arg0 (ix2 (Cert.Spec.blockRow (pt t) r) k) := by
  obtain ⟨e0, e1, -⟩ := idx_facts2 t
  show V c main_arg0 (((cfg2.win 0).blk t).view.emb (ix2 r k)) = _
  refine congrArg (V c main_arg0) ?_
  funext a; apply Fin.ext
  match a with
  | ⟨0, _⟩ => show win2_0.index t (0 : Fin 2) * 5000 + 1 * r.val = 5000 * t.val + r.val; omega
  | ⟨1, _⟩ => show win2_0.index t (1 : Fin 2) * 64 + 1 * k.val = k.val; omega

/-- Row r of the aggregated-state block at point t is row 5000·t + r of the array. -/
theorem iblk2_1_apply (c : Dev nD) (t : Fin cfg2.N) (r : Fin 5000) (k : Fin 128) :
    iblk2 (F := Ideal) V c 1 t (ix2 r k) = V c main_v34 (ix2 (Cert.Spec.blockRow (pt t) r) k) := by
  obtain ⟨-, -, e0, e1, -⟩ := idx_facts2 t
  show V c main_v34 (((cfg2.win 1).blk t).view.emb (ix2 r k)) = _
  refine congrArg (V c main_v34) ?_
  funext a; apply Fin.ext
  match a with
  | ⟨0, _⟩ => show win2_1.index t (0 : Fin 2) * 5000 + 1 * r.val = 5000 * t.val + r.val; omega
  | ⟨1, _⟩ => show win2_1.index t (1 : Fin 2) * 128 + 1 * k.val = k.val; omega

/-- The first weight slice's block is the whole slice at every point. -/
theorem iblk2_2_apply (c : Dev nD) (t : Fin cfg2.N) (k : Fin 64) (q : Fin 128) :
    iblk2 (F := Ideal) V c 2 t (ix2 k q) = V c main_v35 (ix2 k q) := by
  obtain ⟨-, -, -, -, e0, e1, -⟩ := idx_facts2 t
  show V c main_v35 (((cfg2.win 2).blk t).view.emb (ix2 k q)) = _
  refine congrArg (V c main_v35) ?_
  funext a; apply Fin.ext
  match a with
  | ⟨0, _⟩ => show win2_2.index t (0 : Fin 2) * 64 + 1 * k.val = k.val; omega
  | ⟨1, _⟩ => show win2_2.index t (1 : Fin 2) * 128 + 1 * q.val = q.val; omega

/-- The second weight slice's block is the whole slice at every point. -/
theorem iblk2_3_apply (c : Dev nD) (t : Fin cfg2.N) (k : Fin 128) (q : Fin 128) :
    iblk2 (F := Ideal) V c 3 t (ix2 k q) = V c main_v36 (ix2 k q) := by
  obtain ⟨-, -, -, -, -, -, e0, e1, -⟩ := idx_facts2 t
  show V c main_v36 (((cfg2.win 3).blk t).view.emb (ix2 k q)) = _
  refine congrArg (V c main_v36) ?_
  funext a; apply Fin.ext
  match a with
  | ⟨0, _⟩ => show win2_3.index t (0 : Fin 2) * 128 + 1 * k.val = k.val; omega
  | ⟨1, _⟩ => show win2_3.index t (1 : Fin 2) * 128 + 1 * q.val = q.val; omega

/-! ## The running sum after each point -/

/-- One point's update on its own blocks: the running sum it found plus block t's column sums. -/
theorem step2_blk (c : Dev nD) (t : Fin cfg2.N) (s : Vec Ideal S1x128 .f32) (q : Fin 128) :
    step2 (F := Ideal) (iblk2 V c 0 t) (iblk2 V c 1 t) (iblk2 V c 2 t) (iblk2 V c 3 t) s (ix2 0 q)
      = s (ix2 0 q) + Cert.Spec.readoutBlockSum (V c main_arg0) (V c main_v34) (V c main_v35) (V c main_v36) (pt t) q := by
  rw [step2_apply]
  refine congrArg (s (ix2 0 q) + ·) ?_
  unfold Cert.Spec.readoutBlockSum Cert.Spec.readoutRowAt
  refine Finset.sum_congr rfl fun r _ => ?_
  simp only [iblk2_0_apply, iblk2_1_apply, iblk2_2_apply, iblk2_3_apply]

/-- Block t's column sum at column q, as a function of a natural number (zero past the last block). -/
def bsum (c : Dev nD) (q : Fin 128) (t : ℕ) : EReal :=
  if h : t < 10 then Cert.Spec.readoutBlockSum (V c main_arg0) (V c main_v34) (V c main_v35) (V c main_v36) ⟨t, h⟩ q else 0

theorem bsum_pt (c : Dev nD) (q : Fin 128) (t : Fin cfg2.N) :
    Cert.Spec.readoutBlockSum (V c main_arg0) (V c main_v34) (V c main_v35) (V c main_v36) (pt t) q = bsum V c q t.val := by
  unfold bsum; rw [dif_pos (lt_of_lt_of_eq t.isLt N_2)]

/-- Column q of the running sum after point n is the sum of the first n + 1 blocks' column sums. -/
theorem acc2_apply (c : Dev nD) (q : Fin 128) : ∀ (n : ℕ) (hn : n < cfg2.N),
    acc2 (F := Ideal) V c n hn (ix2 0 q) = ∑ t ∈ Finset.range (n + 1), bsum V c q t
  | 0, hn => by
    rw [show acc2 (F := Ideal) V c 0 hn = step2 (iblk2 V c 0 ⟨0, hn⟩) (iblk2 V c 1 ⟨0, hn⟩) (iblk2 V c 2 ⟨0, hn⟩) (iblk2 V c 3 ⟨0, hn⟩) zero2 from rfl,
      step2_blk, zero2_apply, zero_add, bsum_pt, Finset.sum_range_one]
  | n + 1, hn => by
    rw [show acc2 (F := Ideal) V c (n + 1) hn = step2 (iblk2 V c 0 ⟨n + 1, hn⟩) (iblk2 V c 1 ⟨n + 1, hn⟩) (iblk2 V c 2 ⟨n + 1, hn⟩) (iblk2 V c 3 ⟨n + 1, hn⟩) (acc2 V c n (Nat.lt_of_succ_lt hn)) from rfl,
      step2_blk, acc2_apply c q n, bsum_pt, Finset.sum_range_succ _ (n + 1)]

/-- After the last point the running sum is the readout row. -/
theorem acc2_last (c : Dev nD) (hn : 9 < cfg2.N) :
    acc2 (F := Ideal) V c 9 hn = Cert.Spec.readout (V c main_arg0) (V c main_v34) (V c main_v35) (V c main_v36) := by
  funext i
  obtain ⟨q, rfl⟩ : ∃ q : Fin 128, i = ix2 (0 : Fin 1) q := ⟨i 1, by
    funext a
    match a with
    | ⟨0, _⟩ => exact Fin.ext (by have h : (i 0).val < 1 := (i 0).isLt; show (i 0).val = 0; omega)
    | ⟨1, _⟩ => rfl⟩
  rw [acc2_apply]
  unfold Cert.Spec.readout
  show ∑ t ∈ Finset.range 10, bsum V c q t = ∑ t : Fin 10, Cert.Spec.readoutBlockSum (V c main_arg0) (V c main_v34) (V c main_v35) (V c main_v36) t q
  rw [← Fin.sum_univ_eq_sum_range (bsum V c q) 10]
  refine Finset.sum_congr rfl fun t _ => ?_
  unfold bsum; rw [dif_pos t.isLt]

end Blocks

/-! ## The output array after the run -/

/-- The output array after the run is the readout row: only the last point writes its block back, that block is the
    whole array, and what it writes is the running sum after the last point. -/
theorem arr2_final (V : (c : Dev nD) → (b : Ref sig .tc) → Buf (Elt Ideal) ((c : Thread nD τ).loc b)) (c : Dev nD) :
    (dat2 (F := Ideal) V c).arrAt 4 cfg2.N = Cert.Spec.readout (V c main_arg0) (V c main_v34) (V c main_v35) (V c main_v36) := by
  refine (dat2 (F := Ideal) V c).arrAt_eq_of_cover 4 _ (fun t hf => ?_) (fun i => ?_)
  · have h9 : t.val = 9 := by have h := (flush2_4 t).mp hf; have hlt : t.val < 10 := lt_of_lt_of_eq t.isLt N_2; omega
    obtain ⟨-, -, -, -, -, -, -, -, e0, e1⟩ := idx_facts2 t
    show (cfg2.win 4).cut (grid2.coords t) ((dat2 (F := Ideal) V c).after 4 t) = _
    rw [after2_4]
    obtain ⟨n, hn⟩ := t
    replace h9 : n = 9 := h9
    subst h9
    rw [show acc2 (F := Ideal) V c (⟨9, hn⟩ : Fin cfg2.N).val (⟨9, hn⟩ : Fin cfg2.N).isLt = acc2 (F := Ideal) V c 9 hn from rfl, acc2_last]
    funext j
    show Cert.Spec.readout (V c main_arg0) (V c main_v34) (V c main_v35) (V c main_v36) ((cfg2.win 4).xinj (grid2.coords ⟨9, hn⟩) j)
      = Cert.Spec.readout (V c main_arg0) (V c main_v34) (V c main_v35) (V c main_v36) (((cfg2.win 4).blk ⟨9, hn⟩).view.emb j)
    refine congrArg _ ?_
    funext a; apply Fin.ext
    match a with
    | ⟨0, _⟩ => show (j 0).val = win2_4.index ⟨9, hn⟩ (0 : Fin 2) * 1 + 1 * (j 0).val; omega
    | ⟨1, _⟩ => show (j 1).val = win2_4.index ⟨9, hn⟩ (1 : Fin 2) * 128 + 1 * (j 1).val; omega
  · have hN : (9 : ℕ) < cfg2.N := by rw [show cfg2.N = 10 from N_2]; decide
    refine ⟨⟨9, hN⟩, (flush2_4 _).mpr rfl, ?_⟩
    obtain ⟨-, -, -, -, -, -, -, -, e0, e1⟩ := idx_facts2 ⟨9, hN⟩
    show i ∈ ((View.whole main_v37).slice (win2_4.rect ⟨9, hN⟩)).set
    rw [View.set_slice_whole, Rect.mem_set_unit]
    intro a
    match a with
    | ⟨0, _⟩ =>
      have hi : (i 0).val < 1 := (i 0).isLt
      show win2_4.index ⟨9, hN⟩ (0 : Fin 2) * 1 ≤ (i 0).val ∧ (i 0).val < win2_4.index ⟨9, hN⟩ (0 : Fin 2) * 1 + 1
      omega
    | ⟨1, _⟩ =>
      have hi : (i 1).val < 128 := (i 1).isLt
      show win2_4.index ⟨9, hN⟩ (1 : Fin 2) * 128 ≤ (i 1).val ∧ (i 1).val < win2_4.index ⟨9, hN⟩ (1 : Fin 2) * 128 + 128
      omega

end Cert.KernelIdeal.Frame

end
-- ==== Proof.KiTerms.lean ====
/-
  The idealized kernel program's values, from the launch contents: the host stretches' operations as printed,
  with each call's result the whole-array function of the specification.
-/
import proofs.«128767_j54949811585617_1_alg».proof.Proof.KiRun
import proofs.«128767_j54949811585617_1_alg».proof.Proof.Spec
import Idealize.ShloMosaic.PureOps.Ideal

set_option maxRecDepth 16384

noncomputable section

namespace Cert.KernelIdeal.Frame

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- The edges' source nodes (row 0 of the edge index). -/
def kv1 : (⟨S800000, .i32⟩ : BufTy).Contents (Elt Ideal) :=
  (shapeCast _ (((extractStridedSlice S1x800000 ![0, 0] · slices_S2x800000_S1x800000_0_0) : (⟨S2x800000, .i32⟩ : BufTy).Contents (Elt Ideal) → (⟨S1x800000, .i32⟩ : BufTy).Contents (Elt Ideal)) (W0 m ρ c (Proc.devRef .tc main_arg5))) shapeCasts_S1x800000_S800000)

/-- The edges' destination nodes (row 1 of the edge index). -/
def kv3 : (⟨S800000, .i32⟩ : BufTy).Contents (Elt Ideal) :=
  (shapeCast _ (((extractStridedSlice S1x800000 ![1, 0] · slices_S2x800000_S1x800000_1_0) : (⟨S2x800000, .i32⟩ : BufTy).Contents (Elt Ideal) → (⟨S1x800000, .i32⟩ : BufTy).Contents (Elt Ideal)) (W0 m ρ c (Proc.devRef .tc main_arg5))) shapeCasts_S1x800000_S800000)

/-- The source nodes' feature rows, gathered. -/
def kv10 : (⟨S800000x64, .f32⟩ : BufTy).Contents (Elt Ideal) :=
  (((fun x i => Host.gather gather_S50000x64_S800000x1_S800000x64_1_0_n_n_0_1_164 x i) : (⟨S50000x64, .f32⟩ : BufTy).Contents (Elt Ideal) → (⟨S800000x1, .i32⟩ : BufTy).Contents (Elt Ideal) → (⟨S800000x64, .f32⟩ : BufTy).Contents (Elt Ideal)) (W0 m ρ c (Proc.devRef .tc main_arg0)) ((broadcastInDim S800000x1 ![0] bcast_S800000_S800000x1_0 : (⟨S800000, .i32⟩ : BufTy).Contents (Elt Ideal) → (⟨S800000x1, .i32⟩ : BufTy).Contents (Elt Ideal)) ((select : (⟨S800000, .i1⟩ : BufTy).Contents (Elt Ideal) → (⟨S800000, .i32⟩ : BufTy).Contents (Elt Ideal) → (⟨S800000, .i32⟩ : BufTy).Contents (Elt Ideal) → (⟨S800000, .i32⟩ : BufTy).Contents (Elt Ideal)) ((cmpi .slt : (⟨S800000, .i32⟩ : BufTy).Contents (Elt Ideal) → (⟨S800000, .i32⟩ : BufTy).Contents (Elt Ideal) → (⟨S800000, .i1⟩ : BufTy).Contents (Elt Ideal)) (shapeCast _ (((extractStridedSlice S1x800000 ![0, 0] · slices_S2x800000_S1x800000_0_0) : (⟨S2x800000, .i32⟩ : BufTy).Contents (Elt Ideal) → (⟨S1x800000, .i32⟩ : BufTy).Contents (Elt Ideal)) (W0 m ρ c (Proc.devRef .tc main_arg5))) shapeCasts_S1x800000_S800000) ((broadcastInDim S800000 ![] bcast_S_S800000 : (⟨S_, .i32⟩ : BufTy).Contents (Elt Ideal) → (⟨S800000, .i32⟩ : BufTy).Contents (Elt Ideal)) (constantI S_ 32 0#32))) ((addi : (⟨S800000, .i32⟩ : BufTy).Contents (Elt Ideal) → (⟨S800000, .i32⟩ : BufTy).Contents (Elt Ideal) → (⟨S800000, .i32⟩ : BufTy).Contents (Elt Ideal)) (shapeCast _ (((extractStridedSlice S1x800000 ![0, 0] · slices_S2x800000_S1x800000_0_0) : (⟨S2x800000, .i32⟩ : BufTy).Contents (Elt Ideal) → (⟨S1x800000, .i32⟩ : BufTy).Contents (Elt Ideal)) (W0 m ρ c (Proc.devRef .tc main_arg5))) shapeCasts_S1x800000_S800000) ((broadcastInDim S800000 ![] bcast_S_S800000 : (⟨S_, .i32⟩ : BufTy).Contents (Elt Ideal) → (⟨S800000, .i32⟩ : BufTy).Contents (Elt Ideal)) (constantI S_ 32 50000#32))) (shapeCast _ (((extractStridedSlice S1x800000 ![0, 0] · slices_S2x800000_S1x800000_0_0) : (⟨S2x800000, .i32⟩ : BufTy).Contents (Elt Ideal) → (⟨S1x800000, .i32⟩ : BufTy).Contents (Elt Ideal)) (W0 m ρ c (Proc.devRef .tc main_arg5))) shapeCasts_S1x800000_S800000))))

/-- Rows 0..63 of the first weight matrix. -/
def kv11 : (⟨S64x128, .f32⟩ : BufTy).Contents (Elt Ideal) :=
  (((extractStridedSlice S64x128 ![0, 0] · slices_S80x128_S64x128_0_0) : (⟨S80x128, .f32⟩ : BufTy).Contents (Elt Ideal) → (⟨S64x128, .f32⟩ : BufTy).Contents (Elt Ideal)) (W0 m ρ c (Proc.devRef .tc main_arg2)))

/-- Rows 64..79 of the first weight matrix. -/
def kv12 : (⟨S16x128, .f32⟩ : BufTy).Contents (Elt Ideal) :=
  (((extractStridedSlice S16x128 ![64, 0] · slices_S80x128_S16x128_64_0) : (⟨S80x128, .f32⟩ : BufTy).Contents (Elt Ideal) → (⟨S16x128, .f32⟩ : BufTy).Contents (Elt Ideal)) (W0 m ρ c (Proc.devRef .tc main_arg2)))

/-- The initial edge states: call 0's result. -/
def kv13 : (⟨S800000x128, .f32⟩ : BufTy).Contents (Elt Ideal) :=
  Cert.Spec.edgeInit (kv10 m ρ c) (W0 m ρ c (Proc.devRef .tc main_arg1)) (kv11 m ρ c) (kv12 m ρ c)

/-- Per edge, the states summed into its source node. -/
def kv23 : (⟨S800000x128, .f32⟩ : BufTy).Contents (Elt Ideal) :=
  (((fun x i => Host.gather gather_S50000x128_S800000x1_S800000x128_1_0_n_n_0_1_1128 x i) : (⟨S50000x128, .f32⟩ : BufTy).Contents (Elt Ideal) → (⟨S800000x1, .i32⟩ : BufTy).Contents (Elt Ideal) → (⟨S800000x128, .f32⟩ : BufTy).Contents (Elt Ideal)) (((fun x i u => Host.scatterAdd (F := Ideal) (φ := .f32) scatter_S50000x128_S800000x1_S800000x128_1_0_0_1 x i u) : (⟨S50000x128, .f32⟩ : BufTy).Contents (Elt Ideal) → (⟨S800000x1, .i32⟩ : BufTy).Contents (Elt Ideal) → (⟨S800000x128, .f32⟩ : BufTy).Contents (Elt Ideal) → (⟨S50000x128, .f32⟩ : BufTy).Contents (Elt Ideal)) ((broadcastInDim S50000x128 ![] bcast_S_S50000x128 : (⟨S_, .f32⟩ : BufTy).Contents (Elt Ideal) → (⟨S50000x128, .f32⟩ : BufTy).Contents (Elt Ideal)) (constant (F := Ideal) S_ .f32 0x00000000#32)) ((broadcastInDim S800000x1 ![0] bcast_S800000_S800000x1_0 : (⟨S800000, .i32⟩ : BufTy).Contents (Elt Ideal) → (⟨S800000x1, .i32⟩ : BufTy).Contents (Elt Ideal)) (kv3 m ρ c)) (kv13 m ρ c)) ((broadcastInDim S800000x1 ![0] bcast_S800000_S800000x1_0 : (⟨S800000, .i32⟩ : BufTy).Contents (Elt Ideal) → (⟨S800000x1, .i32⟩ : BufTy).Contents (Elt Ideal)) ((select : (⟨S800000, .i1⟩ : BufTy).Contents (Elt Ideal) → (⟨S800000, .i32⟩ : BufTy).Contents (Elt Ideal) → (⟨S800000, .i32⟩ : BufTy).Contents (Elt Ideal) → (⟨S800000, .i32⟩ : BufTy).Contents (Elt Ideal)) ((cmpi .slt : (⟨S800000, .i32⟩ : BufTy).Contents (Elt Ideal) → (⟨S800000, .i32⟩ : BufTy).Contents (Elt Ideal) → (⟨S800000, .i1⟩ : BufTy).Contents (Elt Ideal)) (kv1 m ρ c) ((broadcastInDim S800000 ![] bcast_S_S800000 : (⟨S_, .i32⟩ : BufTy).Contents (Elt Ideal) → (⟨S800000, .i32⟩ : BufTy).Contents (Elt Ideal)) (constantI S_ 32 0#32))) ((addi : (⟨S800000, .i32⟩ : BufTy).Contents (Elt Ideal) → (⟨S800000, .i32⟩ : BufTy).Contents (Elt Ideal) → (⟨S800000, .i32⟩ : BufTy).Contents (Elt Ideal)) (kv1 m ρ c) ((broadcastInDim S800000 ![] bcast_S_S800000 : (⟨S_, .i32⟩ : BufTy).Contents (Elt Ideal) → (⟨S800000, .i32⟩ : BufTy).Contents (Elt Ideal)) (constantI S_ 32 50000#32))) (kv1 m ρ c))))

/-- Per edge, its reverse edge's state. -/
def kv30 : (⟨S800000x128, .f32⟩ : BufTy).Contents (Elt Ideal) :=
  (((fun x i => Host.gather gather_S800000x128_S800000x1_S800000x128_1_0_n_n_0_1_1128 x i) : (⟨S800000x128, .f32⟩ : BufTy).Contents (Elt Ideal) → (⟨S800000x1, .i32⟩ : BufTy).Contents (Elt Ideal) → (⟨S800000x128, .f32⟩ : BufTy).Contents (Elt Ideal)) (kv13 m ρ c) ((broadcastInDim S800000x1 ![0] bcast_S800000_S800000x1_0 : (⟨S800000, .i32⟩ : BufTy).Contents (Elt Ideal) → (⟨S800000x1, .i32⟩ : BufTy).Contents (Elt Ideal)) ((select : (⟨S800000, .i1⟩ : BufTy).Contents (Elt Ideal) → (⟨S800000, .i32⟩ : BufTy).Contents (Elt Ideal) → (⟨S800000, .i32⟩ : BufTy).Contents (Elt Ideal) → (⟨S800000, .i32⟩ : BufTy).Contents (Elt Ideal)) ((cmpi .slt : (⟨S800000, .i32⟩ : BufTy).Contents (Elt Ideal) → (⟨S800000, .i32⟩ : BufTy).Contents (Elt Ideal) → (⟨S800000, .i1⟩ : BufTy).Contents (Elt Ideal)) (W0 m ρ c (Proc.devRef .tc main_arg6)) ((broadcastInDim S800000 ![] bcast_S_S800000 : (⟨S_, .i32⟩ : BufTy).Contents (Elt Ideal) → (⟨S800000, .i32⟩ : BufTy).Contents (Elt Ideal)) (constantI S_ 32 0#32))) ((addi : (⟨S800000, .i32⟩ : BufTy).Contents (Elt Ideal) → (⟨S800000, .i32⟩ : BufTy).Contents (Elt Ideal) → (⟨S800000, .i32⟩ : BufTy).Contents (Elt Ideal)) (W0 m ρ c (Proc.devRef .tc main_arg6)) ((broadcastInDim S800000 ![] bcast_S_S800000 : (⟨S_, .i32⟩ : BufTy).Contents (Elt Ideal) → (⟨S800000, .i32⟩ : BufTy).Contents (Elt Ideal)) (constantI S_ 32 800000#32))) (W0 m ρ c (Proc.devRef .tc main_arg6)))))

/-- The updated edge states: call 1's result. -/
def kv31 : (⟨S800000x128, .f32⟩ : BufTy).Contents (Elt Ideal) :=
  Cert.Spec.message (kv23 m ρ c) (kv30 m ρ c) (W0 m ρ c (Proc.devRef .tc main_arg3))

/-- Per node, the updated states of its incoming edges summed. -/
def kv34 : (⟨S50000x128, .f32⟩ : BufTy).Contents (Elt Ideal) :=
  (((fun x i u => Host.scatterAdd (F := Ideal) (φ := .f32) scatter_S50000x128_S800000x1_S800000x128_1_0_0_1 x i u) : (⟨S50000x128, .f32⟩ : BufTy).Contents (Elt Ideal) → (⟨S800000x1, .i32⟩ : BufTy).Contents (Elt Ideal) → (⟨S800000x128, .f32⟩ : BufTy).Contents (Elt Ideal) → (⟨S50000x128, .f32⟩ : BufTy).Contents (Elt Ideal)) ((broadcastInDim S50000x128 ![] bcast_S_S50000x128 : (⟨S_, .f32⟩ : BufTy).Contents (Elt Ideal) → (⟨S50000x128, .f32⟩ : BufTy).Contents (Elt Ideal)) (constant (F := Ideal) S_ .f32 0x00000000#32)) ((broadcastInDim S800000x1 ![0] bcast_S800000_S800000x1_0 : (⟨S800000, .i32⟩ : BufTy).Contents (Elt Ideal) → (⟨S800000x1, .i32⟩ : BufTy).Contents (Elt Ideal)) (kv3 m ρ c)) (kv31 m ρ c))

/-- Rows 0..63 of the readout weight matrix. -/
def kv35 : (⟨S64x128, .f32⟩ : BufTy).Contents (Elt Ideal) :=
  (((extractStridedSlice S64x128 ![0, 0] · slices_S192x128_S64x128_0_0) : (⟨S192x128, .f32⟩ : BufTy).Contents (Elt Ideal) → (⟨S64x128, .f32⟩ : BufTy).Contents (Elt Ideal)) (W0 m ρ c (Proc.devRef .tc main_arg4)))

/-- Rows 64..191 of the readout weight matrix. -/
def kv36 : (⟨S128x128, .f32⟩ : BufTy).Contents (Elt Ideal) :=
  (((extractStridedSlice S128x128 ![64, 0] · slices_S192x128_S128x128_64_0) : (⟨S192x128, .f32⟩ : BufTy).Contents (Elt Ideal) → (⟨S128x128, .f32⟩ : BufTy).Contents (Elt Ideal)) (W0 m ρ c (Proc.devRef .tc main_arg4)))

/-- The summed node embeddings as one row: call 2's result. -/
def kv37 : (⟨S1x128, .f32⟩ : BufTy).Contents (Elt Ideal) :=
  Cert.Spec.readout (W0 m ρ c (Proc.devRef .tc main_arg0)) (kv34 m ρ c) (kv35 m ρ c) (kv36 m ρ c)

/-- The result vector. -/
def kv38 : (⟨S128, .f32⟩ : BufTy).Contents (Elt Ideal) :=
  (shapeCast _ (kv37 m ρ c) shapeCasts_S1x128_S128)

end Cert.KernelIdeal.Frame

end
-- ==== Proof.KiValue.lean ====
/-
  The run's valuations hold the idealized kernel program's composed values: after each host stretch the buffers it
  writes hold the stretch's operations of what it read, after each call the output array holds the
  specification's function of the call's input arrays, and what passes a stretch or a call unread is unchanged.  The run then ends with the result buffer at that
  value and every argument array unchanged.
-/
import proofs.«128767_j54949811585617_1_alg».proof.Proof.KiRun
import proofs.«128767_j54949811585617_1_alg».proof.Proof.KiStages
import proofs.«128767_j54949811585617_1_alg».proof.Proof.KiVal0
import proofs.«128767_j54949811585617_1_alg».proof.Proof.KiVal1
import proofs.«128767_j54949811585617_1_alg».proof.Proof.KiVal2
import proofs.«128767_j54949811585617_1_alg».proof.Proof.KiTerms

set_option maxRecDepth 16384

noncomputable section

namespace Cert.KernelIdeal.Frame

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## The run's valuations hold the composed values -/

theorem W1_v1 : W1 m ρ c (Proc.devRef .tc main_v1) = kv1 m ρ c := stage0_v1 (W0 m ρ c)

theorem W1_v3 : W1 m ρ c (Proc.devRef .tc main_v3) = kv3 m ρ c := stage0_v3 (W0 m ρ c)

theorem W1_v10 : W1 m ρ c (Proc.devRef .tc main_v10) = kv10 m ρ c := stage0_v10 (W0 m ρ c)

theorem W1_v11 : W1 m ρ c (Proc.devRef .tc main_v11) = kv11 m ρ c := stage0_v11 (W0 m ρ c)

theorem W1_v12 : W1 m ρ c (Proc.devRef .tc main_v12) = kv12 m ρ c := stage0_v12 (W0 m ρ c)

theorem W1_arg1 : W1 m ρ c (Proc.devRef .tc main_arg1) = W0 m ρ c (Proc.devRef .tc main_arg1) := W1_of m ρ c main_arg1 (by decide)

theorem W2_v13 : W2 m ρ c (Proc.devRef .tc main_v13) = kv13 m ρ c := by
  refine (W2_arr m ρ c 4).trans ((arr0_final (V1 m ρ) c).trans ?_)
  show Cert.Spec.edgeInit (W1 m ρ c (Proc.devRef .tc main_v10)) (W1 m ρ c (Proc.devRef .tc main_arg1)) (W1 m ρ c (Proc.devRef .tc main_v11)) (W1 m ρ c (Proc.devRef .tc main_v12)) = _
  rw [W1_v10, W1_arg1, W1_v11, W1_v12]; rfl

theorem W2_v1 : W2 m ρ c (Proc.devRef .tc main_v1) = kv1 m ρ c := (W2_of_ne m ρ c main_v1 (by decide)).trans (W1_v1 m ρ c)

theorem W2_v3 : W2 m ρ c (Proc.devRef .tc main_v3) = kv3 m ρ c := (W2_of_ne m ρ c main_v3 (by decide)).trans (W1_v3 m ρ c)

theorem W2_arg6 : W2 m ρ c (Proc.devRef .tc main_arg6) = W0 m ρ c (Proc.devRef .tc main_arg6) := (W2_of_ne m ρ c main_arg6 (by decide)).trans (W1_of m ρ c main_arg6 (by decide))

theorem W3_v23 : W3 m ρ c (Proc.devRef .tc main_v23) = kv23 m ρ c := by
  refine (stage1_v23 (W2 m ρ c)).trans ?_
  rw [W2_v1, W2_v3, W2_v13]; rfl

theorem W3_v30 : W3 m ρ c (Proc.devRef .tc main_v30) = kv30 m ρ c := by
  refine (stage1_v30 (W2 m ρ c)).trans ?_
  rw [W2_v13, W2_arg6]; rfl

theorem W3_arg3 : W3 m ρ c (Proc.devRef .tc main_arg3) = W0 m ρ c (Proc.devRef .tc main_arg3) :=
  (W3_of m ρ c main_arg3 (by decide)).trans ((W2_of_ne m ρ c main_arg3 (by decide)).trans (W1_of m ρ c main_arg3 (by decide)))

theorem W4_v31 : W4 m ρ c (Proc.devRef .tc main_v31) = kv31 m ρ c := by
  refine (W4_arr m ρ c 3).trans ((arr1_final (V3 m ρ) c).trans ?_)
  show Cert.Spec.message (W3 m ρ c (Proc.devRef .tc main_v23)) (W3 m ρ c (Proc.devRef .tc main_v30)) (W3 m ρ c (Proc.devRef .tc main_arg3)) = _
  rw [W3_v23, W3_v30, W3_arg3]; rfl

theorem W4_v3 : W4 m ρ c (Proc.devRef .tc main_v3) = kv3 m ρ c :=
  (W4_of_ne m ρ c main_v3 (by decide)).trans ((W3_of m ρ c main_v3 (by decide)).trans (W2_v3 m ρ c))

theorem W4_arg4 : W4 m ρ c (Proc.devRef .tc main_arg4) = W0 m ρ c (Proc.devRef .tc main_arg4) :=
  (W4_of_ne m ρ c main_arg4 (by decide)).trans ((W3_of m ρ c main_arg4 (by decide)).trans ((W2_of_ne m ρ c main_arg4 (by decide)).trans (W1_of m ρ c main_arg4 (by decide))))

theorem W5_v34 : W5 m ρ c (Proc.devRef .tc main_v34) = kv34 m ρ c := by
  refine (stage2_v34 (W4 m ρ c)).trans ?_
  rw [W4_v3, W4_v31]; rfl

theorem W5_v35 : W5 m ρ c (Proc.devRef .tc main_v35) = kv35 m ρ c := by
  refine (stage2_v35 (W4 m ρ c)).trans ?_
  rw [W4_arg4]; rfl

theorem W5_v36 : W5 m ρ c (Proc.devRef .tc main_v36) = kv36 m ρ c := by
  refine (stage2_v36 (W4 m ρ c)).trans ?_
  rw [W4_arg4]; rfl

theorem W5_arg0 : W5 m ρ c (Proc.devRef .tc main_arg0) = W0 m ρ c (Proc.devRef .tc main_arg0) :=
  (W5_of m ρ c main_arg0 (by decide)).trans ((W4_of_ne m ρ c main_arg0 (by decide)).trans ((W3_of m ρ c main_arg0 (by decide)).trans ((W2_of_ne m ρ c main_arg0 (by decide)).trans (W1_of m ρ c main_arg0 (by decide)))))

theorem W6_v37 : W6 m ρ c (Proc.devRef .tc main_v37) = kv37 m ρ c := by
  refine (W6_arr m ρ c 4).trans ((arr2_final (V5 m ρ) c).trans ?_)
  show Cert.Spec.readout (W5 m ρ c (Proc.devRef .tc main_arg0)) (W5 m ρ c (Proc.devRef .tc main_v34)) (W5 m ρ c (Proc.devRef .tc main_v35)) (W5 m ρ c (Proc.devRef .tc main_v36)) = _
  rw [W5_arg0, W5_v34, W5_v35, W5_v36]; rfl

/-- The result buffer after the run is the composed value. -/
theorem W7_v38 : W7 m ρ c (Proc.devRef .tc main_v38) = kv38 m ρ c := by
  refine (stage3_v38 (W6 m ρ c)).trans ?_
  rw [W6_v37]; rfl

/-- THE VALUE RUN: every weakly fair execution of the idealized kernel program terminates with the result buffer at
    the composed value and every argument array as launched. -/
theorem run_value : θ_run defs (onTc (τ := τ) (main (F := Ideal))) ⟨m, fun _ => 0, ρ⟩ (fun r => ∀ c : Dev nD,
      r.2.mem ((c.tc : Thread nD τ).loc main_v38) = kv38 m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_v38 (by decide))).trans (W7_v38 m ρ c),
      (h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c)⟩) (run_all m ρ)

end Cert.KernelIdeal.Frame

end
-- ==== Proof.RefSide.lean ====
/-
  The reference's value: its run read back as one composed term of the argument arrays, and that term read
  one operation at a time.
-/
import proofs.«128767_j54949811585617_1_alg».proof.Proof.Gen.ReferenceIdeal.Run
import proofs.«128767_j54949811585617_1_alg».proof.Proof.Gen.ReferenceIdeal.Read
-- ==== Proof.RefE0.lean ====
/-
  The reference's first stage as an equation of whole arrays over the extended reals: the product of the
  row-wise joined features [x | e] (800000 × 80) with the weight matrix (80 × 128), cut off below at zero, is
  relu(x·W₁ + e·W₂), W₁ the weight's first 64 rows and W₂ its last 16.  The one law used: a sum over m + n
  terms is the sum over the first m plus the sum over the last n.
-/
import proofs.«128767_j54949811585617_1_alg».proof.Proof.RefSide
import proofs.«128767_j54949811585617_1_alg».proof.Proof.Gen.KernelIdeal
import proofs.«128767_j54949811585617_1_alg».proof.Proof.Spec
import Idealize.ShloMosaic.Lib.ValueIdx
import Idealize.ShloMosaic.Lib.Pipeline.Value
import Idealize.ShloMosaic.PureOps.Ideal.Laws

noncomputable section

namespace Cert.Bridge

open Idealize.ShloMosaic Idealize.ShloMosaic.ValueIdx Idealize.ShloMosaic.StableHlo
open Cert.ReferenceIdeal Cert.ReferenceIdeal.Gen Cert.ReferenceIdeal.Read
open scoped BigOperators

/-! ## The sum law -/

/-- A sum over m + n terms is the sum over the first m plus the sum over the last n. -/
theorem sum_split (m n : Nat) (f : Fin (m + n) → EReal) :
    ∑ k : Fin (m + n), f k = (∑ k : Fin m, f (Fin.castAdd n k)) + ∑ k : Fin n, f (Fin.natAdd m k) :=
  Fin.sum_univ_add f

/-- At 80 = 64 + 16, the positions written out. -/
theorem sum_80_split (f : Fin 80 → EReal) :
    ∑ k : Fin 80, f k = (∑ k : Fin 64, f ⟨k.val, by omega⟩) + ∑ k : Fin 16, f ⟨64 + k.val, by omega⟩ :=
  sum_split 64 16 f

/-! ## The operations read at row p, column q -/

/-- The product's left operand is read at (p, k), k the contraction coordinate, -/
theorem dot_lhs_at (p : Fin 800000) (q : Fin 128) (k : Fin 80) :
    dot_S800000x80_S80x128_S800000x128_1_0_0_1_n_n.lhsIdx (ix2 p q)
        ((contrEquiv1 dot_S800000x80_S80x128_S800000x128_1_0_0_1_n_n 80 rfl rfl).symm k) = ix2 p k := by
  funext a
  apply Fin.ext
  match a with
  | ⟨0, _⟩ => exact lhs_main_v12_0 (ix2 p q) _
  | ⟨1, _⟩ => exact (lhs_main_v12_1 (ix2 p q) _).trans (contrEquiv1_symm_val _ 80 rfl rfl k)

/-- and its right operand at (k, q). -/
theorem dot_rhs_at (p : Fin 800000) (q : Fin 128) (k : Fin 80) :
    dot_S800000x80_S80x128_S800000x128_1_0_0_1_n_n.rhsIdx (ix2 p q)
        ((contrEquiv1 dot_S800000x80_S80x128_S800000x128_1_0_0_1_n_n 80 rfl rfl).symm k) = ix2 k q := by
  funext a
  apply Fin.ext
  match a with
  | ⟨0, _⟩ => exact (rhs_main_v12_0 (ix2 p q) _).trans (contrEquiv1_symm_val _ 80 rfl rfl k)
  | ⟨1, _⟩ => exact rhs_main_v12_1 (ix2 p q) _

/-- The product at (p, q) is the sum over the 80 joined columns of left entry (p, k) times right entry (k, q). -/
theorem dot_read (y : FVec Ideal S800000x80 .f32) (w : FVec Ideal S80x128 .f32) (p : Fin 800000) (q : Fin 128) :
    Host.dotGeneral (F := Ideal) (φ₁ := .f32) (φ₂ := .f32) dot_S800000x80_S80x128_S800000x128_1_0_0_1_n_n none y w (ix2 p q)
      = ∑ k : Fin 80, y (ix2 p k) * w (ix2 k q) := by
  simp only [Host.dotGeneral]
  rw [Ideal.dotGeneral_apply,
    ← Equiv.sum_comp (contrEquiv1 dot_S800000x80_S80x128_S800000x128_1_0_0_1_n_n 80 rfl rfl).symm]
  exact Finset.sum_congr rfl fun k _ => by rw [dot_lhs_at, dot_rhs_at]

/-- The joined row p at a column below 64 is x's entry. -/
theorem concat_left (x : Cert.Spec.A2 800000 64) (e : Cert.Spec.A2 800000 16) (p : Fin 800000) (k : Fin 64) :
    concatenate S800000x80 1 [⟨S800000x64, x⟩, ⟨S800000x16, e⟩] concatenates_S800000x64_S800000x16_S800000x80_d1
      (ix2 p (⟨k.val, by omega⟩ : Fin 80)) = x (ix2 p k) :=
  concatenate_pair_apply_left (t := S800000x80) (s₁ := S800000x64) (s₂ := S800000x16) 1 x e
    concatenates_S800000x64_S800000x16_S800000x80_d1 (ix2 p (⟨k.val, by omega⟩ : Fin 80)) rfl (ix2 p k) (fun b => match b with
    | ⟨0, _⟩ => rfl
    | ⟨1, _⟩ => rfl)

/-- The joined row p at column 64 + k is e's entry k. -/
theorem concat_right (x : Cert.Spec.A2 800000 64) (e : Cert.Spec.A2 800000 16) (p : Fin 800000) (k : Fin 16) :
    concatenate S800000x80 1 [⟨S800000x64, x⟩, ⟨S800000x16, e⟩] concatenates_S800000x64_S800000x16_S800000x80_d1
      (ix2 p (⟨64 + k.val, by omega⟩ : Fin 80)) = e (ix2 p k) :=
  concatenate_pair_apply_right (t := S800000x80) (s₁ := S800000x64) (s₂ := S800000x16) 1 x e
    concatenates_S800000x64_S800000x16_S800000x80_d1 (ix2 p (⟨64 + k.val, by omega⟩ : Fin 80)) rfl rfl (ix2 p k)
    (fun b hb => match b, hb with
      | ⟨0, _⟩, _ => rfl
      | ⟨1, _⟩, hb => absurd rfl hb)
    (by show k.val + 64 = 64 + k.val; omega)

/-- The weight's first 64 rows, read at (k, q). -/
theorem slice_top (wi : Cert.Spec.A2 80 128) (k : Fin 64) (q : Fin 128) :
    extractStridedSlice Cert.KernelIdeal.S64x128 ![0, 0] wi Cert.KernelIdeal.Gen.slices_S80x128_S64x128_0_0 (ix2 k q)
      = wi (ix2 (⟨k.val, by omega⟩ : Fin 80) q) :=
  extractStridedSlice_apply ![0, 0] wi _ (ix2 k q) _ (fun a => match a with
    | ⟨0, _⟩ => by show k.val = 0 + k.val; omega
    | ⟨1, _⟩ => by show q.val = 0 + q.val; omega)

/-- The weight's last 16 rows, read at (k, q): row 64 + k. -/
theorem slice_bot (wi : Cert.Spec.A2 80 128) (k : Fin 16) (q : Fin 128) :
    extractStridedSlice Cert.KernelIdeal.S16x128 ![64, 0] wi Cert.KernelIdeal.Gen.slices_S80x128_S16x128_64_0 (ix2 k q)
      = wi (ix2 (⟨64 + k.val, by omega⟩ : Fin 80) q) :=
  extractStridedSlice_apply ![64, 0] wi _ (ix2 k q) _ (fun a => match a with
    | ⟨0, _⟩ => by show 64 + k.val = 64 + k.val; rfl
    | ⟨1, _⟩ => by show q.val = 0 + q.val; omega)

/-- The broadcast zero constant reads 0 everywhere. -/
theorem zero_read (i : S800000x128.Idx) :
    broadcastInDim S800000x128 ![] bcast_S_S800000x128 (constant (F := Ideal) S_ .f32 0x00000000#32) i = (0 : EReal) :=
  (broadcastInDim_apply _ bcast_S_S800000x128 _ i ix0 (fun a => a.elim0)).trans Ideal.ofBits_zero_f32

/-! ## The stage -/

/-- relu([x | e]·W) = relu(x·W₁ + e·W₂), W₁ and W₂ the first 64 and last 16 rows of W. -/
theorem edgeInit_ref (x : Cert.Spec.A2 800000 64) (e : Cert.Spec.A2 800000 16) (wi : Cert.Spec.A2 80 128) :
    maximumf (F := Ideal) (Host.dotGeneral (φ₁ := .f32) (φ₂ := .f32) dot_S800000x80_S80x128_S800000x128_1_0_0_1_n_n none
        (concatenate S800000x80 1 [⟨S800000x64, x⟩, ⟨S800000x16, e⟩] concatenates_S800000x64_S800000x16_S800000x80_d1) wi)
      (broadcastInDim S800000x128 ![] bcast_S_S800000x128 (constant S_ .f32 0x00000000#32))
    = Cert.Spec.edgeInit x e (extractStridedSlice Cert.KernelIdeal.S64x128 ![0, 0] wi Cert.KernelIdeal.Gen.slices_S80x128_S64x128_0_0)
        (extractStridedSlice Cert.KernelIdeal.S16x128 ![64, 0] wi Cert.KernelIdeal.Gen.slices_S80x128_S16x128_64_0) := by
  funext i
  obtain ⟨p, q, rfl⟩ : ∃ p q, i = ix2 p q := ⟨i 0, i 1, eq_ix2 i⟩
  rw [maximumf_apply, dot_read, zero_read]
  show _ = Cert.Spec.edgeInitAt x e _ _ p q
  unfold Cert.Spec.edgeInitAt
  rw [sum_80_split]
  refine congrArg₂ max (congrArg₂ (· + ·) ?_ ?_) rfl
  · exact Finset.sum_congr rfl fun k _ => by rw [concat_left, slice_top]
  · exact Finset.sum_congr rfl fun k _ => by rw [concat_right, slice_bot]

end Cert.Bridge

end
-- ==== Proof.RefE1.lean ====
/-
  The reference's message stage read at an index: relu((a − r)·W) over the extended reals.  The contraction of a
  [800000,128] by a [128,128] array at row p, column q is the sum over k of the left array at (p, k) times the
  right at (k, q); the difference is taken pointwise; the broadcast zero constant is 0 everywhere; the maximum is
  taken pointwise.  Together these give the whole-array function Cert.Spec.message.
-/
import proofs.«128767_j54949811585617_1_alg».proof.Proof.RefSide
import proofs.«128767_j54949811585617_1_alg».proof.Proof.Gen.KernelIdeal
import proofs.«128767_j54949811585617_1_alg».proof.Proof.Spec
import Idealize.ShloMosaic.Lib.ValueIdx
import Idealize.ShloMosaic.Lib.Pipeline.Value
import Idealize.ShloMosaic.PureOps.Ideal.Laws

noncomputable section

namespace Cert.Bridge

open Cert.ReferenceIdeal Cert.ReferenceIdeal.Gen Idealize.ShloMosaic Idealize.ShloMosaic.ValueIdx
open scoped BigOperators

/-- The product of a [800000,128] array by a [128,128] array, read at row p and column q: the sum over the one
    contracted coordinate k of the left factor at (p, k) times the right factor at (k, q). -/
theorem message_dot_apply (y : Cert.Spec.A2 800000 128) (w : Cert.Spec.A2 128 128) (p : Fin 800000) (q : Fin 128) :
    Host.dotGeneral (F := Ideal) (φ₁ := .f32) (φ₂ := .f32) dot_S800000x128_S128x128_S800000x128_1_0_0_1_n_n none y w (ix2 p q)
      = ∑ k : Fin 128, y (ix2 p k) * w (ix2 k q) := by
  simp only [Host.dotGeneral]
  rw [Ideal.dotGeneral_apply,
    ← Equiv.sum_comp (contrEquiv1 dot_S800000x128_S128x128_S800000x128_1_0_0_1_n_n 128 rfl rfl).symm]
  refine Finset.sum_congr rfl fun k _ => ?_
  have hk := contrEquiv1_symm_val dot_S800000x128_S128x128_S800000x128_1_0_0_1_n_n 128 rfl rfl k
  -- the left factor is read at (p, k): its row is the output's row, its column the contracted coordinate
  have el : dot_S800000x128_S128x128_S800000x128_1_0_0_1_n_n.lhsIdx (ix2 p q)
      ((contrEquiv1 dot_S800000x128_S128x128_S800000x128_1_0_0_1_n_n 128 rfl rfl).symm k) = ix2 p k := by
    funext d
    refine Fin.ext ?_
    match d with
    | ⟨0, _⟩ => exact Read.lhs_main_v32_0 _ _
    | ⟨1, _⟩ => exact (Read.lhs_main_v32_1 _ _).trans hk
  -- the right factor is read at (k, q): its row is the contracted coordinate, its column the output's column
  have er : dot_S800000x128_S128x128_S800000x128_1_0_0_1_n_n.rhsIdx (ix2 p q)
      ((contrEquiv1 dot_S800000x128_S128x128_S800000x128_1_0_0_1_n_n 128 rfl rfl).symm k) = ix2 k q := by
    funext d
    refine Fin.ext ?_
    match d with
    | ⟨0, _⟩ => exact (Read.rhs_main_v32_0 _ _).trans hk
    | ⟨1, _⟩ => exact Read.rhs_main_v32_1 _ _
  rw [el, er]

/-- The zero constant broadcast over the [800000,128] array is 0 at every index. -/
theorem message_zero_apply (i : S800000x128.Idx) :
    broadcastInDim S800000x128 ![] bcast_S_S800000x128 (constant (F := Ideal) S_ .f32 0x00000000#32) i = (0 : EReal) := by
  rw [broadcastInDim_apply _ bcast_S_S800000x128 _ i ix0 (fun a => a.elim0)]
  exact Ideal.ofBits_zero_f32

/-- The reference's message stage is relu((a − r)·W), index by index. -/
theorem message_ref (a r : Cert.Spec.A2 800000 128) (w : Cert.Spec.A2 128 128) :
    maximumf (F := Ideal) (Host.dotGeneral (φ₁ := .f32) (φ₂ := .f32) dot_S800000x128_S128x128_S800000x128_1_0_0_1_n_n none (subf a r) w)
      (broadcastInDim S800000x128 ![] bcast_S_S800000x128 (constant S_ .f32 0x00000000#32))
    = Cert.Spec.message a r w := by
  funext i
  obtain ⟨p, q, rfl⟩ : ∃ p q, i = ix2 p q := ⟨i 0, i 1, eq_ix2 i⟩
  rw [maximumf_apply, message_dot_apply, message_zero_apply]
  rfl

end Cert.Bridge

end
-- ==== Proof.RefE2.lean ====
/-
  The reference's last stretch as the kernel's result row.  The reference joins the 50000×64 array and the 50000×128
  array along the columns, multiplies the 50000×192 result by the 192×128 weights, takes the maximum with zero and
  sums down the 50000 rows from a zero initial value.  Read at column q this is
      0 + ∑ p : Fin 50000, max (∑ k : Fin 192, (x ‖ n)(p, k) · W(k, q)) 0.
  Two laws of addition bring it to the form the kernel's result is stated in: the contraction over the 192 joined
  columns is the sum over the first 64 (x against the top 64 rows of W) plus the sum over the last 128 (n against the
  bottom 128 rows of W); and the sum over the 50000 rows is the sum over ten blocks of the sum over the 5000 rows of
  a block, row r of block t being row 5000·t + r.  Both hold in any commutative additive monoid, so nothing is asked
  of the extended reals beyond that.
-/
import proofs.«128767_j54949811585617_1_alg».proof.Proof.RefSide
import proofs.«128767_j54949811585617_1_alg».proof.Proof.Gen.KernelIdeal
import proofs.«128767_j54949811585617_1_alg».proof.Proof.Spec
import Idealize.ShloMosaic.Lib.ValueIdx
import Idealize.ShloMosaic.Lib.Pipeline.Value
import Idealize.ShloMosaic.PureOps.Ideal.Laws

noncomputable section

namespace Cert.Bridge

open Idealize.ShloMosaic Idealize.ShloMosaic.ValueIdx
open scoped BigOperators

/-- A sum over m + n terms is the sum over the first m plus the sum over the last n. -/
theorem sum_split_rows {M : Type*} [AddCommMonoid M] (m n : ℕ) (f : Fin (m + n) → M) :
    ∑ k : Fin (m + n), f k = ∑ k : Fin m, f (Fin.castAdd n k) + ∑ k : Fin n, f (Fin.natAdd m k) :=
  Fin.sum_univ_add f

/-- A sum over a·b terms is the sum over a blocks of the sum over the b terms of a block, term r of block t
    being term b·t + r. -/
theorem sum_blocks {M : Type*} [AddCommMonoid M] (a b : ℕ) (G : Fin (a * b) → M) :
    ∑ p : Fin (a * b), G p = ∑ t : Fin a, ∑ r : Fin b, G (finProdFinEquiv (t, r)) := by
  rw [← Equiv.sum_comp finProdFinEquiv G, Fintype.sum_prod_type]

open Cert.ReferenceIdeal Cert.ReferenceIdeal.Gen in
/-- The host's sum down the 50000 rows, read at column q: the initial value plus the sum over the rows. -/
theorem reduce_at (y : FVec Ideal S50000x128 .f32) (c : FVec Ideal S_ .f32) (q : Fin 128) :
    Host.reduceAdd (F := Ideal) (φ := .f32) y c reducesTo_S50000x128_S128_d0 h_S_ (ix1 q)
      = c ix0 + ∑ p : Fin 50000, y (ix2 p q) := by
  simp only [Host.reduceAdd, Ideal.hostReduceAdd_def]
  rw [Ideal.hostReduceAdd_single reducesTo_S50000x128_S128_d0 (by decide)]
  refine congrArg₂ (· + ·) (congrArg c (funext fun a => a.elim0)) (Finset.sum_congr rfl fun p _ => ?_)
  exact congrArg y (funext fun a => Fin.ext (by match a with | ⟨0, _⟩ => rfl | ⟨1, _⟩ => rfl))

open Cert.ReferenceIdeal Cert.ReferenceIdeal.Gen in
/-- The host's product of a 50000×192 array with a 192×128 one, read at (p, q): the sum over the 192 contracted columns. -/
theorem dot_at (y : FVec Ideal S50000x192 .f32) (w : FVec Ideal S192x128 .f32)
    (p : Fin 50000) (q : Fin 128) :
    Host.dotGeneral (F := Ideal) dot_S50000x192_S192x128_S50000x128_1_0_0_1_n_n none y w (ix2 p q)
      = ∑ k : Fin 192, y (ix2 p k) * w (ix2 k q) := by
  simp only [Host.dotGeneral]
  rw [Ideal.dotGeneral_apply, ← Equiv.sum_comp (contrEquiv1 dot_S50000x192_S192x128_S50000x128_1_0_0_1_n_n 192 rfl rfl).symm]
  refine Finset.sum_congr rfl fun k _ => ?_
  have hk := contrEquiv1_symm_val dot_S50000x192_S192x128_S50000x128_1_0_0_1_n_n 192 rfl rfl k
  refine congrArg₂ (· * ·) (congrArg y (funext fun a => Fin.ext ?_)) (congrArg w (funext fun a => Fin.ext ?_))
  · match a with
    | ⟨0, _⟩ => exact Cert.ReferenceIdeal.Read.lhs_main_v38_0 _ _
    | ⟨1, _⟩ => exact (Cert.ReferenceIdeal.Read.lhs_main_v38_1 _ _).trans hk
  · match a with
    | ⟨0, _⟩ => exact (Cert.ReferenceIdeal.Read.rhs_main_v38_0 _ _).trans hk
    | ⟨1, _⟩ => exact Cert.ReferenceIdeal.Read.rhs_main_v38_1 _ _

/-- Column k of the first 64 among the 192 joined columns. -/
def lo (k : Fin 64) : Fin 192 := ⟨k.val, by have := k.isLt; omega⟩
/-- Column k of the last 128 among the 192 joined columns. -/
def hi (k : Fin 128) : Fin 192 := ⟨64 + k.val, by have := k.isLt; omega⟩

open Cert.ReferenceIdeal Cert.ReferenceIdeal.Gen in
/-- The two arrays joined along the columns, read at one of the first 64 columns: the first array there. -/
theorem cat_lo (x : FVec Ideal S50000x64 .f32) (n : FVec Ideal S50000x128 .f32) (p : Fin 50000) (k : Fin 64) :
    concatenate S50000x192 1 [⟨S50000x64, x⟩, ⟨S50000x128, n⟩] concatenates_S50000x64_S50000x128_S50000x192_d1 (ix2 p (lo k))
      = x (ix2 p k) :=
  concatenate_pair_apply_left 1 x n _ (ix2 p (lo k)) rfl (ix2 p k) (fun b => by
    match b with | ⟨0, _⟩ => rfl | ⟨1, _⟩ => rfl)

open Cert.ReferenceIdeal Cert.ReferenceIdeal.Gen in
/-- … and at one of the last 128 columns: the second array, 64 columns back. -/
theorem cat_hi (x : FVec Ideal S50000x64 .f32) (n : FVec Ideal S50000x128 .f32) (p : Fin 50000) (k : Fin 128) :
    concatenate S50000x192 1 [⟨S50000x64, x⟩, ⟨S50000x128, n⟩] concatenates_S50000x64_S50000x128_S50000x192_d1 (ix2 p (hi k))
      = n (ix2 p k) :=
  concatenate_pair_apply_right 1 x n _ (ix2 p (hi k)) rfl rfl (ix2 p k) (fun b hb => by
    match b with | ⟨0, _⟩ => rfl | ⟨1, _⟩ => exact absurd rfl hb) (by show k.val + 64 = 64 + k.val; omega)

open Cert.KernelIdeal Cert.KernelIdeal.Gen in
/-- The top 64 rows of the 192×128 weights, read at (k, q). -/
theorem w_lo (wa : FVec Ideal S192x128 .f32) (k : Fin 64) (q : Fin 128) :
    extractStridedSlice S64x128 ![0, 0] wa slices_S192x128_S64x128_0_0 (ix2 k q) = wa (ix2 (lo k) q) :=
  extractStridedSlice_apply ![0, 0] wa _ (ix2 k q) (ix2 (lo k) q) (fun a => by
    match a with
    | ⟨0, _⟩ => show k.val = 0 + k.val; omega
    | ⟨1, _⟩ => show q.val = 0 + q.val; omega)

open Cert.KernelIdeal Cert.KernelIdeal.Gen in
/-- The bottom 128 rows of the 192×128 weights, read at (k, q). -/
theorem w_hi (wa : FVec Ideal S192x128 .f32) (k : Fin 128) (q : Fin 128) :
    extractStridedSlice S128x128 ![64, 0] wa slices_S192x128_S128x128_64_0 (ix2 k q) = wa (ix2 (hi k) q) :=
  extractStridedSlice_apply ![64, 0] wa _ (ix2 k q) (ix2 (hi k) q) (fun a => by
    match a with
    | ⟨0, _⟩ => rfl
    | ⟨1, _⟩ => show q.val = 0 + q.val; omega)

/-- The sum over the 192 joined columns is the sum over the first 64 plus the sum over the last 128. -/
theorem sum_192 (f : Fin 192 → EReal) : ∑ k : Fin 192, f k = ∑ k : Fin 64, f (lo k) + ∑ k : Fin 128, f (hi k) :=
  sum_split_rows 64 128 f

/-- Row r of block t is row 5000·t + r: the sum over all rows by blocks. -/
theorem sum_50000 (G : Fin 50000 → EReal) : ∑ p : Fin 50000, G p = ∑ t : Fin 10, ∑ r : Fin 5000, G (Cert.Spec.blockRow t r) := by
  refine (sum_blocks 10 5000 G).trans ?_
  refine Finset.sum_congr rfl fun t _ => Finset.sum_congr rfl fun r _ => congrArg G (Fin.ext ?_)
  show r.val + 5000 * t.val = 5000 * t.val + r.val
  omega

open Cert.ReferenceIdeal Cert.ReferenceIdeal.Gen in
/-- The zero splat over the 50000×128 array reads 0 everywhere. -/
theorem zeros_at (j : S50000x128.Idx) :
    broadcastInDim S50000x128 ![] bcast_S_S50000x128 (constant (F := Ideal) S_ .f32 0x00000000#32) j = 0 := by
  refine (broadcastInDim_apply _ bcast_S_S50000x128 _ j ix0 (fun a => a.elim0)).trans ?_
  exact Ideal.ofBits_zero_f32

/-- Row p, column q of relu of the joined array times the whole weights is the row function the kernel's result is
    stated by: the contraction over the 192 joined columns splits into the 64 columns of the first array against the
    top rows of the weights and the 128 columns of the second against the bottom rows. -/
theorem row_at (x : Cert.Spec.A2 50000 64) (n : Cert.Spec.A2 50000 128) (wa : Cert.Spec.A2 192 128) (p : Fin 50000) (q : Fin 128) :
    max (∑ k : Fin 192, concatenate Cert.ReferenceIdeal.S50000x192 1 [⟨Cert.ReferenceIdeal.S50000x64, x⟩, ⟨Cert.ReferenceIdeal.S50000x128, n⟩]
          Cert.ReferenceIdeal.Gen.concatenates_S50000x64_S50000x128_S50000x192_d1 (ix2 p k) * wa (ix2 k q)) 0
      = Cert.Spec.readoutRowAt x n
          (extractStridedSlice Cert.KernelIdeal.S64x128 ![0, 0] wa Cert.KernelIdeal.Gen.slices_S192x128_S64x128_0_0)
          (extractStridedSlice Cert.KernelIdeal.S128x128 ![64, 0] wa Cert.KernelIdeal.Gen.slices_S192x128_S128x128_64_0) p q := by
  unfold Cert.Spec.readoutRowAt
  rw [sum_192]
  simp only [cat_lo, cat_hi, w_lo, w_hi]

/-- The reference's last stretch — join, product with the weights, relu, sum down the rows — is the kernel's result row
    read as a vector: the contraction splits 64 + 128, and the sum over the 50000 rows is taken block by block. -/
theorem readout_ref (x : Cert.Spec.A2 50000 64) (n : Cert.Spec.A2 50000 128) (wa : Cert.Spec.A2 192 128) :
    Host.reduceAdd (F := Ideal) (φ := .f32) (maximumf (Host.dotGeneral (φ₁ := .f32) (φ₂ := .f32) Cert.ReferenceIdeal.dot_S50000x192_S192x128_S50000x128_1_0_0_1_n_n none
            (concatenate Cert.ReferenceIdeal.S50000x192 1 [⟨Cert.ReferenceIdeal.S50000x64, x⟩, ⟨Cert.ReferenceIdeal.S50000x128, n⟩] Cert.ReferenceIdeal.Gen.concatenates_S50000x64_S50000x128_S50000x192_d1) wa)
          (broadcastInDim Cert.ReferenceIdeal.S50000x128 ![] Cert.ReferenceIdeal.Gen.bcast_S_S50000x128 (constant Cert.ReferenceIdeal.S_ .f32 0x00000000#32)))
        (constant Cert.ReferenceIdeal.S_ .f32 0x00000000#32) Cert.ReferenceIdeal.Gen.reducesTo_S50000x128_S128_d0 Cert.ReferenceIdeal.Gen.h_S_
      = shapeCast Cert.KernelIdeal.S128 (Cert.Spec.readout x n (extractStridedSlice Cert.KernelIdeal.S64x128 ![0, 0] wa Cert.KernelIdeal.Gen.slices_S192x128_S64x128_0_0)
          (extractStridedSlice Cert.KernelIdeal.S128x128 ![64, 0] wa Cert.KernelIdeal.Gen.slices_S192x128_S128x128_64_0)) Cert.KernelIdeal.Gen.shapeCasts_S1x128_S128 := by
  funext i
  obtain ⟨q, rfl⟩ : ∃ q : Fin 128, i = ix1 q := ⟨i 0, eq_ix1 i⟩
  rw [reduce_at]
  refine Eq.trans ?_ (shapeCast_apply _ Cert.KernelIdeal.Gen.shapeCasts_S1x128_S128 (ix1 q) (ix2 (0 : Fin 1) q) ?_).symm
  · show Ideal.ofBits .f32 0x00000000#32 + _ = ∑ t : Fin 10, ∑ r : Fin 5000, _
    rw [Ideal.ofBits_zero_f32, zero_add, sum_50000]
    refine Finset.sum_congr rfl fun t _ => Finset.sum_congr rfl fun r _ => ?_
    rw [maximumf_apply, dot_at, zeros_at]
    exact row_at x n wa (Cert.Spec.blockRow t r) q
  · rw [Shape.rowMajor_val_two, Shape.rowMajor_val_one]
    show 0 * 128 + q.val = q.val
    omega

end Cert.Bridge

end
-- ==== Proof.Bridge.lean ====
/-
  The two idealized programs compute one value.  The reference's result is its host operations composed over
  the argument arrays; the kernel program's is the same composition with each call's result the specification's
  whole-array function.  The three places where they differ are exactly the three calls: concat-then-matmul
  against two matmuls summed (the contraction sum split at column 64), subtract-then-matmul against the same,
  and one sum over all rows against ten block sums added up.  Rewriting the reference's term by those three
  equations, and its argument arrays by the agreement of the two launch memories, leaves the kernel program's
  composed value, operation for operation.
-/
import proofs.«128767_j54949811585617_1_alg».proof.Proof.KiValue
import proofs.«128767_j54949811585617_1_alg».proof.Proof.RefE0
import proofs.«128767_j54949811585617_1_alg».proof.Proof.RefE1
import proofs.«128767_j54949811585617_1_alg».proof.Proof.RefE2
import proofs.«128767_j54949811585617_1_alg».proof.Proof.RefSide

set_option maxRecDepth 16384

noncomputable section

namespace Cert.Bridge

open Idealize.ShloMosaic Idealize.ShloMosaic.TcCoe Idealize.SL.Sem

set_option maxHeartbeats 4000000 in
/-- The reference's composed result term, at memories agreeing on the arguments, is the kernel program's composed value. -/
theorem value_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))) (c : Dev Cert.KernelIdeal.nD) :
    Cert.ReferenceIdeal.Value.res_main_v40 (F := Ideal) m' c = Cert.KernelIdeal.Frame.kv38 m ρ c := by
  obtain ⟨h0, h1, h2, h3, h4, h5, h6⟩ := hagree c
  unfold Cert.ReferenceIdeal.Value.res_main_v40
  rw [readout_ref, message_ref, edgeInit_ref]
  rw [h0, h1, h2, h3, h4, h5, h6]
  unfold Cert.KernelIdeal.Frame.kv38 Cert.KernelIdeal.Frame.kv37 Cert.KernelIdeal.Frame.kv34 Cert.KernelIdeal.Frame.kv35 Cert.KernelIdeal.Frame.kv36 Cert.KernelIdeal.Frame.kv31 Cert.KernelIdeal.Frame.kv23 Cert.KernelIdeal.Frame.kv30
    Cert.KernelIdeal.Frame.kv13 Cert.KernelIdeal.Frame.kv10 Cert.KernelIdeal.Frame.kv11 Cert.KernelIdeal.Frame.kv12 Cert.KernelIdeal.Frame.kv1 Cert.KernelIdeal.Frame.kv3
  rfl

end Cert.Bridge

end
-- ==== Proof.lean ====
/-
  The certificate: the word-level kernel program and its idealization both run to the end with their argument
  arrays unchanged (three pipelined calls among host stretches, the last call carrying a running sum between
  its grid points); the reference runs as a straight line of host operations; the idealization rewrote no
  operation; and at the extended reals the idealized kernel program and the reference end with equal results,
  because relu(x·W₁ + e·W₂) is relu([x e]·W) with the contraction split at a column, and a sum over all rows
  is the sum of its blocks' sums.
-/
import proofs.«128767_j54949811585617_1_alg».proof.Defs
import proofs.«128767_j54949811585617_1_alg».proof.Proof.Gen.Kernel
import proofs.«128767_j54949811585617_1_alg».proof.Proof.Gen.KernelIdeal
import proofs.«128767_j54949811585617_1_alg».proof.Proof.Gen.ReferenceIdeal
import proofs.«128767_j54949811585617_1_alg».proof.Proof.Gen.Pre_finite_inputs
import proofs.«128767_j54949811585617_1_alg».proof.Proof.KbRun
import proofs.«128767_j54949811585617_1_alg».proof.Proof.KiValue
import proofs.«128767_j54949811585617_1_alg».proof.Proof.Bridge

noncomputable section

namespace Cert.Proof

open Idealize.ShloMosaic Idealize.SL.Sem

theorem frame_k : Cert.frame_Kernel := fun m ρ _ => Cert.Kernel.Frame.frame (F := Bits) m ρ

theorem frame_ki : Cert.frame_KernelIdeal := fun m ρ _ => Cert.KernelIdeal.Frame.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := fun m ρ m' ρ' _ hagree =>
  ⟨fun c => Cert.KernelIdeal.Frame.kv38 m ρ c, Cert.KernelIdeal.Frame.run_value m ρ,
    (θ_run Cert.ReferenceIdeal.defs _ _).mono (fun _ h c => ⟨(h c).1.trans (Cert.Bridge.value_eq m ρ m' hagree c), (h c).2⟩)
      (Cert.ReferenceIdeal.Value.run (F := Ideal) m' ρ')⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
